-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x640000 : Shape := ⟨2, ![2, 640000]⟩
abbrev S20000 : Shape := ⟨1, ![20000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x640000 : S_.BroadcastsInDim S2x640000 (![] : Fin 0 → Fin S2x640000.rank)
  reducesTo_S2x640000_S_d0_1 : S2x640000.ReducesTo [0, 1] S_
  bcast_S_S20000 : S_.BroadcastsInDim S20000 (![] : Fin 0 → Fin S20000.rank)
  reducesTo_S20000_S_d0 : S20000.ReducesTo [0] S_

variable [Facts]

def fn_part2 {F : FTy → Type} [FloatOps F] (main_arg1 : IVec S2x640000 32) (main_arg2 : IVec S20000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 20000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  let main_c_15 : IVec S_ 32 := constantI S_ 32 0#32
  let main_v41 : IVec S20000 32 := broadcastInDim S20000 ![] bcast_S_S20000 main_c_15
  let main_v42 : IVec S20000 1 := cmpi .sge main_arg2 main_v41
  let main_c_16 : IVec S_ 32 := constantI S_ 32 64#32
  let main_v43 : IVec S20000 32 := broadcastInDim S20000 ![] bcast_S_S20000 main_c_16
  let main_v44 : IVec S20000 1 := cmpi .slt main_arg2 main_v43
  let main_v45 : IVec S20000 1 := andi main_v42 main_v44
  let main_c_17 : IVec S_ 1 := constantI S_ 1 1#1
  let main_v46 : IVec S_ 1 := (fun x v => Host.reduce IntOp.andi x v reducesTo_S20000_S_d0 h_S_) main_v45 main_c_17
  let main_v47 : IVec S_ 1 := andi main_v40 main_v46
  main_v47

def fn_part1 {F : FTy → Type} [FloatOps F] (main_arg1 : IVec S2x640000 32) (main_arg2 : IVec S20000 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_v33

def fn {F : FTy → Type} [FloatOps F] (main_arg0 : FVec F S20000x256 .f32) (main_arg1 : IVec S2x640000 32) (main_arg2 : IVec S20000 32) (main_arg3 : FVec F S256x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_v13 main_v16
-- ==== Kernel.lean ====
abbrev S20000x256 : Shape := ⟨2, ![20000, 256]⟩
abbrev S2x640000 : Shape := ⟨2, ![2, 640000]⟩
abbrev S20000 : Shape := ⟨1, ![20000]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1280000 : Shape := ⟨1, ![1280000]⟩
abbrev S2560000 : Shape := ⟨1, ![2560000]⟩
abbrev S1280000x1 : Shape := ⟨2, ![1280000, 1]⟩
abbrev S40000x64 : Shape := ⟨2, ![40000, 64]⟩
abbrev S20000x64 : Shape := ⟨2, ![20000, 64]⟩
abbrev S64 : Shape := ⟨1, ![64]⟩
abbrev S20000x128 : Shape := ⟨2, ![20000, 128]⟩
abbrev S2x128x384 : Shape := ⟨3, ![2, 128, 384]⟩
abbrev S5000x256 : Shape := ⟨2, ![5000, 256]⟩
abbrev S5000x128 : Shape := ⟨2, ![5000, 128]⟩
abbrev S1x128x384 : Shape := ⟨3, ![1, 128, 384]⟩
abbrev S5000x384 : Shape := ⟨2, ![5000, 384]⟩
abbrev S128x384 : Shape := ⟨2, ![128, 384]⟩
abbrev S1x128 : Shape := ⟨2, ![1, 128]⟩
abbrev S64x128 : Shape := ⟨2, ![64, 128]⟩
abbrev S64x256 : Shape := ⟨2, ![64, 256]⟩
abbrev S64x1 : Shape := ⟨2, ![64, 1]⟩
abbrev S64x768 : Shape := ⟨2, ![64, 768]⟩

abbrev nBuf : Space → Nat
  | .hbm => 84
  | .vmem => 13
  | .smem => 0
  | _ => 0

abbrev bufTy : (tb : Table) → Fin (tcTables nBuf tb) → BufTy
  | .hbm, ⟨0, _⟩ => ⟨S20000x256, .f32⟩
  | .hbm, ⟨1, _⟩ => ⟨S2x640000, .i32⟩
  | .hbm, ⟨2, _⟩ => ⟨S20000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000, .i32⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S1280000, .i32⟩
  | .hbm, ⟨34, _⟩ => ⟨S_, .f32⟩
  | .hbm, ⟨35, _⟩ => ⟨S1280000, .f32⟩
  | .hbm, ⟨36, _⟩ => ⟨S_, .f32⟩
  | .hbm, ⟨37, _⟩ => ⟨S2560000, .f32⟩
  | .hbm, ⟨38, _⟩ => ⟨S1280000x1, .i32⟩
  | .hbm, ⟨39, _⟩ => ⟨S2560000, .f32⟩
  | .hbm, ⟨40, _⟩ => ⟨S40000x64, .f32⟩
  | .hbm, ⟨41, _⟩ => ⟨S20000x64, .f32⟩
  | .hbm, ⟨42, _⟩ => ⟨S20000x64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S20000x128, .f32⟩
  | .hbm, ⟨52, _⟩ => ⟨S20000x128, .bf16⟩
  | .hbm, ⟨53, _⟩ => ⟨S256x128, .bf16⟩
  | .hbm, ⟨54, _⟩ => ⟨S128x128, .bf16⟩
  | .hbm, ⟨55, _⟩ => ⟨S128x128, .bf16⟩
  | .hbm, ⟨56, _⟩ => ⟨S2x128x384, .f32⟩
  | .hbm, ⟨57, _⟩ => ⟨S1x128x384, .f32⟩
  | .hbm, ⟨58, _⟩ => ⟨S128x384, .f32⟩
  | .hbm, ⟨59, _⟩ => ⟨S1x128x384, .f32⟩
  | .hbm, ⟨60, _⟩ => ⟨S128x384, .f32⟩
  | .hbm, ⟨61, _⟩ => ⟨S128x384, .f32⟩
  | .hbm, ⟨62, _⟩ => ⟨S128x128, .f32⟩
  | .hbm, ⟨63, _⟩ => ⟨S64x128, .f32⟩
  | .hbm, ⟨64, _⟩ => ⟨S64x128, .f32⟩
  | .hbm, ⟨65, _⟩ => ⟨S64x256, .f32⟩
  | .hbm, ⟨66, _⟩ => ⟨S64x1, .f32⟩
  | .hbm, ⟨67, _⟩ => ⟨S64x256, .f32⟩
  | .hbm, ⟨68, _⟩ => ⟨S64x256, .f32⟩
  | .hbm, ⟨69, _⟩ => ⟨S128x128, .f32⟩
  | .hbm, ⟨70, _⟩ => ⟨S64x128, .f32⟩
  | .hbm, ⟨71, _⟩ => ⟨S64x128, .f32⟩
  | .hbm, ⟨72, _⟩ => ⟨S64x256, .f32⟩
  | .hbm, ⟨73, _⟩ => ⟨S64x1, .f32⟩
  | .hbm, ⟨74, _⟩ => ⟨S64x256, .f32⟩
  | .hbm, ⟨75, _⟩ => ⟨S64x256, .f32⟩
  | .hbm, ⟨76, _⟩ => ⟨S128x128, .f32⟩
  | .hbm, ⟨77, _⟩ => ⟨S64x128, .f32⟩
  | .hbm, ⟨78, _⟩ => ⟨S64x128, .f32⟩
  | .hbm, ⟨79, _⟩ => ⟨S64x256, .f32⟩
  | .hbm, ⟨80, _⟩ => ⟨S64x1, .f32⟩
  | .hbm, ⟨81, _⟩ => ⟨S64x256, .f32⟩
  | .hbm, ⟨82, _⟩ => ⟨S64x256, .f32⟩
  | .hbm, ⟨83, _⟩ => ⟨S64x768, .f32⟩
  | .local _ .vmem, ⟨0, _⟩ => ⟨S5000x256, .f32⟩
  | .local _ .vmem, ⟨1, _⟩ => ⟨S5000x256, .f32⟩
  | .local _ .vmem, ⟨2, _⟩ => ⟨S5000x128, .bf16⟩
  | .local _ .vmem, ⟨3, _⟩ => ⟨S5000x128, .bf16⟩
  | .local _ .vmem, ⟨4, _⟩ => ⟨S256x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S1x128x384, .f32⟩
  | .local _ .vmem, ⟨11, _⟩ => ⟨S1x128x384, .f32⟩
  | .local _ .vmem, ⟨12, _⟩ => ⟨S5000x384, .bf16⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000_S640000_S1280000_d0 : Shape.Concatenates [S640000, S640000] S1280000 0
  bcast_S_S1280000 : S_.BroadcastsInDim S1280000 (![] : Fin 0 → Fin S1280000.rank)
  bcast_S_S2560000 : S_.BroadcastsInDim S2560000 (![] : Fin 0 → Fin S2560000.rank)
  bcast_S1280000_S1280000x1_0 : S1280000.BroadcastsInDim S1280000x1 (![0] : Fin 1 → Fin S1280000x1.rank)
  shapeCasts_S2560000_S40000x64 : S2560000.ShapeCasts S40000x64
  slices_S40000x64_S20000x64_0_0 : S40000x64.Slices ![0, 0] S20000x64
  slices_S40000x64_S20000x64_20000_0 : S40000x64.Slices ![20000, 0] S20000x64
  reducesTo_S20000x64_S64_d0 : S20000x64.ReducesTo [0] S64
  h_S_ : 0 < S_.numel
  bcast_S_S64 : S_.BroadcastsInDim S64 (![] : Fin 0 → Fin S64.rank)
  concatenates_S20000x64_S20000x64_S20000x128_d1 : Shape.Concatenates [S20000x64, S20000x64] S20000x128 1
  bitsLt_bf16_f32 : FTy.bits .bf16 < FTy.bits .f32
  inb_S1x128x384_S1x128x384_0_0_0 : ∀ a, (![0, 0, 0] : Fin 3 → Nat) a + S1x128x384.size a ≤ S1x128x384.size a
  h_S1x128x384 : 0 < S1x128x384.numel
  shapeCasts_S1x128x384_S128x384 : S1x128x384.ShapeCasts S128x384
  shapeCasts_S128x384_S1x128x384 : S128x384.ShapeCasts S1x128x384
  inb_S5000x256_S5000x256_0_0 : ∀ a, (![0, 0] : Fin 2 → Nat) a + S5000x256.size a ≤ S5000x256.size a
  h_S5000x256 : 0 < S5000x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x384_S5000x128_0_0 : ∀ a, (![0, 0] : Fin 2 → Nat) a + S5000x128.size a ≤ S5000x384.size a
  packedbf16_S5000x384_S5000x128_0_0 : (Rect.unit (s := S5000x384) ![0, 0] S5000x128.size inb_S5000x384_S5000x128_0_0).PackedRows (EltTy.packing .bf16)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x384_S5000x128_0_128 : ∀ a, (![0, 128] : Fin 2 → Nat) a + S5000x128.size a ≤ S5000x384.size a
  packedbf16_S5000x384_S5000x128_0_128 : (Rect.unit (s := S5000x384) ![0, 128] S5000x128.size inb_S5000x384_S5000x128_0_128).PackedRows (EltTy.packing .bf16)
  inb_S5000x384_S5000x128_0_256 : ∀ a, (![0, 256] : Fin 2 → Nat) a + S5000x128.size a ≤ S5000x384.size a
  packedbf16_S5000x384_S5000x128_0_256 : (Rect.unit (s := S5000x384) ![0, 256] S5000x128.size inb_S5000x384_S5000x128_0_256).PackedRows (EltTy.packing .bf16)
  inb_S5000x384_S5000x384_0_0 : ∀ a, (![0, 0] : Fin 2 → Nat) a + S5000x384.size a ≤ S5000x384.size a
  h_S5000x384 : 0 < S5000x384.numel
  slices_S2x128x384_S1x128x384_0_0_0 : S2x128x384.Slices ![0, 0, 0] S1x128x384
  slices_S2x128x384_S1x128x384_1_0_0 : S2x128x384.Slices ![1, 0, 0] S1x128x384
  slices_S128x384_S128x128_0_0 : S128x384.Slices ![0, 0] S128x128
  slices_S128x128_S64x128_0_0 : S128x128.Slices ![0, 0] S64x128
  slices_S128x128_S64x128_64_0 : S128x128.Slices ![64, 0] S64x128
  concatenates_S64x128_S64x128_S64x256_d1 : Shape.Concatenates [S64x128, S64x128] S64x256 1
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  slices_S128x384_S128x128_0_128 : S128x384.Slices ![0, 128] S128x128
  slices_S128x384_S128x128_0_256 : S128x384.Slices ![0, 256] S128x128
  concatenates_S64x256_S64x256_S64x256_S64x768_d1 : Shape.Concatenates [S64x256, S64x256, S64x256] S64x768 1
  gather_S20000_S640000x1_S640000_n_0_n_n_0_1_1_wf : GatherDims.WF S20000 S640000x1 S640000 [] [0] [] [0] [] 1 ![1]
  scatter_S2560000_S1280000x1_S1280000_n_0_0_1_wf : ScatterDims.WF S2560000 S1280000x1 S1280000 [] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S5000x128_S5000x384_S128x384_0_0_1_1_n_n_wf : DotDims.WF S5000x128 S5000x384 S128x384 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S20000x256.size a
  hwx0_0 : ∀ i : grid0.Coords, EltTy.bits .f32 = 32 ∨ (Rect.block (s := S20000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S20000x128.size a
  hwx0_1 : ∀ i : grid0.Coords, EltTy.bits .bf16 = 32 ∨ (Rect.block (s := S20000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x384.size a ≤ S2x128x384.size a
  hwx0_8 : ∀ i : grid0.Coords, EltTy.bits .f32 = 32 ∨ (Rect.block (s := S2x128x384) S1x128x384.size (cc0_transform_8 i) (hinb0_8 i)).WholeWords (EltTy.packing .f32)

variable [Facts₀]

def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def scatter_S2560000_S1280000x1_S1280000_n_0_0_1 : ScatterDims S2560000 S1280000x1 S1280000 where
  updateWindowDims := []
  insertedWindowDims := [0]
  scatterDimsToOperandDims := [0]
  indexVectorDim := 1
  wf := scatter_S2560000_S1280000x1_S1280000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x384_S128x384_0_0_1_1_n_n : DotDims S5000x128 S5000x384 S128x384 where
  lhsContracting := [0]
  rhsContracting := [0]
  lhsNonContracting := [1]
  rhsNonContracting := [1]
  lhsBatch := []
  rhsBatch := []
  wf := dot_S5000x128_S5000x384_S128x384_0_0_1_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x128x384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S20000x256 : Shape := ⟨2, ![20000, 256]⟩
abbrev S2x640000 : Shape := ⟨2, ![2, 640000]⟩
abbrev S20000 : Shape := ⟨1, ![20000]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S64x1 : Shape := ⟨2, ![64, 1]⟩
abbrev S20000x128 : Shape := ⟨2, ![20000, 128]⟩
abbrev S1x128 : Shape := ⟨2, ![1, 128]⟩
abbrev S640000x128 : Shape := ⟨2, ![640000, 128]⟩
abbrev S640000x256 : Shape := ⟨2, ![640000, 256]⟩
abbrev S64x256 : Shape := ⟨2, ![64, 256]⟩
abbrev S64x768 : Shape := ⟨2, ![64, 768]⟩

abbrev nBuf : Space → Nat
  | .hbm => 122
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x640000, .i32⟩
  | .hbm, ⟨2, _⟩ => ⟨S20000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000, .i32⟩
  | .hbm, ⟨22, _⟩ => ⟨S_, .f32⟩
  | .hbm, ⟨23, _⟩ => ⟨S640000x1, .f32⟩
  | .hbm, ⟨24, _⟩ => ⟨S_, .f32⟩
  | .hbm, ⟨25, _⟩ => ⟨S64x1, .f32⟩
  | .hbm, ⟨26, _⟩ => ⟨S640000x1, .i32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S64x1, .f32⟩
  | .hbm, ⟨33, _⟩ => ⟨S64x1, .f32⟩
  | .hbm, ⟨34, _⟩ => ⟨S20000x128, .f32⟩
  | .hbm, ⟨35, _⟩ => ⟨S1x128, .f32⟩
  | .hbm, ⟨36, _⟩ => ⟨S20000x128, .f32⟩
  | .hbm, ⟨37, _⟩ => ⟨S20000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x256, .f32⟩
  | .hbm, ⟨57, _⟩ => ⟨S_, .f32⟩
  | .hbm, ⟨58, _⟩ => ⟨S64x256, .f32⟩
  | .hbm, ⟨59, _⟩ => ⟨S640000x1, .i32⟩
  | .hbm, ⟨60, _⟩ => ⟨S64x256, .f32⟩
  | .hbm, ⟨61, _⟩ => ⟨S64x256, .f32⟩
  | .hbm, ⟨62, _⟩ => ⟨S64x256, .f32⟩
  | .hbm, ⟨63, _⟩ => ⟨S20000x128, .f32⟩
  | .hbm, ⟨64, _⟩ => ⟨S1x128, .f32⟩
  | .hbm, ⟨65, _⟩ => ⟨S20000x128, .f32⟩
  | .hbm, ⟨66, _⟩ => ⟨S20000x128, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x128, .f32⟩
  | .hbm, ⟨76, _⟩ => ⟨S_, .i32⟩
  | .hbm, ⟨77, _⟩ => ⟨S640000, .i32⟩
  | .hbm, ⟨78, _⟩ => ⟨S640000, .i1⟩
  | .hbm, ⟨79, _⟩ => ⟨S_, .i32⟩
  | .hbm, ⟨80, _⟩ => ⟨S640000, .i32⟩
  | .hbm, ⟨81, _⟩ => ⟨S640000, .i32⟩
  | .hbm, ⟨82, _⟩ => ⟨S640000, .i32⟩
  | .hbm, ⟨83, _⟩ => ⟨S640000x1, .i32⟩
  | .hbm, ⟨84, _⟩ => ⟨S640000x128, .f32⟩
  | .hbm, ⟨85, _⟩ => ⟨S640000x256, .f32⟩
  | .hbm, ⟨86, _⟩ => ⟨S_, .f32⟩
  | .hbm, ⟨87, _⟩ => ⟨S64x256, .f32⟩
  | .hbm, ⟨88, _⟩ => ⟨S640000x1, .i32⟩
  | .hbm, ⟨89, _⟩ => ⟨S64x256, .f32⟩
  | .hbm, ⟨90, _⟩ => ⟨S64x256, .f32⟩
  | .hbm, ⟨91, _⟩ => ⟨S64x256, .f32⟩
  | .hbm, ⟨92, _⟩ => ⟨S20000x128, .f32⟩
  | .hbm, ⟨93, _⟩ => ⟨S1x128, .f32⟩
  | .hbm, ⟨94, _⟩ => ⟨S20000x128, .f32⟩
  | .hbm, ⟨95, _⟩ => ⟨S20000x128, .f32⟩
  | .hbm, ⟨96, _⟩ => ⟨S_, .i32⟩
  | .hbm, ⟨97, _⟩ => ⟨S640000, .i32⟩
  | .hbm, ⟨98, _⟩ => ⟨S640000, .i1⟩
  | .hbm, ⟨99, _⟩ => ⟨S_, .i32⟩
  | .hbm, ⟨100, _⟩ => ⟨S640000, .i32⟩
  | .hbm, ⟨101, _⟩ => ⟨S640000, .i32⟩
  | .hbm, ⟨102, _⟩ => ⟨S640000, .i32⟩
  | .hbm, ⟨103, _⟩ => ⟨S640000x1, .i32⟩
  | .hbm, ⟨104, _⟩ => ⟨S640000x128, .f32⟩
  | .hbm, ⟨105, _⟩ => ⟨S_, .i32⟩
  | .hbm, ⟨106, _⟩ => ⟨S640000, .i32⟩
  | .hbm, ⟨107, _⟩ => ⟨S640000, .i1⟩
  | .hbm, ⟨108, _⟩ => ⟨S_, .i32⟩
  | .hbm, ⟨109, _⟩ => ⟨S640000, .i32⟩
  | .hbm, ⟨110, _⟩ => ⟨S640000, .i32⟩
  | .hbm, ⟨111, _⟩ => ⟨S640000, .i32⟩
  | .hbm, ⟨112, _⟩ => ⟨S640000x1, .i32⟩
  | .hbm, ⟨113, _⟩ => ⟨S640000x128, .f32⟩
  | .hbm, ⟨114, _⟩ => ⟨S640000x256, .f32⟩
  | .hbm, ⟨115, _⟩ => ⟨S_, .f32⟩
  | .hbm, ⟨116, _⟩ => ⟨S64x256, .f32⟩
  | .hbm, ⟨117, _⟩ => ⟨S640000x1, .i32⟩
  | .hbm, ⟨118, _⟩ => ⟨S64x256, .f32⟩
  | .hbm, ⟨119, _⟩ => ⟨S64x256, .f32⟩
  | .hbm, ⟨120, _⟩ => ⟨S64x256, .f32⟩
  | .hbm, ⟨121, _⟩ => ⟨S64x768, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_c_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S_S64x1 : S_.BroadcastsInDim S64x1 (![] : Fin 0 → Fin S64x1.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  concatenates_S640000x128_S640000x128_S640000x256_d1 : Shape.Concatenates [S640000x128, S640000x128] S640000x256 1
  bcast_S_S64x256 : S_.BroadcastsInDim S64x256 (![] : Fin 0 → Fin S64x256.rank)
  bcast_S64x1_S64x256_0_1 : S64x1.BroadcastsInDim S64x256 (![0, 1] : Fin 2 → Fin S64x256.rank)
  concatenates_S64x256_S64x256_S64x256_S64x768_d1 : Shape.Concatenates [S64x256, S64x256, S64x256] S64x768 1
  gather_S20000_S640000x1_S640000_n_0_n_n_0_1_1_wf : GatherDims.WF S20000 S640000x1 S640000 [] [0] [] [0] [] 1 ![1]
  scatter_S64x1_S640000x1_S640000x1_1_0_0_1_wf : ScatterDims.WF S64x1 S640000x1 S640000x1 [1] [0] [0] 1
  dot_S20000x256_S256x128_S20000x128_1_0_0_1_n_n_wf : DotDims.WF S20000x256 S256x128 S20000x128 [1] [0] [0] [1] [] []
  gather_S20000x128_S640000x1_S640000x128_1_0_n_n_0_1_1128_wf : GatherDims.WF S20000x128 S640000x1 S640000x128 [1] [0] [] [0] [] 1 ![1, 128]
  scatter_S64x256_S640000x1_S640000x256_1_0_0_1_wf : ScatterDims.WF S64x256 S640000x1 S640000x256 [1] [0] [0] 1
  dot_S20000x128_S128x128_S20000x128_1_0_0_1_n_n_wf : DotDims.WF S20000x128 S128x128 S20000x128 [1] [0] [0] [1] [] []

variable [Facts₀]

def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def scatter_S64x1_S640000x1_S640000x1_1_0_0_1 : ScatterDims S64x1 S640000x1 S640000x1 where
  updateWindowDims := [1]
  insertedWindowDims := [0]
  scatterDimsToOperandDims := [0]
  indexVectorDim := 1
  wf := scatter_S64x1_S640000x1_S640000x1_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S64x256_S640000x1_S640000x256_1_0_0_1 : ScatterDims S64x256 S640000x1 S640000x256 where
  updateWindowDims := [1]
  insertedWindowDims := [0]
  scatterDimsToOperandDims := [0]
  indexVectorDim := 1
  wf := scatter_S64x256_S640000x1_S640000x256_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KFrameKitB.lean ====
/- The launch side of the kernel's frame: the buffer contents the region is entered with, the blocks the input
   windows hold, what the carried output buffer holds before the body, the closed form of the body's branch, the
   program around the region as a chain, the side conditions of the operations after the region, and the passage
   from the run's post to the frame statement. Everything is stated at any float family. -/
import proofs.«403037_j2001454760607_3_alg».proof.Proof.Gen.Kernel.Launch
import proofs.«403037_j2001454760607_3_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffer contents once the 47 operations before the region have run from `m`. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The operations before and after the region allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A reference is written by none of the listed operations when it differs from each operation's result: the list is
    opened into one inequality of references per operation, each decided. -/
local macro "each_result_differs" : tactic => `(tactic| (
  simp only [hostOps0, hostOps1, List.flatten_cons, List.flatten_nil, List.append_nil, List.cons_append, List.nil_append,
    List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- No operation before the region has `main_arg0` as its result: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by each_result_differs))
/-- No operation before the region has `main_arg1` as its result: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by each_result_differs))
/-- No operation before the region has `main_arg2` as its result: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by each_result_differs))
/-- No operation before the region has `main_arg3` as its result: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by each_result_differs))
/-- No operation before the region has `main_arg4` as its result: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by each_result_differs))
/-- No operation before the region has `main_arg5` as its result: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by each_result_differs))
/-- No operation before the region has `main_arg6` as its result: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by each_result_differs))
/-- No operation before the region has `main_arg7` as its result: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by each_result_differs))
/-- No operation before the region has `main_arg8` as its result: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by each_result_differs))

/-! ## The program around the region -/

/-- The program is the operations before the region, the region, the operations after it: it reduces to the region
    continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- No later operation has a window's array as its result. -/
theorem hostOps1_keeps (w : Fin 9) : ∀ op ∈ (hostOps1 : List (HloOp τ sig (Elt F))), Proc.devRef .tc (Pipeline.arrRef spec0 w) ∉ op.writes := by
  fin_cases w <;> exact List.forall_iff_forall_mem.mp (by each_result_differs)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact hostOps1_keeps w op hop

/-! ## The input windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (unfetched, the block index
    has not moved), for any proof data over the region's entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (unfetched, the block index
    has not moved), for any proof data over the region's entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (unfetched, the block index
    has not moved), for any proof data over the region's entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (unfetched, the block index
    has not moved), for any proof data over the region's entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (unfetched, the block index
    has not moved), for any proof data over the region's entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (unfetched, the block index
    has not moved), for any proof data over the region's entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (unfetched, the block index
    has not moved), for any proof data over the region's entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (unfetched, the block index
    has not moved), for any proof data over the region's entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The carried output window -/

/-- The output window is live at every point. -/
theorem liveAt0_8 : ∀ i, cfg0.idle 8 i = false := fun _ => rfl
/-- The point before `t`. -/
abbrev prevPt (t : Fin cfg0.N) : Fin cfg0.N := ⟨t.val - 1, Nat.lt_of_le_of_lt (Nat.sub_le _ _) t.isLt⟩
/-- At an odd point the output window's buffer holds what the body left at the point before: its block index has not
    moved and the even point before does not write it back. -/
theorem before0_8_acc {c : Dev nD} (dat : Dat τ (Elt F) Unit ℕ (UR sig nD τ) ℕ cfg0 c) (t : Fin cfg0.N) (ht : t.val % 2 = 1) (d) :
    dat.before 8 t d = dat.after 8 (prevPt t) :=
  dat.before_out_kept 8 rfl t (by omega)
    (by
      have h := flush0_8 (prevPt t)
      cases hfl : (cfg0.win 8).flush (prevPt t) with
      | false => rfl
      | true => exact absurd (h.mp hfl) (by show ¬ ((t.val - 1) % 2 = 1); omega))
    liveAt0_8 (fun _ _ => rfl) d
/-- At an even point the output window's buffer is fresh: the first point, or the point after a write-back. -/
theorem before0_8_reset {c : Dev nD} (dat : Dat τ (Elt F) Unit ℕ (UR sig nD τ) ℕ cfg0 c) (t : Fin cfg0.N) (ht : t.val % 2 = 0) (d) :
    dat.before 8 t d = d :=
  dat.before_out_reset 8 rfl t (by
    by_cases h0 : t.val = 0
    · exact .inl h0
    · exact .inr ⟨h0, (flush0_8 (prevPt t)).mpr (by show (t.val - 1) % 2 = 1; omega)⟩) d

/-! ## The body's branch -/

/-- The condition of the body's branch at grid coordinates `i`: the second coordinate is zero, as the printed word chain. -/
abbrev cond0 (i : grid0.Coords) : Prop :=
  (Scalar.cmpi .ne (Scalar.extui (Scalar.cmpi .eq (BitVec.ofNat 32 (i 1).val) 0#32)) 0#32) = 1#1
/-- It holds at the even points. -/
theorem hcond0 : ∀ t : Fin cfg0.N, cond0 (grid0.coords t) ↔ t.val % 2 = 0 :=
  (by decide +kernel : ∀ t : Fin grid0.N, cond0 (grid0.coords t) ↔ t.val % 2 = 0)

/-! ## From the run's post to the frame statement -/

/-- `main_arg1` is no window's array and no later operation's result: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by each_result_differs)),
    Pipeline.withArrays_of_ne _ c (V0 m c) _ main_arg1 (by exact (by decide : ∀ w, Pipeline.arrRef spec0 w ≠ main_arg1))]
  exact V_main_arg1 m c
/-- `main_arg2` is no window's array and no later operation's result: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by each_result_differs)),
    Pipeline.withArrays_of_ne _ c (V0 m c) _ main_arg2 (by exact (by decide : ∀ w, Pipeline.arrRef spec0 w ≠ main_arg2))]
  exact V_main_arg2 m c
/-- `main_arg3` is no window's array and no later operation's result: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by each_result_differs)),
    Pipeline.withArrays_of_ne _ c (V0 m c) _ main_arg3 (by exact (by decide : ∀ w, Pipeline.arrRef spec0 w ≠ main_arg3))]
  exact V_main_arg3 m c
/-- `main_arg5` is no window's array and no later operation's result: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by each_result_differs)),
    Pipeline.withArrays_of_ne _ c (V0 m c) _ main_arg5 (by exact (by decide : ∀ w, Pipeline.arrRef spec0 w ≠ main_arg5))]
  exact V_main_arg5 m c
/-- `main_arg7` is no window's array and no later operation's result: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by each_result_differs)),
    Pipeline.withArrays_of_ne _ c (V0 m c) _ main_arg7 (by exact (by decide : ∀ w, Pipeline.arrRef spec0 w ≠ main_arg7))]
  exact V_main_arg7 m c

/-- The frame statement from a run to the launch theorem's post, for any proof data over the region's entry contents:
    an input window's array ends at its entry contents, a bypassing argument at what the later operations leave,
    each then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 3).trans (((dats 0 c).arrAt_in 3 rfl _).trans ((hA c 3).trans (V_main_arg4 m c))),
      ((h c).2 main_arg5 (Pipeline.mem_restRefs_of main_arg5 (by decide) (by decide))).trans (W_main_arg5 m dats c),
      ((h c).1 5).trans (((dats 0 c).arrAt_in 5 rfl _).trans ((hA c 5).trans (V_main_arg6 m c))),
      ((h c).2 main_arg7 (Pipeline.mem_restRefs_of main_arg7 (by decide) (by decide))).trans (W_main_arg7 m dats c),
      ((h c).1 7).trans (((dats 0 c).arrAt_in 7 rfl _).trans ((hA c 7).trans (V_main_arg8 m c)))⟩) h

/-! ## The scratch operand and the invariant between points -/

/-- The scratch operand, a whole buffer of the kernel's own, as the body is passed it. -/
abbrev scM0 : Memref sig .tc .vmem S5000x384 .bf16 := Memref.whole cc0_scratch0
/-- The invariant between points: the scratch owned at some contents, the generator register at some state. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

end Cert.Kernel.Hand

end
-- ==== Proof.KBodyB.lean ====
import proofs.«403037_j2001454760607_3_alg».proof.Proof.Gen.Kernel.Launch
import proofs.«403037_j2001454760607_3_alg».proof.Proof.Gen.Kernel.Skeleton
import proofs.«403037_j2001454760607_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the pooling kernel, as a map on buffer contents

The body sees a row block `x0` of the first operand (5000 rows, 256 columns), the matching row block
`x1` of the indicator operand (5000 rows, 128 columns), three weight matrices `x2`, `x4`, `x6` with
their bias rows `x3`, `x5`, `x7`, the output block (128 rows by 384 columns) and a scratch of 5000
rows by 384 columns. It applies three affine maps one after the other to the row block (a matrix product
into a zero accumulator plus the bias row, rounded to the narrow format), lays the three results side by
side in the scratch, and adds to the output block the product of the transposed indicator block with the
scratch. At the first step of a core's share the output block is zeroed first. -/

/-- The branch condition of the body as it is spelt in the program: the second grid coordinate (the step
    inside a core's share of the row blocks) is zero. -/
abbrev stepZero (i : grid0.Coords) : Prop :=
  (Scalar.cmpi .ne (Scalar.extui (Scalar.cmpi .eq (BitVec.ofNat 32 (i 1).val) 0#32)) 0#32) = 1#1

/-- The three column slabs the body writes into the scratch, the last written first: columns 256..383
    hold the third affine map's result, columns 128..255 the second's, columns 0..127 the first's. -/
def zPieces (x0 : Vec F S5000x256 .f32) (x2 : Vec F S256x128 .bf16) (x3 : Vec F S128 .f32) (x4 : Vec F S128x128 .bf16)
    (x5 : Vec F S128 .f32) (x6 : Vec F S128x128 .bf16) (x7 : Vec F S128 .f32) : List (View.Piece (Elt F) S5000x384 .bf16) :=
  [⟨Rect.unit (s := S5000x384) ![0, 256] S5000x128.size inb_S5000x384_S5000x128_0_256, k0_pay1 (k0_pay9 x0 x2 x3 x4 x5 x6) x7⟩,
   ⟨Rect.unit (s := S5000x384) ![0, 128] S5000x128.size inb_S5000x384_S5000x128_0_128, k0_pay8 x0 x2 x3 x4 x5⟩,
   ⟨Rect.unit (s := S5000x384) ![0, 0] S5000x128.size inb_S5000x384_S5000x128_0_0, k0_pay6 x0 x2 x3⟩]

/-- The scratch after the three slab stores, as ONE function of its index: the three affine maps' results for
    the row block, side by side. -/
def zcatOf (x0 : Vec F S5000x256 .f32) (x2 : Vec F S256x128 .bf16) (x3 : Vec F S128 .f32) (x4 : Vec F S128x128 .bf16)
    (x5 : Vec F S128 .f32) (x6 : Vec F S128x128 .bf16) (x7 : Vec F S128 .f32) : Vec F S5000x384 .bf16 :=
  View.canon (zPieces x0 x2 x3 x4 x5 x6 x7)

/-- What one grid point leaves in the output block: the block it starts from (`y0`: zeros at a first
    step, else what the point before left) plus the product of the transposed indicator block `x1` with
    the side-by-side results. -/
def outNew (x0 : Vec F S5000x256 .f32) (x1 : Vec F S5000x128 .bf16) (x2 : Vec F S256x128 .bf16) (x3 : Vec F S128 .f32)
    (x4 : Vec F S128x128 .bf16) (x5 : Vec F S128 .f32) (x6 : Vec F S128x128 .bf16) (x7 : Vec F S128 .f32)
    (y0 : Vec F S1x128x384 .f32) : Vec F S1x128x384 .f32 :=
  k0_pay2 (k0_pay4 x1) y0 (zcatOf x0 x2 x3 x4 x5 x6 x7)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole buffer after a list of stores reads the stores' canonical contents: at each index
    the payload of the latest store that covers it. -/
theorem readCov_whole {sig' : RefSig} {κ : Kind} {sp : Space} {S : Shape} {e : EltTy} {Val : EltTy → Type} [∀ e, Nonempty (Val e)]
    (v : View sig' κ sp S e) (L : List (View.Piece Val S e)) {off : Fin S.rank → Nat} (h : off = fun _ => 0)
    (inb : ∀ a, off a + S.size a ≤ S.size a) :
    v.readCov L (Rect.unit off S.size inb).toLoadRect = View.canon L :=
  (View.readCov_eq_canon' v L _).trans (View.ld_unit_zero h inb (View.canon L))

set_option maxHeartbeats 1000000 in
/-- THE FIRST STEP OF A SHARE. On whole buffers holding the row blocks `x0`, `x1`, the weights and biases
    `x2 … x7`, the output buffer and the scratch at anything: the body returns the inputs' buffers as they
    were, the output buffer at `outNew` over the zero block, and the scratch at some contents. -/
theorem body_reset (c : Dev nD) (i : grid0.Coords) (arg2 : Memref sig .tc .vmem S5000x256 .f32) (harg2 : arg2.IsWhole) (arg3 : Memref sig .tc .vmem S5000x128 .bf16) (harg3 : arg3.IsWhole) (arg4 : Memref sig .tc .vmem S256x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x128x384 .f32) (harg10 : arg10.IsWhole) (arg11 : Memref sig .tc .vmem S5000x384 .bf16) (harg11 : arg11.IsWhole) (hc : stepZero i)
    (x0 : Vec F S5000x256 .f32) (x1 : Vec F S5000x128 .bf16) (x2 : Vec F S256x128 .bf16) (x3 : Vec F S128 .f32) (x4 : Vec F S128x128 .bf16) (x5 : Vec F S128 .f32) (x6 : Vec F S128x128 .bf16) (x7 : Vec F S128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
            ∗ owns (c : Thread nD τ) arg10 fullShare (outNew x0 x1 x2 x3 x4 x5 x6 x7 (k0_pay3 (F := F)))
            ∗ (∃ d, owns (c : Thread nD τ) arg11 fullShare d)) -∗ K ⟨⟩))
      ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    sl_unfold_run_names
    rw [View.read_writes_eq_canon _ _ _ (fun y => ⟨_, List.mem_cons_self,
      View.mem_set_unit_zero (S := S1x128x384) zero3 inb_S1x128x384_S1x128x384_0_0_0 y⟩)]
    rw [View.canon_cons_unit_zero (S := S1x128x384) zero3]
    simp only [View.readAt_eq_ld, harg2.read_unread, harg3.read_unread, harg4.read_unread, harg5.read_unread, harg6.read_unread,
      harg7.read_unread, harg8.read_unread, harg9.read_unread,
      View.readCov_unit_zero (S := S1x128x384) _ zero3,
      View.ld_unit_zero (S := S5000x256) zero2, View.ld_unit_zero (S := S5000x128) zero2, View.ld_unit_zero (S := S256x128) zero2,
      View.ld_unit_zero (S := S128) zero1, View.ld_unit_zero (S := S128x128) zero2,
      readCov_whole (S := S5000x384) _ _ zero2]
    unfold outNew zcatOf zPieces
    rfl
  iexists _; iexists _; isplitr
  swap; · iexact HS
  ipureintro; rfl

set_option maxHeartbeats 1000000 in
/-- A LATER STEP OF A SHARE. The same with the output buffer holding `y` (what the point before left): the
    body returns it at `outNew` over `y`. -/
theorem body_acc (c : Dev nD) (i : grid0.Coords) (arg2 : Memref sig .tc .vmem S5000x256 .f32) (harg2 : arg2.IsWhole) (arg3 : Memref sig .tc .vmem S5000x128 .bf16) (harg3 : arg3.IsWhole) (arg4 : Memref sig .tc .vmem S256x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x128x384 .f32) (harg10 : arg10.IsWhole) (arg11 : Memref sig .tc .vmem S5000x384 .bf16) (harg11 : arg11.IsWhole) (hc : ¬ stepZero i)
    (x0 : Vec F S5000x256 .f32) (x1 : Vec F S5000x128 .bf16) (x2 : Vec F S256x128 .bf16) (x3 : Vec F S128 .f32) (x4 : Vec F S128x128 .bf16) (x5 : Vec F S128 .f32) (x6 : Vec F S128x128 .bf16) (x7 : Vec F S128 .f32) (y : Vec F S1x128x384 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare y ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
            ∗ owns (c : Thread nD τ) arg10 fullShare (outNew x0 x1 x2 x3 x4 x5 x6 x7 y)
            ∗ (∃ d, owns (c : Thread nD τ) arg11 fullShare d)) -∗ K ⟨⟩))
      ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    sl_unfold_run_names
    rw [View.read_writes_eq_canon _ _ _ (fun y => ⟨_, List.mem_cons_self,
      View.mem_set_unit_zero (S := S1x128x384) zero3 inb_S1x128x384_S1x128x384_0_0_0 y⟩)]
    rw [View.canon_cons_unit_zero (S := S1x128x384) zero3]
    simp only [View.readAt_eq_ld, harg2.read_unread, harg3.read_unread, harg4.read_unread, harg5.read_unread, harg6.read_unread,
      harg7.read_unread, harg8.read_unread, harg9.read_unread,
      harg10.read_unread, View.ld_unit_zero (S := S1x128x384) zero3,
      View.ld_unit_zero (S := S5000x256) zero2, View.ld_unit_zero (S := S5000x128) zero2, View.ld_unit_zero (S := S256x128) zero2,
      View.ld_unit_zero (S := S128) zero1, View.ld_unit_zero (S := S128x128) zero2,
      readCov_whole (S := S5000x384) _ _ zero2]
    unfold outNew zcatOf zPieces
    rfl
  iexists _; iexists _; isplitr
  swap; · iexact HS
  ipureintro; rfl

end Cert.Kernel.Hand

end
-- ==== Proof.KFrameB.lean ====
/- The frame of the pooling kernel's launch: what the output block holds after every grid point, the proof
   data of the pipeline built from it, the body's obligation at every point from the two triples of the body,
   the run of the whole program, and the frame statement. Everything is stated at any float family. -/
import proofs.«403037_j2001454760607_3_alg».proof.Proof.KFrameKitB
import proofs.«403037_j2001454760607_3_alg».proof.Proof.KBodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds after each point

The grid has four points; point `n` works for core `n / 2` on its step `n % 2`. At an even point the body
starts the output block from zeros, at an odd point from what the point before left (the block index has
not moved and nothing was written back in between). -/

/-- One point's update of the output block, from the eight input blocks at point `t` and the block `y0`
    it starts from. -/
abbrev outStep (c : Dev nD) (t : Fin cfg0.N) (y0 : Vec F S1x128x384 .f32) : Vec F S1x128x384 .f32 :=
  outNew (iblk m c 0 t) (iblk m c 1 t) (iblk m c 2 t) (iblk m c 3 t) (iblk m c 4 t) (iblk m c 5 t) (iblk m c 6 t) (iblk m c 7 t) y0

/-- The output block after the body at point `n`, by recursion on the point: from zeros at an even point,
    from the point before at an odd one. -/
def outAt (c : Dev nD) : (n : ℕ) → n < cfg0.N → Vec F S1x128x384 .f32
  | 0, hn => outStep m c ⟨0, hn⟩ (k0_pay3 (F := F))
  | n + 1, hn =>
    if (n + 1) % 2 = 0 then outStep m c ⟨n + 1, hn⟩ (k0_pay3 (F := F))
    else outStep m c ⟨n + 1, hn⟩ (outAt c n (Nat.lt_of_succ_lt hn))

/-- At an even point: the update of the zero block. -/
theorem outAt_reset (c : Dev nD) (t : Fin cfg0.N) (h : t.val % 2 = 0) :
    outAt m c t.val t.isLt = outNew (iblk m c 0 t) (iblk m c 1 t) (iblk m c 2 t) (iblk m c 3 t) (iblk m c 4 t) (iblk m c 5 t) (iblk m c 6 t) (iblk m c 7 t) (k0_pay3 (F := F)) := by
  obtain ⟨n, hn⟩ := t
  cases n with
  | zero => rfl
  | succ n => exact if_pos h

/-- At an odd point: the update of what the point before left. -/
theorem outAt_acc (c : Dev nD) (t : Fin cfg0.N) (h : ¬ t.val % 2 = 0) :
    outAt m c t.val t.isLt = outNew (iblk m c 0 t) (iblk m c 1 t) (iblk m c 2 t) (iblk m c 3 t) (iblk m c 4 t) (iblk m c 5 t) (iblk m c 6 t) (iblk m c 7 t)
      (outAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The proof data of the pipeline on core `c`: the arrays as the region finds them; after the body at point
    `t` each input's buffer at its block and the output's at `outAt`; between points the scratch at some
    contents and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
  Φ _ := Pipeline.ΦA spec0 c
  q _ := fullShare
  owed _ := 0

/-- The proof data's arrays are the region's entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val t.isLt := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At an odd point the output's current buffer holds what the point before left. -/
theorem before0_8_odd (c : Dev nD) (t : Fin cfg0.N) (h : t.val % 2 = 1) (d) :
    (dats m 0 c).before 8 t d = outAt m c (t.val - 1) (Nat.lt_of_le_of_lt (Nat.sub_le _ _) t.isLt) :=
  (before0_8_acc (dats m 0 c) t h d).trans (after0_8 m c (prevPt t))

/-! ## The body obligation, at a generic point -/

/-- Each window's current staging memref at point `t`, at its literal type, and its wholeness. -/
abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128x384 .f32 := win0_8.stage (cfg0.slots t 8)
abbrev hs8 (t : Fin cfg0.N) : (ms8 t).IsWhole := hstage0_8 ((cfg0.slots t 8).cast nbuf0_8)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point: the inputs' buffers hold their blocks; at an even point the branch is taken and the
    output's buffer, fresh, is zeroed and updated; at an odd point the branch is not taken and the buffer, which
    holds what the point before left, is updated; the scratch and the generator register pass through at some
    contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  by_cases h0 : t.val % 2 = 0
  · rw [outAt_reset m c t h0]
    simp only [before0_8_reset (dats m 0 c) t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (body_reset c (grid0.coords t) _ _ _ _ _ _ _ _ _ _ _ _ _ _ _ _ _ _ _ _ ((hcond0 t).mpr h0)
      (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h1 : t.val % 2 = 1 := by omega
    rw [outAt_acc m c t h0]
    simp only [before0_8_odd m c t h1]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_acc c (grid0.coords t) _ _ _ _ _ _ _ _ _ _ _ _ _ _ _ _ _ _ _ _ (fun h => h0 ((hcond0 t).mp h))
      (iblk m c 0 t) (iblk m c 1 t) (iblk m c 2 t) (iblk m c 3 t) (iblk m c 4 t) (iblk m c 5 t) (iblk m c 6 t) (iblk m c 7 t)
      (outAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores
    terminates, and every final state has every array of the pipeline at what the library computes from the proof
    data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program leaves each of its nine arguments as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KFrameKit.lean ====
/- The launch side of the kernel's frame: the buffer contents the region is entered with, the blocks the input
   windows hold, what the carried output buffer holds before the body, the closed form of the body's branch, the
   program around the region as a chain, the side conditions of the operations after the region, and the passage
   from the run's post to the frame statement. Everything is stated at any float family. -/
import proofs.«403037_j2001454760607_3_alg».proof.Proof.Gen.KernelIdeal.Launch
import proofs.«403037_j2001454760607_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffer contents once the 47 operations before the region have run from `m`. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The operations before and after the region allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A reference is written by none of the listed operations when it differs from each operation's result: the list is
    opened into one inequality of references per operation, each decided. -/
local macro "each_result_differs" : tactic => `(tactic| (
  simp only [hostOps0, hostOps1, List.flatten_cons, List.flatten_nil, List.append_nil, List.cons_append, List.nil_append,
    List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- No operation before the region has `main_arg0` as its result: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by each_result_differs))
/-- No operation before the region has `main_arg1` as its result: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by each_result_differs))
/-- No operation before the region has `main_arg2` as its result: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by each_result_differs))
/-- No operation before the region has `main_arg3` as its result: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by each_result_differs))
/-- No operation before the region has `main_arg4` as its result: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by each_result_differs))
/-- No operation before the region has `main_arg5` as its result: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by each_result_differs))
/-- No operation before the region has `main_arg6` as its result: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by each_result_differs))
/-- No operation before the region has `main_arg7` as its result: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by each_result_differs))
/-- No operation before the region has `main_arg8` as its result: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by each_result_differs))

/-! ## The program around the region -/

/-- The program is the operations before the region, the region, the operations after it: it reduces to the region
    continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- No later operation has a window's array as its result. -/
theorem hostOps1_keeps (w : Fin 9) : ∀ op ∈ (hostOps1 : List (HloOp τ sig (Elt F))), Proc.devRef .tc (Pipeline.arrRef spec0 w) ∉ op.writes := by
  fin_cases w <;> exact List.forall_iff_forall_mem.mp (by each_result_differs)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact hostOps1_keeps w op hop

/-! ## The input windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (unfetched, the block index
    has not moved), for any proof data over the region's entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (unfetched, the block index
    has not moved), for any proof data over the region's entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (unfetched, the block index
    has not moved), for any proof data over the region's entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (unfetched, the block index
    has not moved), for any proof data over the region's entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (unfetched, the block index
    has not moved), for any proof data over the region's entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (unfetched, the block index
    has not moved), for any proof data over the region's entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (unfetched, the block index
    has not moved), for any proof data over the region's entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (unfetched, the block index
    has not moved), for any proof data over the region's entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The carried output window -/

/-- The output window is live at every point. -/
theorem liveAt0_8 : ∀ i, cfg0.idle 8 i = false := fun _ => rfl
/-- The point before `t`. -/
abbrev prevPt (t : Fin cfg0.N) : Fin cfg0.N := ⟨t.val - 1, Nat.lt_of_le_of_lt (Nat.sub_le _ _) t.isLt⟩
/-- At an odd point the output window's buffer holds what the body left at the point before: its block index has not
    moved and the even point before does not write it back. -/
theorem before0_8_acc {c : Dev nD} (dat : Dat τ (Elt F) Unit ℕ (UR sig nD τ) ℕ cfg0 c) (t : Fin cfg0.N) (ht : t.val % 2 = 1) (d) :
    dat.before 8 t d = dat.after 8 (prevPt t) :=
  dat.before_out_kept 8 rfl t (by omega)
    (by
      have h := flush0_8 (prevPt t)
      cases hfl : (cfg0.win 8).flush (prevPt t) with
      | false => rfl
      | true => exact absurd (h.mp hfl) (by show ¬ ((t.val - 1) % 2 = 1); omega))
    liveAt0_8 (fun _ _ => rfl) d
/-- At an even point the output window's buffer is fresh: the first point, or the point after a write-back. -/
theorem before0_8_reset {c : Dev nD} (dat : Dat τ (Elt F) Unit ℕ (UR sig nD τ) ℕ cfg0 c) (t : Fin cfg0.N) (ht : t.val % 2 = 0) (d) :
    dat.before 8 t d = d :=
  dat.before_out_reset 8 rfl t (by
    by_cases h0 : t.val = 0
    · exact .inl h0
    · exact .inr ⟨h0, (flush0_8 (prevPt t)).mpr (by show (t.val - 1) % 2 = 1; omega)⟩) d

/-! ## The body's branch -/

/-- The condition of the body's branch at grid coordinates `i`: the second coordinate is zero, as the printed word chain. -/
abbrev cond0 (i : grid0.Coords) : Prop :=
  (Scalar.cmpi .ne (Scalar.extui (Scalar.cmpi .eq (BitVec.ofNat 32 (i 1).val) 0#32)) 0#32) = 1#1
/-- It holds at the even points. -/
theorem hcond0 : ∀ t : Fin cfg0.N, cond0 (grid0.coords t) ↔ t.val % 2 = 0 :=
  (by decide +kernel : ∀ t : Fin grid0.N, cond0 (grid0.coords t) ↔ t.val % 2 = 0)

/-! ## From the run's post to the frame statement -/

/-- `main_arg1` is no window's array and no later operation's result: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by each_result_differs)),
    Pipeline.withArrays_of_ne _ c (V0 m c) _ main_arg1 (by exact (by decide : ∀ w, Pipeline.arrRef spec0 w ≠ main_arg1))]
  exact V_main_arg1 m c
/-- `main_arg2` is no window's array and no later operation's result: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by each_result_differs)),
    Pipeline.withArrays_of_ne _ c (V0 m c) _ main_arg2 (by exact (by decide : ∀ w, Pipeline.arrRef spec0 w ≠ main_arg2))]
  exact V_main_arg2 m c
/-- `main_arg3` is no window's array and no later operation's result: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by each_result_differs)),
    Pipeline.withArrays_of_ne _ c (V0 m c) _ main_arg3 (by exact (by decide : ∀ w, Pipeline.arrRef spec0 w ≠ main_arg3))]
  exact V_main_arg3 m c
/-- `main_arg5` is no window's array and no later operation's result: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by each_result_differs)),
    Pipeline.withArrays_of_ne _ c (V0 m c) _ main_arg5 (by exact (by decide : ∀ w, Pipeline.arrRef spec0 w ≠ main_arg5))]
  exact V_main_arg5 m c
/-- `main_arg7` is no window's array and no later operation's result: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by each_result_differs)),
    Pipeline.withArrays_of_ne _ c (V0 m c) _ main_arg7 (by exact (by decide : ∀ w, Pipeline.arrRef spec0 w ≠ main_arg7))]
  exact V_main_arg7 m c

/-- The frame statement from a run to the launch theorem's post, for any proof data over the region's entry contents:
    an input window's array ends at its entry contents, a bypassing argument at what the later operations leave,
    each then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 3).trans (((dats 0 c).arrAt_in 3 rfl _).trans ((hA c 3).trans (V_main_arg4 m c))),
      ((h c).2 main_arg5 (Pipeline.mem_restRefs_of main_arg5 (by decide) (by decide))).trans (W_main_arg5 m dats c),
      ((h c).1 5).trans (((dats 0 c).arrAt_in 5 rfl _).trans ((hA c 5).trans (V_main_arg6 m c))),
      ((h c).2 main_arg7 (Pipeline.mem_restRefs_of main_arg7 (by decide) (by decide))).trans (W_main_arg7 m dats c),
      ((h c).1 7).trans (((dats 0 c).arrAt_in 7 rfl _).trans ((hA c 7).trans (V_main_arg8 m c)))⟩) h

/-! ## The scratch operand and the invariant between points -/

/-- The scratch operand, a whole buffer of the kernel's own, as the body is passed it. -/
abbrev scM0 : Memref sig .tc .vmem S5000x384 .bf16 := Memref.whole cc0_scratch0
/-- The invariant between points: the scratch owned at some contents, the generator register at some state. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

end Cert.KernelIdeal.Hand

end
-- ==== Proof.KBody.lean ====
import proofs.«403037_j2001454760607_3_alg».proof.Proof.Gen.KernelIdeal.Launch
import proofs.«403037_j2001454760607_3_alg».proof.Proof.Gen.KernelIdeal.Skeleton
import proofs.«403037_j2001454760607_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the pooling kernel, as a map on buffer contents

The body sees a row block `x0` of the first operand (5000 rows, 256 columns), the matching row block
`x1` of the indicator operand (5000 rows, 128 columns), three weight matrices `x2`, `x4`, `x6` with
their bias rows `x3`, `x5`, `x7`, the output block (128 rows by 384 columns) and a scratch of 5000
rows by 384 columns. It applies three affine maps one after the other to the row block (a matrix product
into a zero accumulator plus the bias row, rounded to the narrow format), lays the three results side by
side in the scratch, and adds to the output block the product of the transposed indicator block with the
scratch. At the first step of a core's share the output block is zeroed first. -/

/-- The branch condition of the body as it is spelt in the program: the second grid coordinate (the step
    inside a core's share of the row blocks) is zero. -/
abbrev stepZero (i : grid0.Coords) : Prop :=
  (Scalar.cmpi .ne (Scalar.extui (Scalar.cmpi .eq (BitVec.ofNat 32 (i 1).val) 0#32)) 0#32) = 1#1

/-- The three column slabs the body writes into the scratch, the last written first: columns 256..383
    hold the third affine map's result, columns 128..255 the second's, columns 0..127 the first's. -/
def zPieces (x0 : Vec F S5000x256 .f32) (x2 : Vec F S256x128 .bf16) (x3 : Vec F S128 .f32) (x4 : Vec F S128x128 .bf16)
    (x5 : Vec F S128 .f32) (x6 : Vec F S128x128 .bf16) (x7 : Vec F S128 .f32) : List (View.Piece (Elt F) S5000x384 .bf16) :=
  [⟨Rect.unit (s := S5000x384) ![0, 256] S5000x128.size inb_S5000x384_S5000x128_0_256, k0_pay1 (k0_pay9 x0 x2 x3 x4 x5 x6) x7⟩,
   ⟨Rect.unit (s := S5000x384) ![0, 128] S5000x128.size inb_S5000x384_S5000x128_0_128, k0_pay8 x0 x2 x3 x4 x5⟩,
   ⟨Rect.unit (s := S5000x384) ![0, 0] S5000x128.size inb_S5000x384_S5000x128_0_0, k0_pay6 x0 x2 x3⟩]

/-- The scratch after the three slab stores, as ONE function of its index: the three affine maps' results for
    the row block, side by side. -/
def zcatOf (x0 : Vec F S5000x256 .f32) (x2 : Vec F S256x128 .bf16) (x3 : Vec F S128 .f32) (x4 : Vec F S128x128 .bf16)
    (x5 : Vec F S128 .f32) (x6 : Vec F S128x128 .bf16) (x7 : Vec F S128 .f32) : Vec F S5000x384 .bf16 :=
  View.canon (zPieces x0 x2 x3 x4 x5 x6 x7)

/-- What one grid point leaves in the output block: the block it starts from (`y0`: zeros at a first
    step, else what the point before left) plus the product of the transposed indicator block `x1` with
    the side-by-side results. -/
def outNew (x0 : Vec F S5000x256 .f32) (x1 : Vec F S5000x128 .bf16) (x2 : Vec F S256x128 .bf16) (x3 : Vec F S128 .f32)
    (x4 : Vec F S128x128 .bf16) (x5 : Vec F S128 .f32) (x6 : Vec F S128x128 .bf16) (x7 : Vec F S128 .f32)
    (y0 : Vec F S1x128x384 .f32) : Vec F S1x128x384 .f32 :=
  k0_pay2 (k0_pay4 x1) y0 (zcatOf x0 x2 x3 x4 x5 x6 x7)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole buffer after a list of stores reads the stores' canonical contents: at each index
    the payload of the latest store that covers it. -/
theorem readCov_whole {sig' : RefSig} {κ : Kind} {sp : Space} {S : Shape} {e : EltTy} {Val : EltTy → Type} [∀ e, Nonempty (Val e)]
    (v : View sig' κ sp S e) (L : List (View.Piece Val S e)) {off : Fin S.rank → Nat} (h : off = fun _ => 0)
    (inb : ∀ a, off a + S.size a ≤ S.size a) :
    v.readCov L (Rect.unit off S.size inb).toLoadRect = View.canon L :=
  (View.readCov_eq_canon' v L _).trans (View.ld_unit_zero h inb (View.canon L))

set_option maxHeartbeats 1000000 in
/-- THE FIRST STEP OF A SHARE. On whole buffers holding the row blocks `x0`, `x1`, the weights and biases
    `x2 … x7`, the output buffer and the scratch at anything: the body returns the inputs' buffers as they
    were, the output buffer at `outNew` over the zero block, and the scratch at some contents. -/
theorem body_reset (c : Dev nD) (i : grid0.Coords) (arg2 : Memref sig .tc .vmem S5000x256 .f32) (harg2 : arg2.IsWhole) (arg3 : Memref sig .tc .vmem S5000x128 .bf16) (harg3 : arg3.IsWhole) (arg4 : Memref sig .tc .vmem S256x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x128x384 .f32) (harg10 : arg10.IsWhole) (arg11 : Memref sig .tc .vmem S5000x384 .bf16) (harg11 : arg11.IsWhole) (hc : stepZero i)
    (x0 : Vec F S5000x256 .f32) (x1 : Vec F S5000x128 .bf16) (x2 : Vec F S256x128 .bf16) (x3 : Vec F S128 .f32) (x4 : Vec F S128x128 .bf16) (x5 : Vec F S128 .f32) (x6 : Vec F S128x128 .bf16) (x7 : Vec F S128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
            ∗ owns (c : Thread nD τ) arg10 fullShare (outNew x0 x1 x2 x3 x4 x5 x6 x7 (k0_pay3 (F := F)))
            ∗ (∃ d, owns (c : Thread nD τ) arg11 fullShare d)) -∗ K ⟨⟩))
      ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    sl_unfold_run_names
    rw [View.read_writes_eq_canon _ _ _ (fun y => ⟨_, List.mem_cons_self,
      View.mem_set_unit_zero (S := S1x128x384) zero3 inb_S1x128x384_S1x128x384_0_0_0 y⟩)]
    rw [View.canon_cons_unit_zero (S := S1x128x384) zero3]
    simp only [View.readAt_eq_ld, harg2.read_unread, harg3.read_unread, harg4.read_unread, harg5.read_unread, harg6.read_unread,
      harg7.read_unread, harg8.read_unread, harg9.read_unread,
      View.readCov_unit_zero (S := S1x128x384) _ zero3,
      View.ld_unit_zero (S := S5000x256) zero2, View.ld_unit_zero (S := S5000x128) zero2, View.ld_unit_zero (S := S256x128) zero2,
      View.ld_unit_zero (S := S128) zero1, View.ld_unit_zero (S := S128x128) zero2,
      readCov_whole (S := S5000x384) _ _ zero2]
    unfold outNew zcatOf zPieces
    rfl
  iexists _; iexists _; isplitr
  swap; · iexact HS
  ipureintro; rfl

set_option maxHeartbeats 1000000 in
/-- A LATER STEP OF A SHARE. The same with the output buffer holding `y` (what the point before left): the
    body returns it at `outNew` over `y`. -/
theorem body_acc (c : Dev nD) (i : grid0.Coords) (arg2 : Memref sig .tc .vmem S5000x256 .f32) (harg2 : arg2.IsWhole) (arg3 : Memref sig .tc .vmem S5000x128 .bf16) (harg3 : arg3.IsWhole) (arg4 : Memref sig .tc .vmem S256x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x128x384 .f32) (harg10 : arg10.IsWhole) (arg11 : Memref sig .tc .vmem S5000x384 .bf16) (harg11 : arg11.IsWhole) (hc : ¬ stepZero i)
    (x0 : Vec F S5000x256 .f32) (x1 : Vec F S5000x128 .bf16) (x2 : Vec F S256x128 .bf16) (x3 : Vec F S128 .f32) (x4 : Vec F S128x128 .bf16) (x5 : Vec F S128 .f32) (x6 : Vec F S128x128 .bf16) (x7 : Vec F S128 .f32) (y : Vec F S1x128x384 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare y ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
            ∗ owns (c : Thread nD τ) arg10 fullShare (outNew x0 x1 x2 x3 x4 x5 x6 x7 y)
            ∗ (∃ d, owns (c : Thread nD τ) arg11 fullShare d)) -∗ K ⟨⟩))
      ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    sl_unfold_run_names
    rw [View.read_writes_eq_canon _ _ _ (fun y => ⟨_, List.mem_cons_self,
      View.mem_set_unit_zero (S := S1x128x384) zero3 inb_S1x128x384_S1x128x384_0_0_0 y⟩)]
    rw [View.canon_cons_unit_zero (S := S1x128x384) zero3]
    simp only [View.readAt_eq_ld, harg2.read_unread, harg3.read_unread, harg4.read_unread, harg5.read_unread, harg6.read_unread,
      harg7.read_unread, harg8.read_unread, harg9.read_unread,
      harg10.read_unread, View.ld_unit_zero (S := S1x128x384) zero3,
      View.ld_unit_zero (S := S5000x256) zero2, View.ld_unit_zero (S := S5000x128) zero2, View.ld_unit_zero (S := S256x128) zero2,
      View.ld_unit_zero (S := S128) zero1, View.ld_unit_zero (S := S128x128) zero2,
      readCov_whole (S := S5000x384) _ _ zero2]
    unfold outNew zcatOf zPieces
    rfl
  iexists _; iexists _; isplitr
  swap; · iexact HS
  ipureintro; rfl

end Cert.KernelIdeal.Hand

end
-- ==== Proof.KFrame.lean ====
/- The frame of the pooling kernel's launch: what the output block holds after every grid point, the proof
   data of the pipeline built from it, the body's obligation at every point from the two triples of the body,
   the run of the whole program, and the frame statement. Everything is stated at any float family. -/
import proofs.«403037_j2001454760607_3_alg».proof.Proof.KFrameKit
import proofs.«403037_j2001454760607_3_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds after each point

The grid has four points; point `n` works for core `n / 2` on its step `n % 2`. At an even point the body
starts the output block from zeros, at an odd point from what the point before left (the block index has
not moved and nothing was written back in between). -/

/-- One point's update of the output block, from the eight input blocks at point `t` and the block `y0`
    it starts from. -/
abbrev outStep (c : Dev nD) (t : Fin cfg0.N) (y0 : Vec F S1x128x384 .f32) : Vec F S1x128x384 .f32 :=
  outNew (iblk m c 0 t) (iblk m c 1 t) (iblk m c 2 t) (iblk m c 3 t) (iblk m c 4 t) (iblk m c 5 t) (iblk m c 6 t) (iblk m c 7 t) y0

/-- The output block after the body at point `n`, by recursion on the point: from zeros at an even point,
    from the point before at an odd one. -/
def outAt (c : Dev nD) : (n : ℕ) → n < cfg0.N → Vec F S1x128x384 .f32
  | 0, hn => outStep m c ⟨0, hn⟩ (k0_pay3 (F := F))
  | n + 1, hn =>
    if (n + 1) % 2 = 0 then outStep m c ⟨n + 1, hn⟩ (k0_pay3 (F := F))
    else outStep m c ⟨n + 1, hn⟩ (outAt c n (Nat.lt_of_succ_lt hn))

/-- At an even point: the update of the zero block. -/
theorem outAt_reset (c : Dev nD) (t : Fin cfg0.N) (h : t.val % 2 = 0) :
    outAt m c t.val t.isLt = outNew (iblk m c 0 t) (iblk m c 1 t) (iblk m c 2 t) (iblk m c 3 t) (iblk m c 4 t) (iblk m c 5 t) (iblk m c 6 t) (iblk m c 7 t) (k0_pay3 (F := F)) := by
  obtain ⟨n, hn⟩ := t
  cases n with
  | zero => rfl
  | succ n => exact if_pos h

/-- At an odd point: the update of what the point before left. -/
theorem outAt_acc (c : Dev nD) (t : Fin cfg0.N) (h : ¬ t.val % 2 = 0) :
    outAt m c t.val t.isLt = outNew (iblk m c 0 t) (iblk m c 1 t) (iblk m c 2 t) (iblk m c 3 t) (iblk m c 4 t) (iblk m c 5 t) (iblk m c 6 t) (iblk m c 7 t)
      (outAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The proof data of the pipeline on core `c`: the arrays as the region finds them; after the body at point
    `t` each input's buffer at its block and the output's at `outAt`; between points the scratch at some
    contents and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
  Φ _ := Pipeline.ΦA spec0 c
  q _ := fullShare
  owed _ := 0

/-- The proof data's arrays are the region's entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val t.isLt := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At an odd point the output's current buffer holds what the point before left. -/
theorem before0_8_odd (c : Dev nD) (t : Fin cfg0.N) (h : t.val % 2 = 1) (d) :
    (dats m 0 c).before 8 t d = outAt m c (t.val - 1) (Nat.lt_of_le_of_lt (Nat.sub_le _ _) t.isLt) :=
  (before0_8_acc (dats m 0 c) t h d).trans (after0_8 m c (prevPt t))

/-! ## The body obligation, at a generic point -/

/-- Each window's current staging memref at point `t`, at its literal type, and its wholeness. -/
abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128x384 .f32 := win0_8.stage (cfg0.slots t 8)
abbrev hs8 (t : Fin cfg0.N) : (ms8 t).IsWhole := hstage0_8 ((cfg0.slots t 8).cast nbuf0_8)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point: the inputs' buffers hold their blocks; at an even point the branch is taken and the
    output's buffer, fresh, is zeroed and updated; at an odd point the branch is not taken and the buffer, which
    holds what the point before left, is updated; the scratch and the generator register pass through at some
    contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  by_cases h0 : t.val % 2 = 0
  · rw [outAt_reset m c t h0]
    simp only [before0_8_reset (dats m 0 c) t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (body_reset c (grid0.coords t) _ _ _ _ _ _ _ _ _ _ _ _ _ _ _ _ _ _ _ _ ((hcond0 t).mpr h0)
      (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h1 : t.val % 2 = 1 := by omega
    rw [outAt_acc m c t h0]
    simp only [before0_8_odd m c t h1]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_acc c (grid0.coords t) _ _ _ _ _ _ _ _ _ _ _ _ _ _ _ _ _ _ _ _ (fun h => h0 ((hcond0 t).mp h))
      (iblk m c 0 t) (iblk m c 1 t) (iblk m c 2 t) (iblk m c 3 t) (iblk m c 4 t) (iblk m c 5 t) (iblk m c 6 t) (iblk m c 7 t)
      (outAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores
    terminates, and every final state has every array of the pipeline at what the library computes from the proof
    data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program leaves each of its nine arguments as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Spec.lean ====
/-
  The two programs as plain functions of their inputs, over the extended reals.

  Inputs: node features x [20000 × 256], an edge list ei [2 × 640000] (row 0 the sources, row 1 the
  destinations, as 32-bit words), a graph id per node bt [20000], and three affine layers (W0, b0),
  (W1, b1), (W2, b2).  Layer l's node embedding is z_l = z_{l-1} · W_l + b_l with z_{-1} = x.  An edge e
  belongs to the graph eb e = bt[src e].

  The reference pools per graph g and per layer l: the sum over the edges of g of the source's
  embedding (columns 0..127) and of the destination's embedding (columns 128..255), times
  1 / max(number of edges of g, 1); the three layers side by side give [64 × 768].

  The kernel first counts, for every (node n, graph g), the edges with source n in graph g (csrc) and
  with destination n in graph g (cdst) through one histogram over the keys  node·64 + graph, packs them
  as cpk [20000 × 128] = [csrc | cdst], and then pools by a product: P[c] = cpkᵀ · [z0 | z1 | z2] over the
  rows of core c (two halves of 5000 rows each), summed over the two cores.

  Both are the same number: Σ_n (#edges of g at n) · z[n] = Σ_{edges of g} z[endpoint], which needs every
  z to be a real number (a count times an infinity is not a repeated sum).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![20000, 256]⟩
abbrev SE : Shape := ⟨2, ![2, 640000]⟩
abbrev SB : Shape := ⟨1, ![20000]⟩
abbrev SW0 : Shape := ⟨2, ![256, 128]⟩
abbrev SW : Shape := ⟨2, ![128, 128]⟩
abbrev Sb : Shape := ⟨1, ![128]⟩

section Indices

variable (ei : SE.Idx → BitVec 32) (bt : SB.Idx → BitVec 32)

/-- The source node of edge e, as a natural number. -/
def src (e : Fin 640000) : ℕ := (ei (ix2 (0 : Fin 2) e)).toNat
/-- The destination node of edge e. -/
def dst (e : Fin 640000) : ℕ := (ei (ix2 (1 : Fin 2) e)).toNat
/-- The graph of node n (0 outside the node range, where nothing reads it). -/
def bat (n : ℕ) : ℕ := if h : n < 20000 then (bt (ix1 (⟨n, h⟩ : Fin 20000))).toNat else 0
/-- The graph of edge e: its source's graph. -/
def eb (e : Fin 640000) : ℕ := bat bt (src ei e)

/-- Every edge endpoint is a node and every node's graph id is one of the 64 graphs. -/
structure InRange : Prop where
  src_lt : ∀ e, src ei e < 20000
  dst_lt : ∀ e, dst ei e < 20000
  bat_lt : ∀ n : Fin 20000, (bt (ix1 n)).toNat < 64

end Indices

section Values

variable (x : SX.Idx → EReal) (ei : SE.Idx → BitVec 32) (bt : SB.Idx → BitVec 32)
  (W0 : SW0.Idx → EReal) (b0 : Sb.Idx → EReal) (W1 : SW.Idx → EReal) (b1 : Sb.Idx → EReal)
  (W2 : SW.Idx → EReal) (b2 : Sb.Idx → EReal)

/-- Every float input is a real number. -/
structure Finite : Prop where
  fx : ∀ i, ∃ r : ℝ, x i = (r : EReal)
  fW0 : ∀ i, ∃ r : ℝ, W0 i = (r : EReal)
  fb0 : ∀ i, ∃ r : ℝ, b0 i = (r : EReal)
  fW1 : ∀ i, ∃ r : ℝ, W1 i = (r : EReal)
  fb1 : ∀ i, ∃ r : ℝ, b1 i = (r : EReal)
  fW2 : ∀ i, ∃ r : ℝ, W2 i = (r : EReal)
  fb2 : ∀ i, ∃ r : ℝ, b2 i = (r : EReal)

/-- Layer 0 at node n, feature h. -/
def z0 (n : Fin 20000) (h : Fin 128) : EReal := (∑ k : Fin 256, x (ix2 n k) * W0 (ix2 k h)) + b0 (ix1 h)
/-- Layer 1. -/
def z1 (n : Fin 20000) (h : Fin 128) : EReal := (∑ k : Fin 128, z0 x W0 b0 n k * W1 (ix2 k h)) + b1 (ix1 h)
/-- Layer 2. -/
def z2 (n : Fin 20000) (h : Fin 128) : EReal := (∑ k : Fin 128, z1 x W0 b0 W1 b1 n k * W2 (ix2 k h)) + b2 (ix1 h)
/-- Layer l (l = 0, 1, otherwise 2). -/
def zl (l : ℕ) (n : Fin 20000) (h : Fin 128) : EReal :=
  if l = 0 then z0 x W0 b0 n h else if l = 1 then z1 x W0 b0 W1 b1 n h else z2 x W0 b0 W1 b1 W2 b2 n h
/-- Layer l at a node given as a natural number (0 outside the node range). -/
def zN (l : ℕ) (n : ℕ) (h : Fin 128) : EReal := if hn : n < 20000 then zl x W0 b0 W1 b1 W2 b2 l ⟨n, hn⟩ h else 0

/-! ### The reference -/

/-- The number of edges of graph g. -/
def cnt (g : Fin 64) : EReal := ∑ e : Fin 640000, if eb ei bt e = g.val then (1 : EReal) else 0
/-- One over that number, at least one. -/
def inv (g : Fin 64) : EReal := Ideal.div 1 (max (cnt ei bt g) 1)
/-- The endpoint a pooled column reads: the source for columns 0..127, the destination for 128..255. -/
def endpoint (q : Fin 256) (e : Fin 640000) : ℕ := if q.val < 128 then src ei e else dst ei e
/-- Layer l pooled over the edges of graph g, column q of 256. -/
def refPool (l : ℕ) (g : Fin 64) (q : Fin 256) : EReal :=
  ∑ e : Fin 640000, if eb ei bt e = g.val then
    zN x W0 b0 W1 b1 W2 b2 l (endpoint ei q e) ⟨q.val % 128, Nat.mod_lt _ (by decide)⟩ else 0
/-- The reference's result at graph g, column col of 768 = 3 layers × 256. -/
def out (g : Fin 64) (col : Fin 768) : EReal :=
  refPool x ei bt W0 b0 W1 b1 W2 b2 (col.val / 256) g ⟨col.val % 256, Nat.mod_lt _ (by decide)⟩ * inv ei bt g

/-! ### The kernel -/

/-- The number of edges with source n in graph g, counted through the key  node·64 + graph. -/
def csrc (n : Fin 20000) (g : Fin 64) : EReal :=
  ∑ e : Fin 640000, if src ei e * 64 + eb ei bt e = n.val * 64 + g.val then (1 : EReal) else 0
/-- The number of edges with destination n in graph g, through the key  (node + 20000)·64 + graph. -/
def cdst (n : Fin 20000) (g : Fin 64) : EReal :=
  ∑ e : Fin 640000, if (dst ei e + 20000) * 64 + eb ei bt e = (n.val + 20000) * 64 + g.val then (1 : EReal) else 0
/-- The packed table [csrc | cdst], 128 columns. -/
def cpk (n : Fin 20000) (q : Fin 128) : EReal :=
  if h : q.val < 64 then csrc ei bt n ⟨q.val, h⟩ else cdst ei bt n ⟨q.val - 64, by have := q.isLt; omega⟩
/-- The kernel's edge count of graph g: the column sum of csrc. -/
def kcnt (g : Fin 64) : EReal := ∑ n : Fin 20000, csrc ei bt n g
/-- One over it, at least one. -/
def kinv (g : Fin 64) : EReal := Ideal.div 1 (max (kcnt ei bt g) 1)
/-- The three layers side by side, 384 columns. -/
def zcat (n : Fin 20000) (k : Fin 384) : EReal :=
  zl x W0 b0 W1 b1 W2 b2 (k.val / 128) n ⟨k.val % 128, Nat.mod_lt _ (by decide)⟩
/-- Row r of row block (c, s): node (2c + s)·5000 + r. -/
def rowOf (c s : Fin 2) (r : Fin 5000) : Fin 20000 :=
  ⟨(c.val * 2 + s.val) * 5000 + r.val, by have := c.isLt; have := s.isLt; have := r.isLt; omega⟩
/-- One grid point's contribution: cpkᵀ · zcat over the 5000 rows of block (c, s). -/
def half (c s : Fin 2) (q : Fin 128) (k : Fin 384) : EReal :=
  ∑ r : Fin 5000, cpk ei bt (rowOf c s r) q * zcat x W0 b0 W1 b1 W2 b2 (rowOf c s r) k
/-- Core c's partial result: its two row blocks. -/
def P (c : Fin 2) (q : Fin 128) (k : Fin 384) : EReal :=
  half x ei bt W0 b0 W1 b1 W2 b2 c 0 q k + half x ei bt W0 b0 W1 b1 W2 b2 c 1 q k
/-- The two cores' partial results added. -/
def summed (q : Fin 128) (k : Fin 384) : EReal :=
  P x ei bt W0 b0 W1 b1 W2 b2 0 q k + P x ei bt W0 b0 W1 b1 W2 b2 1 q k
/-- The kernel's result at graph g, column col: within layer l = col / 256 the columns 0..127 read row g of
    the summed table (the source half of cpk) and 128..255 row 64 + g (the destination half). -/
def kout (g : Fin 64) (col : Fin 768) : EReal :=
  (if h : col.val % 256 < 128 then
      summed x ei bt W0 b0 W1 b1 W2 b2 ⟨g.val, by have := g.isLt; omega⟩
        ⟨(col.val / 256) * 128 + col.val % 256, by have := col.isLt; omega⟩
    else
      summed x ei bt W0 b0 W1 b1 W2 b2 ⟨64 + g.val, by have := g.isLt; omega⟩
        ⟨(col.val / 256) * 128 + (col.val % 256 - 128), by have := col.isLt; omega⟩) * kinv ei bt g

end Values

end Cert.Spec

end
-- ==== Proof.KTail.lean ====
/-
  The operations after the region, as one function.

  The region leaves p [2 × 128 × 384]: core c's partial product table p[c].  The operations that follow add
  the two cores' tables entry by entry (a [128 × 384] table: rows 0..63 belong to the source counts, rows
  64..127 to the destination counts; columns 128·l .. 128·l + 127 to layer l), and then, layer by layer, take
  the layer's 128 columns, lay rows 0..63 and rows 64..127 side by side as a [64 × 256] table, and multiply row
  g by the factor inv[g].  The three layers side by side are the result, [64 × 768].

  This module names that function (`tail`), shows that the operations compute it from any contents of the
  buffers and write none of the arguments, and reads it entry by entry: entry (g, col) is, with l = col / 256
  and q = col % 256, the summed table at (g, 128·l + q) for q < 128 and at (64 + g, 128·l + q − 128) otherwise,
  times inv[g].  At the partial tables P of the specification and the factors kinv this is kout.
-/
import proofs.«403037_j2001454760607_3_alg».proof.Proof.Gen.KernelIdeal.Launch
import proofs.«403037_j2001454760607_3_alg».proof.Proof.Spec
import Idealize.ShloMosaic.Lib.StableHlo.Run
import Idealize.ShloMosaic.Lib.Pipeline.Value
import Idealize.ShloMosaic.Lib.ValueIdx
import Idealize.ShloMosaic.Lib.Pipeline.FrameSuffix

noncomputable section

namespace Cert.KernelIdeal.HandValue

open Idealize.ShloMosaic Idealize.ShloMosaic.ValueIdx Idealize.SL.Sem
open Cert.KernelIdeal Cert.KernelIdeal.Gen

/-- The two cores' partial tables added entry by entry: [2 × 128 × 384] to [128 × 384]. -/
def coreSum (p : S2x128x384.Idx → EReal) : S128x384.Idx → EReal :=
  addf (F := Ideal) (s := S128x384) (φ := .f32)
    (shapeCast S128x384 (extractStridedSlice S1x128x384 ![0, 0, 0] p slices_S2x128x384_S1x128x384_0_0_0) shapeCasts_S1x128x384_S128x384)
    (shapeCast S128x384 (extractStridedSlice S1x128x384 ![1, 0, 0] p slices_S2x128x384_S1x128x384_1_0_0) shapeCasts_S1x128x384_S128x384)

/-- A [128 × 128] block with its rows 0..63 and its rows 64..127 laid side by side: [64 × 256]. -/
def sideBySide (blk : S128x128.Idx → EReal) : S64x256.Idx → EReal :=
  concatenate S64x256 1
    [⟨S64x128, extractStridedSlice S64x128 ![0, 0] blk slices_S128x128_S64x128_0_0⟩,
     ⟨S64x128, extractStridedSlice S64x128 ![64, 0] blk slices_S128x128_S64x128_64_0⟩]
    concatenates_S64x128_S64x128_S64x256_d1

/-- One number per row spread over the 256 columns of that row. -/
def overCols (inv : S64.Idx → EReal) : S64x256.Idx → EReal :=
  broadcastInDim S64x256 ![0, 1] bcast_S64x1_S64x256_0_1 (broadcastInDim S64x1 ![0] bcast_S64_S64x1_0 inv)

/-- One layer's [64 × 256] result: the layer's 128-column block of the summed table, halves side by side,
    each row times that row's factor. -/
def layerOut (blk : S128x128.Idx → EReal) (inv : S64.Idx → EReal) : S64x256.Idx → EReal :=
  mulf (F := Ideal) (s := S64x256) (φ := .f32) (sideBySide blk) (overCols inv)

/-- What the operations after the region compute from the region's result p [2 × 128 × 384] and the row
    factors inv [64]: the three layers' results side by side, [64 × 768]. -/
def tail (p : S2x128x384.Idx → EReal) (inv : S64.Idx → EReal) : S64x768.Idx → EReal :=
  concatenate S64x768 1
    [⟨S64x256, layerOut (extractStridedSlice S128x128 ![0, 0] (coreSum p) slices_S128x384_S128x128_0_0) inv⟩,
     ⟨S64x256, layerOut (extractStridedSlice S128x128 ![0, 128] (coreSum p) slices_S128x384_S128x128_0_128) inv⟩,
     ⟨S64x256, layerOut (extractStridedSlice S128x128 ![0, 256] (coreSum p) slices_S128x384_S128x128_0_256) inv⟩]
    concatenates_S64x256_S64x256_S64x256_S64x768_d1

/-- Three-piece concatenations of equal pieces are equal. -/
theorem cat3_congr {a a' b b' c c' : S64x256.Idx → EReal} (ha : a = a') (hb : b = b') (hc : c = c') :
    concatenate S64x768 1 [⟨S64x256, a⟩, ⟨S64x256, b⟩, ⟨S64x256, c⟩] concatenates_S64x256_S64x256_S64x256_S64x768_d1
      = concatenate S64x768 1 [⟨S64x256, a'⟩, ⟨S64x256, b'⟩, ⟨S64x256, c'⟩] concatenates_S64x256_S64x256_S64x256_S64x768_d1 := by
  subst ha hb hc; rfl

/-- A layer's result from its two half blocks, each given by an equation. -/
theorem layerOut_of_halves {blk : S128x128.Idx → EReal} {a b : S64x128.Idx → EReal} {v : S64.Idx → EReal}
    (ha : a = extractStridedSlice S64x128 ![0, 0] blk slices_S128x128_S64x128_0_0)
    (hb : b = extractStridedSlice S64x128 ![64, 0] blk slices_S128x128_S64x128_64_0) :
    mulf (F := Ideal) (s := S64x256) (φ := .f32)
        (concatenate S64x256 1 [⟨S64x128, a⟩, ⟨S64x128, b⟩] concatenates_S64x128_S64x128_S64x256_d1)
        (broadcastInDim S64x256 ![0, 1] bcast_S64x1_S64x256_0_1 (broadcastInDim S64x1 ![0] bcast_S64_S64x1_0 v))
      = layerOut blk v := by
  subst ha hb; rfl

open Idealize.ShloMosaic.StableHlo in
/-- The buffer of the result after the operations that follow the region, from any contents W: the function
    `tail` of the region's result and the row factors as W has them. -/
theorem after_tail (W : Valuation τ sig (Elt Ideal)) :
    StableHlo.after (hostOps1 (F := Ideal)) W (Proc.devRef .tc main_v64)
      = tail (W (Proc.devRef .tc main_v37)) (W (Proc.devRef .tc main_v31)) := by
  simp only [after_cons, after_nil]
  rw [nary_result]
  refine cat3_congr ?_ ?_ ?_
  · simp (disch := decide) only [unary_result', binary_result', reshape_result',
      unary_result_ne', binary_result_ne', reshape_result_ne', nary_result_ne', Matrix.cons_val]
    refine layerOut_of_halves ?_ ?_
    · simp (disch := decide) only [unary_result', binary_result', reshape_result',
      unary_result_ne', binary_result_ne', reshape_result_ne', nary_result_ne']
      rfl
    · simp (disch := decide) only [unary_result', binary_result', reshape_result',
      unary_result_ne', binary_result_ne', reshape_result_ne', nary_result_ne']
      rfl
  · simp (disch := decide) only [unary_result', binary_result', reshape_result',
      unary_result_ne', binary_result_ne', reshape_result_ne', nary_result_ne', Matrix.cons_val]
    refine layerOut_of_halves ?_ ?_
    · simp (disch := decide) only [unary_result', binary_result', reshape_result',
      unary_result_ne', binary_result_ne', reshape_result_ne', nary_result_ne']
      rfl
    · simp (disch := decide) only [unary_result', binary_result', reshape_result',
      unary_result_ne', binary_result_ne', reshape_result_ne', nary_result_ne']
      rfl
  · simp (disch := decide) only [unary_result', binary_result', reshape_result',
      unary_result_ne', binary_result_ne', reshape_result_ne', nary_result_ne', Matrix.cons_val]
    refine layerOut_of_halves ?_ ?_
    · simp (disch := decide) only [unary_result', binary_result', reshape_result',
      unary_result_ne', binary_result_ne', reshape_result_ne', nary_result_ne']
      rfl
    · simp (disch := decide) only [unary_result', binary_result', reshape_result',
      unary_result_ne', binary_result_ne', reshape_result_ne', nary_result_ne']
      rfl

/-- The buffers the operations after the region write: their 27 results. -/
abbrev tailWrites : List (Ref sig .tc) :=
  [main_v38, main_v39, main_v40, main_v41, main_v42, main_v43, main_v44, main_v45, main_v46, main_v47, main_v48, main_v49,
   main_v50, main_v51, main_v52, main_v53, main_v54, main_v55, main_v56, main_v57, main_v58, main_v59, main_v60, main_v61,
   main_v62, main_v63, main_v64]

theorem tail_writes_sub : (hostOps1 (F := Ideal)).Forall fun op =>
    op.writes ⊆ (tailWrites.map (Proc.devRef (τ := τ) .tc)).toFinset := by
  simp only [List.Forall, StableHlo.unary_writes, StableHlo.binary_writes, StableHlo.reshape_writes, StableHlo.nary_writes,
    Finset.singleton_subset_iff, List.mem_toFinset]
  repeat' apply And.intro
  all_goals exact List.mem_map_of_mem (by decide)

/-- A buffer that is none of those 27 holds after the operations what it held before. -/
theorem after_tail_keeps (W : Valuation τ sig (Elt Ideal)) (r : Ref sig .tc) (h : r ∉ tailWrites) :
    StableHlo.after (hostOps1 (F := Ideal)) W (Proc.devRef .tc r) = W (Proc.devRef .tc r) :=
  StableHlo.after_of_writes_sub hostOps1 W tail_writes_sub h

theorem after_tail_arg0 (W : Valuation τ sig (Elt Ideal)) : StableHlo.after (hostOps1 (F := Ideal)) W (Proc.devRef .tc main_arg0) = W (Proc.devRef .tc main_arg0) := after_tail_keeps W _ (by decide)
theorem after_tail_arg1 (W : Valuation τ sig (Elt Ideal)) : StableHlo.after (hostOps1 (F := Ideal)) W (Proc.devRef .tc main_arg1) = W (Proc.devRef .tc main_arg1) := after_tail_keeps W _ (by decide)
theorem after_tail_arg2 (W : Valuation τ sig (Elt Ideal)) : StableHlo.after (hostOps1 (F := Ideal)) W (Proc.devRef .tc main_arg2) = W (Proc.devRef .tc main_arg2) := after_tail_keeps W _ (by decide)
theorem after_tail_arg3 (W : Valuation τ sig (Elt Ideal)) : StableHlo.after (hostOps1 (F := Ideal)) W (Proc.devRef .tc main_arg3) = W (Proc.devRef .tc main_arg3) := after_tail_keeps W _ (by decide)
theorem after_tail_arg4 (W : Valuation τ sig (Elt Ideal)) : StableHlo.after (hostOps1 (F := Ideal)) W (Proc.devRef .tc main_arg4) = W (Proc.devRef .tc main_arg4) := after_tail_keeps W _ (by decide)
theorem after_tail_arg5 (W : Valuation τ sig (Elt Ideal)) : StableHlo.after (hostOps1 (F := Ideal)) W (Proc.devRef .tc main_arg5) = W (Proc.devRef .tc main_arg5) := after_tail_keeps W _ (by decide)
theorem after_tail_arg6 (W : Valuation τ sig (Elt Ideal)) : StableHlo.after (hostOps1 (F := Ideal)) W (Proc.devRef .tc main_arg6) = W (Proc.devRef .tc main_arg6) := after_tail_keeps W _ (by decide)
theorem after_tail_arg7 (W : Valuation τ sig (Elt Ideal)) : StableHlo.after (hostOps1 (F := Ideal)) W (Proc.devRef .tc main_arg7) = W (Proc.devRef .tc main_arg7) := after_tail_keeps W _ (by decide)
theorem after_tail_arg8 (W : Valuation τ sig (Elt Ideal)) : StableHlo.after (hostOps1 (F := Ideal)) W (Proc.devRef .tc main_arg8) = W (Proc.devRef .tc main_arg8) := after_tail_keeps W _ (by decide)
theorem after_tail_v31 (W : Valuation τ sig (Elt Ideal)) : StableHlo.after (hostOps1 (F := Ideal)) W (Proc.devRef .tc main_v31) = W (Proc.devRef .tc main_v31) := after_tail_keeps W _ (by decide)
theorem after_tail_v37 (W : Valuation τ sig (Elt Ideal)) : StableHlo.after (hostOps1 (F := Ideal)) W (Proc.devRef .tc main_v37) = W (Proc.devRef .tc main_v37) := after_tail_keeps W _ (by decide)

/-! ## The result read entry by entry -/

/-- The summed table at (r, k): the two cores' entries added. -/
theorem coreSum_apply (p : S2x128x384.Idx → EReal) (r : Fin 128) (k : Fin 384) :
    coreSum p (ix2 r k) = p (ix3 (0 : Fin 2) r k) + p (ix3 (1 : Fin 2) r k) := by
  have hr := r.isLt
  have hk := k.isLt
  show FloatOps.addf (F := Ideal) _ _ = _
  rw [Ideal.addf_def]
  congr 1
  · refine (shapeCast_apply _ _ (ix2 r k) (ix3 (0 : Fin 1) r k) ?_).trans ?_
    · rw [Shape.rowMajor_val_three, Shape.rowMajor_val_two]
      show ((0 : ℕ) * 128 + r.val) * 384 + k.val = r.val * 384 + k.val
      omega
    · exact extractStridedSlice_apply _ _ _ _ (ix3 (0 : Fin 2) r k) (fun a => match a with
        | ⟨0, _⟩ => by show (0 : ℕ) = 0 + 0; omega
        | ⟨1, _⟩ => by show r.val = 0 + r.val; omega
        | ⟨2, _⟩ => by show k.val = 0 + k.val; omega)
  · refine (shapeCast_apply _ _ (ix2 r k) (ix3 (0 : Fin 1) r k) ?_).trans ?_
    · rw [Shape.rowMajor_val_three, Shape.rowMajor_val_two]
      show ((0 : ℕ) * 128 + r.val) * 384 + k.val = r.val * 384 + k.val
      omega
    · exact extractStridedSlice_apply _ _ _ _ (ix3 (1 : Fin 2) r k) (fun a => match a with
        | ⟨0, _⟩ => by show (1 : ℕ) = 1 + 0; omega
        | ⟨1, _⟩ => by show r.val = 0 + r.val; omega
        | ⟨2, _⟩ => by show k.val = 0 + k.val; omega)

/-- Rows 0..63 of a block sit in columns 0..127 of the side-by-side table. -/
theorem sideBySide_lo (blk : S128x128.Idx → EReal) (g : Fin 64) (q : Fin 256) (r : Fin 128) (k : Fin 128)
    (hr : r.val = g.val) (hk : k.val = q.val) : sideBySide blk (ix2 g q) = blk (ix2 r k) := by
  unfold sideBySide
  refine (concatenate_pair_apply_left 1 _ _ concatenates_S64x128_S64x128_S64x256_d1 (ix2 g q) rfl (ix2 g k)
    (fun b => match b with
      | ⟨0, _⟩ => rfl
      | ⟨1, _⟩ => hk)).trans ?_
  exact extractStridedSlice_apply _ _ _ (ix2 g k) (ix2 r k) (fun a => match a with
    | ⟨0, _⟩ => by show r.val = 0 + g.val; omega
    | ⟨1, _⟩ => by show k.val = 0 + k.val; omega)

/-- Rows 64..127 of a block sit in columns 128..255 of the side-by-side table. -/
theorem sideBySide_hi (blk : S128x128.Idx → EReal) (g : Fin 64) (q : Fin 256) (r : Fin 128) (k : Fin 128)
    (hr : r.val = 64 + g.val) (hk : k.val + 128 = q.val) : sideBySide blk (ix2 g q) = blk (ix2 r k) := by
  unfold sideBySide
  refine (concatenate_pair_apply_right 1 _ _ concatenates_S64x128_S64x128_S64x256_d1 (ix2 g q) rfl rfl (ix2 g k)
    (fun b hb => match b with
      | ⟨0, _⟩ => rfl
      | ⟨1, _⟩ => absurd rfl hb)
    hk).trans ?_
  exact extractStridedSlice_apply _ _ _ (ix2 g k) (ix2 r k) (fun a => match a with
    | ⟨0, _⟩ => by show r.val = 64 + g.val; omega
    | ⟨1, _⟩ => by show k.val = 0 + k.val; omega)

/-- The row factor spread over the columns, read back: the row's factor. -/
theorem overCols_apply (inv : S64.Idx → EReal) (g : Fin 64) (q : Fin 256) : overCols inv (ix2 g q) = inv (ix1 g) := by
  unfold overCols
  refine (broadcastInDim_apply _ _ _ (ix2 g q) (ix2 g (0 : Fin 1)) (fun a => match a with
    | ⟨0, _⟩ => by show g.val = if (64 : ℕ) = 1 then 0 else g.val; rw [if_neg (by decide)]
    | ⟨1, _⟩ => by show (0 : ℕ) = if (1 : ℕ) = 1 then 0 else q.val; rw [if_pos rfl])).trans ?_
  exact broadcastInDim_apply _ _ _ (ix2 g (0 : Fin 1)) (ix1 g) (fun a => match a with
    | ⟨0, _⟩ => by show g.val = if (64 : ℕ) = 1 then 0 else g.val; rw [if_neg (by decide)])

/-- One layer's result at (g, q). -/
theorem layerOut_apply (blk : S128x128.Idx → EReal) (inv : S64.Idx → EReal) (g : Fin 64) (q : Fin 256) :
    layerOut blk inv (ix2 g q) = sideBySide blk (ix2 g q) * inv (ix1 g) := by
  show FloatOps.mulf (F := Ideal) _ _ = _
  rw [Ideal.mulf_def, overCols_apply]

/-- A layer's 128-column block of the summed table, read at (r, k): the table at column off + k. -/
theorem block_apply (p : S2x128x384.Idx → EReal) (off : ℕ) (h : S128x384.Slices ![0, off] S128x128)
    (r : Fin 128) (k : Fin 128) (k' : Fin 384) (hk : k'.val = off + k.val) :
    extractStridedSlice S128x128 ![0, off] (coreSum p) h (ix2 r k) = coreSum p (ix2 r k') :=
  extractStridedSlice_apply _ _ _ (ix2 r k) (ix2 r k') (fun a => match a with
    | ⟨0, _⟩ => by show r.val = 0 + r.val; omega
    | ⟨1, _⟩ => by show k'.val = off + k.val; omega)

/-- A layer's result in its columns 0..127: row g of the summed table, the layer's columns, times the row's factor. -/
theorem layer_entry_lo (p : S2x128x384.Idx → EReal) (inv : S64.Idx → EReal) (off : ℕ) (h : S128x384.Slices ![0, off] S128x128)
    (g : Fin 64) (q : Fin 256) (hq : q.val < 128) (r : Fin 128) (k : Fin 384) (hr : r.val = g.val) (hk : k.val = off + q.val) :
    layerOut (extractStridedSlice S128x128 ![0, off] (coreSum p) h) inv (ix2 g q)
      = (p (ix3 (0 : Fin 2) r k) + p (ix3 (1 : Fin 2) r k)) * inv (ix1 g) := by
  rw [layerOut_apply, sideBySide_lo _ g q r ⟨q.val, hq⟩ hr rfl, block_apply p off h r ⟨q.val, hq⟩ k hk, coreSum_apply]

/-- A layer's result in its columns 128..255: row 64 + g of the summed table. -/
theorem layer_entry_hi (p : S2x128x384.Idx → EReal) (inv : S64.Idx → EReal) (off : ℕ) (h : S128x384.Slices ![0, off] S128x128)
    (g : Fin 64) (q : Fin 256) (hq : 128 ≤ q.val) (r : Fin 128) (k : Fin 384) (hr : r.val = 64 + g.val)
    (hk : k.val = off + (q.val - 128)) :
    layerOut (extractStridedSlice S128x128 ![0, off] (coreSum p) h) inv (ix2 g q)
      = (p (ix3 (0 : Fin 2) r k) + p (ix3 (1 : Fin 2) r k)) * inv (ix1 g) := by
  have hq2 := q.isLt
  rw [layerOut_apply, sideBySide_hi _ g q r ⟨q.val - 128, by omega⟩ hr (by show q.val - 128 + 128 = q.val; omega),
    block_apply p off h r ⟨q.val - 128, by omega⟩ k hk, coreSum_apply]

/-- The result at graph g, column col: layer col / 256; within the layer the columns 0..127 read row g of the two
    cores' tables added, the columns 128..255 row 64 + g; times the graph's factor. -/
theorem tail_apply (p : S2x128x384.Idx → EReal) (inv : S64.Idx → EReal) (g : Fin 64) (col : Fin 768) :
    tail p inv (ix2 g col)
      = (if h : col.val % 256 < 128 then
            p (ix3 (0 : Fin 2) (⟨g.val, by have := g.isLt; omega⟩ : Fin 128)
                (⟨(col.val / 256) * 128 + col.val % 256, by have := col.isLt; omega⟩ : Fin 384))
              + p (ix3 (1 : Fin 2) (⟨g.val, by have := g.isLt; omega⟩ : Fin 128)
                (⟨(col.val / 256) * 128 + col.val % 256, by have := col.isLt; omega⟩ : Fin 384))
          else
            p (ix3 (0 : Fin 2) (⟨64 + g.val, by have := g.isLt; omega⟩ : Fin 128)
                (⟨(col.val / 256) * 128 + (col.val % 256 - 128), by have := col.isLt; omega⟩ : Fin 384))
              + p (ix3 (1 : Fin 2) (⟨64 + g.val, by have := g.isLt; omega⟩ : Fin 128)
                (⟨(col.val / 256) * 128 + (col.val % 256 - 128), by have := col.isLt; omega⟩ : Fin 384)))
        * inv (ix1 g) := by
  have hg := g.isLt
  have hc := col.isLt
  have hq : col.val % 256 < 256 := Nat.mod_lt _ (by decide)
  have h3 : col.val / 256 = 0 ∨ col.val / 256 = 1 ∨ col.val / 256 = 2 := by omega
  unfold tail
  rcases h3 with hl | hl | hl
  · refine (concatenate_apply_piece 1 _ _ (ix2 g col) 0
      (by show (0 : ℕ) < 3; omega) S64x256 _ rfl rfl 0 rfl (ix2 g ⟨col.val % 256, hq⟩)
      (fun b hb => match b with
        | ⟨0, _⟩ => rfl
        | ⟨1, _⟩ => absurd rfl hb)
      (by show 0 + col.val % 256 = col.val; omega)).trans ?_
    by_cases hlo : col.val % 256 < 128
    · rw [dif_pos hlo]
      exact layer_entry_lo p inv 0 _ g _ hlo _ _ rfl (by show (col.val / 256) * 128 + col.val % 256 = 0 + col.val % 256; omega)
    · rw [dif_neg hlo]
      exact layer_entry_hi p inv 0 _ g _ (Nat.not_lt.mp hlo) _ _ rfl
        (by show (col.val / 256) * 128 + (col.val % 256 - 128) = 0 + (col.val % 256 - 128); omega)
  · refine (concatenate_apply_piece 1 _ _ (ix2 g col) 1
      (by show (1 : ℕ) < 3; omega) S64x256 _ rfl rfl 256 rfl (ix2 g ⟨col.val % 256, hq⟩)
      (fun b hb => match b with
        | ⟨0, _⟩ => rfl
        | ⟨1, _⟩ => absurd rfl hb)
      (by show 256 + col.val % 256 = col.val; omega)).trans ?_
    by_cases hlo : col.val % 256 < 128
    · rw [dif_pos hlo]
      exact layer_entry_lo p inv 128 _ g _ hlo _ _ rfl (by show (col.val / 256) * 128 + col.val % 256 = 128 + col.val % 256; omega)
    · rw [dif_neg hlo]
      exact layer_entry_hi p inv 128 _ g _ (Nat.not_lt.mp hlo) _ _ rfl
        (by show (col.val / 256) * 128 + (col.val % 256 - 128) = 128 + (col.val % 256 - 128); omega)
  · refine (concatenate_apply_piece 1 _ _ (ix2 g col) 2
      (by show (2 : ℕ) < 3; omega) S64x256 _ rfl rfl 512 rfl (ix2 g ⟨col.val % 256, hq⟩)
      (fun b hb => match b with
        | ⟨0, _⟩ => rfl
        | ⟨1, _⟩ => absurd rfl hb)
      (by show 512 + col.val % 256 = col.val; omega)).trans ?_
    by_cases hlo : col.val % 256 < 128
    · rw [dif_pos hlo]
      exact layer_entry_lo p inv 256 _ g _ hlo _ _ rfl (by show (col.val / 256) * 128 + col.val % 256 = 256 + col.val % 256; omega)
    · rw [dif_neg hlo]
      exact layer_entry_hi p inv 256 _ g _ (Nat.not_lt.mp hlo) _ _ rfl
        (by show (col.val / 256) * 128 + (col.val % 256 - 128) = 256 + (col.val % 256 - 128); omega)

/-- At the kernel's partial tables P and factors kinv, the operations after the region give the kernel's result kout. -/
theorem tail_spec (x : Cert.Spec.SX.Idx → EReal) (ei : Cert.Spec.SE.Idx → BitVec 32) (bt : Cert.Spec.SB.Idx → BitVec 32)
    (W0 : Cert.Spec.SW0.Idx → EReal) (b0 : Cert.Spec.Sb.Idx → EReal) (W1 : Cert.Spec.SW.Idx → EReal) (b1 : Cert.Spec.Sb.Idx → EReal)
    (W2 : Cert.Spec.SW.Idx → EReal) (b2 : Cert.Spec.Sb.Idx → EReal) :
    tail (fun i => Cert.Spec.P x ei bt W0 b0 W1 b1 W2 b2 (i 0) (i 1) (i 2)) (fun i => Cert.Spec.kinv ei bt (i 0))
      = fun i => Cert.Spec.kout x ei bt W0 b0 W1 b1 W2 b2 (i 0) (i 1) := by
  funext i
  obtain ⟨g, col, rfl⟩ : ∃ (g : Fin 64) (col : Fin 768), i = ix2 g col := ⟨i 0, i 1, eq_ix2 i⟩
  rw [tail_apply]
  unfold Cert.Spec.kout Cert.Spec.summed
  rfl

end Cert.KernelIdeal.HandValue

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KPay.lean ====
/-
  The kernel's arithmetic read entry by entry, over the extended reals.

  One grid point of the pooling kernel holds a block of 5000 node rows.  From the block of features it forms the three
  affine layers  z0 = x · W0 + b0,  z1 = z0 · W1 + b1,  z2 = z1 · W2 + b2  (each 5000 × 128; the changes of float format
  are the identity on the extended reals), and adds to the running [128 × 384] table the product  cᵀ · [z0 | z1 | z2]
  of the block of packed counts c (5000 × 128), contracted over the 5000 rows.

  This module reads each of these values at an index: a layer's entry (r, h) is the sum over the contracted axis plus
  the bias at h; the update's entry (q, k) is the old entry plus the sum over the rows r of c(r, q) · z(r, k).
-/
import proofs.«403037_j2001454760607_3_alg».proof.Proof.Gen.KernelIdeal.Skeleton
import proofs.«403037_j2001454760607_3_alg».proof.Proof.LibMatmul
import Idealize.ShloMosaic.Lib.ValueLayout

noncomputable section

open scoped BigOperators

namespace Cert.KernelIdeal.HandValue

open Idealize.ShloMosaic Idealize.ShloMosaic.ValueIdx Cert.KernelIdeal Cert.KernelIdeal.Gen Cert.Matmul

/-! ## The bias row spread over the 5000 rows -/

/-- A vector of 128 biases, made a one-row matrix and repeated down 5000 rows, reads at (r, h) the bias at h. -/
theorem biasRows_apply (b : Vec Ideal S128 .f32) (r : Fin 5000) (h : Fin 128) :
    broadcastTo S5000x128 (shapeCast S1x128 b shapeCasts_S128_S1x128) broadcasts_S1x128_S5000x128 (ix2 r h) = b (ix1 h) :=
  (broadcastTo_1b_ab_apply (shapeCast S1x128 b shapeCasts_S128_S1x128) broadcasts_S1x128_S5000x128 r h).trans
    (shapeCast_a_1a_apply b shapeCasts_S128_S1x128 (0 : Fin 1) h)

/-! ## One affine layer -/

/-- The first layer's entry (r, h): the row r of the feature block against the column h of W0, plus the bias. -/
theorem pay5_apply (x0 : Vec Ideal S5000x256 .f32) (w0 : Vec Ideal S256x128 .bf16) (b0 : Vec Ideal S128 .f32)
    (r : Fin 5000) (h : Fin 128) :
    k0_pay5 x0 w0 b0 (ix2 r h) = (∑ k : Fin 256, x0 (ix2 r k) * w0 (ix2 k h)) + b0 (ix1 h) := by
  unfold k0_pay5
  show FloatOps.matmul (F := Ideal) (DotDims.plain 5000 256 128) none (truncf .bf16 x0 bitsLt_bf16_f32)
        (shapeCast S256x128 w0 shapeCasts_S256x128_S256x128) (constant (F := Ideal) S5000x128 .f32 0x00000000#32) (ix2 r h)
      + broadcastTo S5000x128 (shapeCast S1x128 b0 shapeCasts_S128_S1x128) broadcasts_S1x128_S5000x128 (ix2 r h) = _
  rw [biasRows_apply, shapeCast_self]
  exact congrArg (· + b0 (ix1 h)) (matmul_plain_apply none (truncf .bf16 x0 bitsLt_bf16_f32) w0 r h)

/-- The store of the first layer is the layer itself. -/
theorem pay6_eq (x0 : Vec Ideal S5000x256 .f32) (w0 : Vec Ideal S256x128 .bf16) (b0 : Vec Ideal S128 .f32) :
    k0_pay6 x0 w0 b0 = k0_pay5 x0 w0 b0 := by
  unfold k0_pay6
  exact shapeCast_self _ _

/-- The second layer's entry (r, h): the row r of the first layer against the column h of W1, plus the bias. -/
theorem pay7_apply (x0 : Vec Ideal S5000x256 .f32) (w0 : Vec Ideal S256x128 .bf16) (b0 : Vec Ideal S128 .f32)
    (w1 : Vec Ideal S128x128 .bf16) (b1 : Vec Ideal S128 .f32) (r : Fin 5000) (h : Fin 128) :
    k0_pay7 x0 w0 b0 w1 b1 (ix2 r h)
      = (∑ k : Fin 128, k0_pay5 x0 w0 b0 (ix2 r k) * w1 (ix2 k h)) + b1 (ix1 h) := by
  unfold k0_pay7
  show FloatOps.matmul (F := Ideal) (DotDims.plain 5000 128 128) none (k0_pay5 x0 w0 b0)
        (shapeCast S128x128 w1 shapeCasts_S128x128_S128x128) (constant (F := Ideal) S5000x128 .f32 0x00000000#32) (ix2 r h)
      + broadcastTo S5000x128 (shapeCast S1x128 b1 shapeCasts_S128_S1x128) broadcasts_S1x128_S5000x128 (ix2 r h) = _
  rw [biasRows_apply, shapeCast_self]
  exact congrArg (· + b1 (ix1 h)) (matmul_plain_apply none (k0_pay5 x0 w0 b0) w1 r h)

/-- The store of the second layer is the layer itself. -/
theorem pay8_eq (x0 : Vec Ideal S5000x256 .f32) (w0 : Vec Ideal S256x128 .bf16) (b0 : Vec Ideal S128 .f32)
    (w1 : Vec Ideal S128x128 .bf16) (b1 : Vec Ideal S128 .f32) :
    k0_pay8 x0 w0 b0 w1 b1 = k0_pay7 x0 w0 b0 w1 b1 := by
  unfold k0_pay8
  exact shapeCast_self _ _

/-- The third layer's product, entry (r, h): the row r of the second layer against the column h of W2. -/
theorem pay9_apply (x0 : Vec Ideal S5000x256 .f32) (w0 : Vec Ideal S256x128 .bf16) (b0 : Vec Ideal S128 .f32)
    (w1 : Vec Ideal S128x128 .bf16) (b1 : Vec Ideal S128 .f32) (w2 : Vec Ideal S128x128 .bf16) (r : Fin 5000) (h : Fin 128) :
    k0_pay9 x0 w0 b0 w1 b1 w2 (ix2 r h) = ∑ k : Fin 128, k0_pay7 x0 w0 b0 w1 b1 (ix2 r k) * w2 (ix2 k h) := by
  unfold k0_pay9
  show FloatOps.matmul (F := Ideal) (DotDims.plain 5000 128 128) none (k0_pay7 x0 w0 b0 w1 b1)
        (shapeCast S128x128 w2 shapeCasts_S128x128_S128x128) (constant (F := Ideal) S5000x128 .f32 0x00000000#32) (ix2 r h) = _
  rw [shapeCast_self]
  exact matmul_plain_apply none (k0_pay7 x0 w0 b0 w1 b1) w2 r h

/-- The third layer's entry (r, h): a product p plus the bias. -/
theorem pay1_apply (p : FVec Ideal S5000x128 .f32) (b2 : Vec Ideal S128 .f32) (r : Fin 5000) (h : Fin 128) :
    k0_pay1 p b2 (ix2 r h) = p (ix2 r h) + b2 (ix1 h) := by
  unfold k0_pay1
  show shapeCast S5000x128 (truncf .bf16 (addf p (broadcastTo S5000x128 (shapeCast S1x128 b2 shapeCasts_S128_S1x128)
      broadcasts_S1x128_S5000x128)) bitsLt_bf16_f32) shapeCasts_S5000x128_S5000x128 (ix2 r h) = _
  rw [shapeCast_self]
  show p (ix2 r h) + broadcastTo S5000x128 (shapeCast S1x128 b2 shapeCasts_S128_S1x128) broadcasts_S1x128_S5000x128 (ix2 r h) = _
  rw [biasRows_apply]

/-! ## The block of packed counts, and the table's start -/

/-- The block of counts enters the product unchanged. -/
theorem pay4_eq (c : Vec Ideal S5000x128 .bf16) : k0_pay4 c = c := by
  unfold k0_pay4
  exact shapeCast_self _ _

/-- The table a core starts from is zero everywhere. -/
theorem pay3_apply (u : Fin 1) (q : Fin 128) (k : Fin 384) : (k0_pay3 (F := Ideal)) (ix3 u q k) = 0 := by
  unfold k0_pay3
  refine (shapeCast_ab_1ab_apply (broadcast S128x384 (Scalar.ofBits (F := Ideal) .f32 0x00000000#32))
    shapeCasts_S128x384_S1x128x384 u q k).trans ?_
  exact Ideal.ofBits_zero_f32

/-! ## The product over the rows -/

/-- In the product cᵀ · z the left operand's index at output (q, k) and row r is (r, q). -/
theorem lhsIdx_rows (q : Fin 128) (k : Fin 384) (r : Fin 5000) :
    dot_S5000x128_S5000x384_S128x384_0_0_1_1_n_n.lhsIdx (ix2 q k)
      ((contrEquiv1 dot_S5000x128_S5000x384_S128x384_0_0_1_1_n_n 5000 rfl rfl).symm r) = ix2 r q := by
  have hr := contrEquiv1_symm_val dot_S5000x128_S5000x384_S128x384_0_0_1_1_n_n 5000 rfl rfl r
  funext a
  refine Fin.ext ?_
  match a with
  | ⟨0, _⟩ => exact (dot_S5000x128_S5000x384_S128x384_0_0_1_1_n_n.lhsIdx_val_of_single rfl (ix2 q k) _).trans hr
  | ⟨1, _⟩ => rfl

/-- The right operand's index at output (q, k) and row r is (r, k). -/
theorem rhsIdx_rows (q : Fin 128) (k : Fin 384) (r : Fin 5000) :
    dot_S5000x128_S5000x384_S128x384_0_0_1_1_n_n.rhsIdx (ix2 q k)
      ((contrEquiv1 dot_S5000x128_S5000x384_S128x384_0_0_1_1_n_n 5000 rfl rfl).symm r) = ix2 r k := by
  have hr := contrEquiv1_symm_val dot_S5000x128_S5000x384_S128x384_0_0_1_1_n_n 5000 rfl rfl r
  funext a
  refine Fin.ext ?_
  match a with
  | ⟨0, _⟩ => exact (dot_S5000x128_S5000x384_S128x384_0_0_1_1_n_n.rhsIdx_val_of_single rfl (ix2 q k) _).trans hr
  | ⟨1, _⟩ => rfl

/-- The product cᵀ · z into the zero table, entry (q, k): the sum over the rows r of c(r, q) · z(r, k). -/
theorem rowsProduct_apply (c : FVec Ideal S5000x128 .bf16) (z : FVec Ideal S5000x384 .bf16) (q : Fin 128) (k : Fin 384) :
    FloatOps.matmul (F := Ideal) dot_S5000x128_S5000x384_S128x384_0_0_1_1_n_n none c z (constant (F := Ideal) S128x384 .f32 0x00000000#32) (ix2 q k)
      = ∑ r : Fin 5000, c (ix2 r q) * z (ix2 r k) := by
  rw [Ideal.matmul_constant_zero_apply,
    ← Equiv.sum_comp (contrEquiv1 dot_S5000x128_S5000x384_S128x384_0_0_1_1_n_n 5000 rfl rfl).symm]
  refine Finset.sum_congr rfl fun r _ => ?_
  rw [lhsIdx_rows, rhsIdx_rows]

/-- The update of the table, entry (q, k): the old entry plus the sum over the block's rows of c(r, q) · z(r, k). -/
theorem pay2_apply (c : FVec Ideal S5000x128 .bf16) (y : Vec Ideal S1x128x384 .f32) (z : Vec Ideal S5000x384 .bf16)
    (u : Fin 1) (q : Fin 128) (k : Fin 384) :
    k0_pay2 c y z (ix3 u q k) = y (ix3 (0 : Fin 1) q k) + ∑ r : Fin 5000, c (ix2 r q) * z (ix2 r k) := by
  unfold k0_pay2
  refine (shapeCast_ab_1ab_apply _ shapeCasts_S128x384_S1x128x384 u q k).trans ?_
  show shapeCast S128x384 y shapeCasts_S1x128x384_S128x384 (ix2 q k)
      + FloatOps.matmul (F := Ideal) dot_S5000x128_S5000x384_S128x384_0_0_1_1_n_n none c z (constant (F := Ideal) S128x384 .f32 0x00000000#32) (ix2 q k) = _
  rw [rowsProduct_apply, shapeCast_1ab_ab_apply]

end Cert.KernelIdeal.HandValue

end
-- ==== Proof.KMath.lean ====
/-
  One grid point's arithmetic in terms of the whole arrays.

  Row block t (t = 0..3) of a 20000-row array holds the rows t·5000 + r, r < 5000.  If the feature block of a grid
  point is row block t of the feature array x, its three layers at the block's row r are the layers z0, z1, z2 of the
  specification at node t·5000 + r; side by side they are the 384 columns of zcat there.  If moreover the block of packed
  counts is row block t of the array cpk, the point adds to the table, at (q, k), the sum over the block's rows of
  cpk(node, q) · zcat(node, k): the specification's contribution `half` of row block (c, s) with t = 2c + s.
-/
import proofs.«403037_j2001454760607_3_alg».proof.Proof.KPay
import proofs.«403037_j2001454760607_3_alg».proof.Proof.Spec

noncomputable section

open scoped BigOperators

namespace Cert.KernelIdeal.HandValue

open Idealize.ShloMosaic Idealize.ShloMosaic.ValueIdx Cert.KernelIdeal Cert.KernelIdeal.Gen

/-- Row r of row block t: node t·5000 + r. -/
def rowAt (t : ℕ) (ht : t < 4) (r : Fin 5000) : Fin 20000 := ⟨t * 5000 + r.val, by have := r.isLt; omega⟩

/-- Row block (c, s) of the specification is row block 2c + s. -/
theorem rowOf_eq (c s : Fin 2) (t : ℕ) (ht : t < 4) (h : t = c.val * 2 + s.val) (r : Fin 5000) :
    Spec.rowOf c s r = rowAt t ht r := by
  subst h; rfl

/-- The 384 columns of zcat by thirds: z0, then z1, then z2. -/
theorem zcat_cases (X : Spec.SX.Idx → EReal) (W0 : Spec.SW0.Idx → EReal) (b0 : Spec.Sb.Idx → EReal)
    (W1 : Spec.SW.Idx → EReal) (b1 : Spec.Sb.Idx → EReal) (W2 : Spec.SW.Idx → EReal) (b2 : Spec.Sb.Idx → EReal)
    (n : Fin 20000) (k : Fin 384) :
    Spec.zcat X W0 b0 W1 b1 W2 b2 n k =
      if h1 : k.val < 128 then Spec.z0 X W0 b0 n ⟨k.val, h1⟩
      else if h2 : k.val < 256 then Spec.z1 X W0 b0 W1 b1 n ⟨k.val - 128, by omega⟩
      else Spec.z2 X W0 b0 W1 b1 W2 b2 n ⟨k.val - 256, by have := k.isLt; omega⟩ := by
  have hk := k.isLt
  unfold Spec.zcat Spec.zl
  by_cases h1 : k.val < 128
  · rw [dif_pos h1, if_pos (by omega)]
    exact congrArg _ (Fin.ext (by show k.val % 128 = k.val; omega))
  · rw [dif_neg h1]
    by_cases h2 : k.val < 256
    · rw [dif_pos h2, if_neg (by omega), if_pos (by omega)]
      exact congrArg _ (Fin.ext (by show k.val % 128 = k.val - 128; omega))
    · rw [dif_neg h2, if_neg (by omega), if_neg (by omega)]
      exact congrArg _ (Fin.ext (by show k.val % 128 = k.val - 256; omega))

section Layers

variable (X : Spec.SX.Idx → EReal) (W0 : Spec.SW0.Idx → EReal) (b0 : Spec.Sb.Idx → EReal)
  (W1 : Spec.SW.Idx → EReal) (b1 : Spec.Sb.Idx → EReal) (W2 : Spec.SW.Idx → EReal) (b2 : Spec.Sb.Idx → EReal)
  (t : ℕ) (ht : t < 4) (x0 : Vec Ideal S5000x256 .f32)
  (hx : ∀ (r : Fin 5000) (k : Fin 256), x0 (ix2 r k) = X (ix2 (rowAt t ht r) k))

include hx

/-- The first layer of the block at row r is z0 at the node. -/
theorem layer0_row (r : Fin 5000) (h : Fin 128) :
    k0_pay5 x0 W0 b0 (ix2 r h) = Spec.z0 X W0 b0 (rowAt t ht r) h :=
  (pay5_apply x0 W0 b0 r h).trans
    (congrArg (· + b0 (ix1 h)) (Finset.sum_congr rfl fun k _ => by rw [hx r k]))

/-- The second layer of the block at row r is z1 at the node. -/
theorem layer1_row (r : Fin 5000) (h : Fin 128) :
    k0_pay7 x0 W0 b0 W1 b1 (ix2 r h) = Spec.z1 X W0 b0 W1 b1 (rowAt t ht r) h :=
  (pay7_apply x0 W0 b0 W1 b1 r h).trans
    (congrArg (· + b1 (ix1 h)) (Finset.sum_congr rfl fun k _ => by rw [layer0_row X W0 b0 t ht x0 hx r k]))

/-- The third layer of the block at row r is z2 at the node. -/
theorem layer2_row (r : Fin 5000) (h : Fin 128) :
    k0_pay1 (k0_pay9 x0 W0 b0 W1 b1 W2) b2 (ix2 r h) = Spec.z2 X W0 b0 W1 b1 W2 b2 (rowAt t ht r) h :=
  (pay1_apply (k0_pay9 x0 W0 b0 W1 b1 W2) b2 r h).trans
    (congrArg (· + b2 (ix1 h)) ((pay9_apply x0 W0 b0 W1 b1 W2 r h).trans
      (Finset.sum_congr rfl fun k _ => by rw [layer1_row X W0 b0 W1 b1 t ht x0 hx r k])))

/-- An array of 384 columns whose thirds are the three layers of the block reads, at row r, zcat at the node. -/
theorem zcat_row (zc : Vec Ideal S5000x384 .bf16)
    (h0 : ∀ (r : Fin 5000) (h : Fin 128), zc (ix2 r ⟨h.val, by have := h.isLt; omega⟩) = k0_pay6 x0 W0 b0 (ix2 r h))
    (h1 : ∀ (r : Fin 5000) (h : Fin 128), zc (ix2 r ⟨128 + h.val, by have := h.isLt; omega⟩) = k0_pay8 x0 W0 b0 W1 b1 (ix2 r h))
    (h2 : ∀ (r : Fin 5000) (h : Fin 128), zc (ix2 r ⟨256 + h.val, by have := h.isLt; omega⟩)
      = k0_pay1 (k0_pay9 x0 W0 b0 W1 b1 W2) b2 (ix2 r h))
    (r : Fin 5000) (k : Fin 384) :
    zc (ix2 r k) = Spec.zcat X W0 b0 W1 b1 W2 b2 (rowAt t ht r) k := by
  have hk := k.isLt
  rw [zcat_cases X W0 b0 W1 b1 W2 b2 (rowAt t ht r) k]
  by_cases c1 : k.val < 128
  · rw [dif_pos c1, ← layer0_row X W0 b0 t ht x0 hx r ⟨k.val, c1⟩, ← pay6_eq]
    exact h0 r ⟨k.val, c1⟩
  · rw [dif_neg c1]
    by_cases c2 : k.val < 256
    · rw [dif_pos c2, ← layer1_row X W0 b0 W1 b1 t ht x0 hx r ⟨k.val - 128, by omega⟩, ← pay8_eq]
      have e : k = ⟨128 + (k.val - 128), by omega⟩ := Fin.ext (by show k.val = 128 + (k.val - 128); omega)
      exact (congrArg (fun k' => zc (ix2 r k')) e).trans (h1 r ⟨k.val - 128, by omega⟩)
    · rw [dif_neg c2, ← layer2_row X W0 b0 W1 b1 W2 b2 t ht x0 hx r ⟨k.val - 256, by omega⟩]
      have e : k = ⟨256 + (k.val - 256), by omega⟩ := Fin.ext (by show k.val = 256 + (k.val - 256); omega)
      exact (congrArg (fun k' => zc (ix2 r k')) e).trans (h2 r ⟨k.val - 256, by omega⟩)

end Layers

/-- One grid point's update at (q, k): the old entry plus the sum, over the rows of row block t, of the packed count
    at (node, q) times zcat at (node, k). -/
theorem update_rows (X : Spec.SX.Idx → EReal) (CP : S20000x128.Idx → EReal) (W0 : Spec.SW0.Idx → EReal) (b0 : Spec.Sb.Idx → EReal)
    (W1 : Spec.SW.Idx → EReal) (b1 : Spec.Sb.Idx → EReal) (W2 : Spec.SW.Idx → EReal) (b2 : Spec.Sb.Idx → EReal)
    (t : ℕ) (ht : t < 4) (c1 : Vec Ideal S5000x128 .bf16) (y : Vec Ideal S1x128x384 .f32) (zc : Vec Ideal S5000x384 .bf16)
    (hc : ∀ (r : Fin 5000) (q : Fin 128), c1 (ix2 r q) = CP (ix2 (rowAt t ht r) q))
    (hz : ∀ (r : Fin 5000) (k : Fin 384), zc (ix2 r k) = Spec.zcat X W0 b0 W1 b1 W2 b2 (rowAt t ht r) k)
    (u : Fin 1) (q : Fin 128) (k : Fin 384) :
    k0_pay2 (k0_pay4 c1) y zc (ix3 u q k)
      = y (ix3 (0 : Fin 1) q k)
        + ∑ r : Fin 5000, CP (ix2 (rowAt t ht r) q) * Spec.zcat X W0 b0 W1 b1 W2 b2 (rowAt t ht r) k := by
  rw [pay4_eq, pay2_apply]
  exact congrArg (y (ix3 (0 : Fin 1) q k) + ·) (Finset.sum_congr rfl fun r _ => by rw [hc r q, hz r k])

/-- With the packed counts the table cpk, that sum is the specification's contribution of row block (c, s), t = 2c + s. -/
theorem rows_eq_half (X : Spec.SX.Idx → EReal) (ei : Spec.SE.Idx → BitVec 32) (bt : Spec.SB.Idx → BitVec 32)
    (W0 : Spec.SW0.Idx → EReal) (b0 : Spec.Sb.Idx → EReal)
    (W1 : Spec.SW.Idx → EReal) (b1 : Spec.Sb.Idx → EReal) (W2 : Spec.SW.Idx → EReal) (b2 : Spec.Sb.Idx → EReal)
    (c s : Fin 2) (t : ℕ) (ht : t < 4) (h : t = c.val * 2 + s.val) (q : Fin 128) (k : Fin 384) :
    (∑ r : Fin 5000, (fun i : S20000x128.Idx => Spec.cpk ei bt (i 0) (i 1)) (ix2 (rowAt t ht r) q)
        * Spec.zcat X W0 b0 W1 b1 W2 b2 (rowAt t ht r) k)
      = Spec.half X ei bt W0 b0 W1 b1 W2 b2 c s q k := by
  unfold Spec.half
  exact Finset.sum_congr rfl fun r _ => by rw [rowOf_eq c s t ht h r]

end Cert.KernelIdeal.HandValue

end
-- ==== Proof.KZcat.lean ====
/-
  The scratch of one grid point read as one array, and the point's update of the table in terms of the whole arrays.

  The body writes the three layers of its row block into the scratch as three slabs of 128 columns (columns 0..127 the
  first layer, 128..255 the second, 256..383 the third).  Read back whole, entry (r, k) of the scratch is the layer
  k / 128 at (r, k % 128).  With the feature block the row block t of the feature array, that is zcat at node
  t·5000 + r; the update of the table then adds, at (q, k), the sum over the block's rows of count · zcat.
-/
import proofs.«403037_j2001454760607_3_alg».proof.Proof.KMath
import proofs.«403037_j2001454760607_3_alg».proof.Proof.KBody

noncomputable section

open scoped BigOperators

namespace Cert.KernelIdeal.HandValue

open Idealize.ShloMosaic Idealize.ShloMosaic.ValueIdx Cert.KernelIdeal Cert.KernelIdeal.Gen Cert.KernelIdeal.Hand

section Slabs

variable (x0 : Vec Ideal S5000x256 .f32) (x2 : Vec Ideal S256x128 .bf16) (x3 : Vec Ideal S128 .f32)
  (x4 : Vec Ideal S128x128 .bf16) (x5 : Vec Ideal S128 .f32) (x6 : Vec Ideal S128x128 .bf16) (x7 : Vec Ideal S128 .f32)

/-- The three slabs: a rectangle of 128 columns of the scratch and the layer stored there. -/
abbrev slab2 : View.Piece (Elt Ideal) S5000x384 .bf16 :=
  ⟨Rect.unit (s := S5000x384) ![0, 256] S5000x128.size inb_S5000x384_S5000x128_0_256, k0_pay1 (k0_pay9 x0 x2 x3 x4 x5 x6) x7⟩
abbrev slab1 : View.Piece (Elt Ideal) S5000x384 .bf16 :=
  ⟨Rect.unit (s := S5000x384) ![0, 128] S5000x128.size inb_S5000x384_S5000x128_0_128, k0_pay8 x0 x2 x3 x4 x5⟩
abbrev slab0 : View.Piece (Elt Ideal) S5000x384 .bf16 :=
  ⟨Rect.unit (s := S5000x384) ![0, 0] S5000x128.size inb_S5000x384_S5000x128_0_0, k0_pay6 x0 x2 x3⟩

/-- The scratch read back is the three slabs, the last stored first. -/
theorem zcatOf_slabs : zcatOf x0 x2 x3 x4 x5 x6 x7
    = View.canon [slab2 x0 x2 x3 x4 x5 x6 x7, slab1 x0 x2 x3 x4 x5, slab0 x0 x2 x3] := rfl

/-- Columns 256..383 of the scratch hold the third layer. -/
theorem zcatOf_hi (r : Fin 5000) (h : Fin 128) :
    zcatOf x0 x2 x3 x4 x5 x6 x7 (ix2 r ⟨256 + h.val, by have := h.isLt; omega⟩)
      = k0_pay1 (k0_pay9 x0 x2 x3 x4 x5 x6) x7 (ix2 r h) := by
  rw [zcatOf_slabs]
  have e : (Rect.unit (s := S5000x384) ![0, 256] S5000x128.size inb_S5000x384_S5000x128_0_256).emb (ix2 r h)
      = ix2 r ⟨256 + h.val, by have := h.isLt; omega⟩ :=
    funext fun a => Fin.ext (by
      match a with
      | ⟨0, _⟩ => show 0 + 1 * r.val = r.val; omega
      | ⟨1, _⟩ => show 256 + 1 * h.val = 256 + h.val; omega)
  rw [← e]
  exact View.canon_cons_emb _ _ _ _

/-- Columns 128..255 hold the second layer. -/
theorem zcatOf_mid (r : Fin 5000) (h : Fin 128) :
    zcatOf x0 x2 x3 x4 x5 x6 x7 (ix2 r ⟨128 + h.val, by have := h.isLt; omega⟩)
      = k0_pay8 x0 x2 x3 x4 x5 (ix2 r h) := by
  have hh := h.isLt
  rw [zcatOf_slabs]
  have hm : (ix2 r ⟨128 + h.val, by omega⟩ : S5000x384.Idx)
      ∉ (Rect.unit (s := S5000x384) ![0, 256] S5000x128.size inb_S5000x384_S5000x128_0_256).set := by
    rw [Rect.mem_set_unit]
    intro hall
    have h1 : 256 ≤ 128 + h.val := (hall 1).1
    omega
  refine (View.canon_cons_of_not_mem (slab2 x0 x2 x3 x4 x5 x6 x7) [slab1 x0 x2 x3 x4 x5, slab0 x0 x2 x3] hm).trans ?_
  have e : (Rect.unit (s := S5000x384) ![0, 128] S5000x128.size inb_S5000x384_S5000x128_0_128).emb (ix2 r h)
      = ix2 r ⟨128 + h.val, by omega⟩ :=
    funext fun a => Fin.ext (by
      match a with
      | ⟨0, _⟩ => show 0 + 1 * r.val = r.val; omega
      | ⟨1, _⟩ => show 128 + 1 * h.val = 128 + h.val; omega)
  rw [← e]
  exact View.canon_cons_emb _ _ _ _

/-- Columns 0..127 hold the first layer. -/
theorem zcatOf_lo (r : Fin 5000) (h : Fin 128) :
    zcatOf x0 x2 x3 x4 x5 x6 x7 (ix2 r ⟨h.val, by have := h.isLt; omega⟩) = k0_pay6 x0 x2 x3 (ix2 r h) := by
  have hh := h.isLt
  rw [zcatOf_slabs]
  have hm2 : (ix2 r ⟨h.val, by omega⟩ : S5000x384.Idx)
      ∉ (Rect.unit (s := S5000x384) ![0, 256] S5000x128.size inb_S5000x384_S5000x128_0_256).set := by
    rw [Rect.mem_set_unit]
    intro hall
    have h1 : 256 ≤ h.val := (hall 1).1
    omega
  have hm1 : (ix2 r ⟨h.val, by omega⟩ : S5000x384.Idx)
      ∉ (Rect.unit (s := S5000x384) ![0, 128] S5000x128.size inb_S5000x384_S5000x128_0_128).set := by
    rw [Rect.mem_set_unit]
    intro hall
    have h1 : 128 ≤ h.val := (hall 1).1
    omega
  refine (View.canon_cons_of_not_mem (slab2 x0 x2 x3 x4 x5 x6 x7) [slab1 x0 x2 x3 x4 x5, slab0 x0 x2 x3] hm2).trans ?_
  refine (View.canon_cons_of_not_mem (slab1 x0 x2 x3 x4 x5) [slab0 x0 x2 x3] hm1).trans ?_
  have e : (Rect.unit (s := S5000x384) ![0, 0] S5000x128.size inb_S5000x384_S5000x128_0_0).emb (ix2 r h)
      = ix2 r ⟨h.val, by omega⟩ :=
    funext fun a => Fin.ext (by
      match a with
      | ⟨0, _⟩ => show 0 + 1 * r.val = r.val; omega
      | ⟨1, _⟩ => show 0 + 1 * h.val = h.val; omega)
  rw [← e]
  exact View.canon_cons_emb _ _ _ _

end Slabs

section Point

variable (X : Spec.SX.Idx → EReal) (CP : S20000x128.Idx → EReal) (W0 : Spec.SW0.Idx → EReal) (b0 : Spec.Sb.Idx → EReal)
  (W1 : Spec.SW.Idx → EReal) (b1 : Spec.Sb.Idx → EReal) (W2 : Spec.SW.Idx → EReal) (b2 : Spec.Sb.Idx → EReal)
  (t : ℕ) (ht : t < 4) (x0 : Vec Ideal S5000x256 .f32) (c1 : Vec Ideal S5000x128 .bf16)
  (hx : ∀ (r : Fin 5000) (k : Fin 256), x0 (ix2 r k) = X (ix2 (rowAt t ht r) k))
  (hc : ∀ (r : Fin 5000) (q : Fin 128), c1 (ix2 r q) = CP (ix2 (rowAt t ht r) q))

include hx in
/-- The scratch at (r, k) is zcat at node t·5000 + r. -/
theorem zcatOf_row (r : Fin 5000) (k : Fin 384) :
    zcatOf x0 W0 b0 W1 b1 W2 b2 (ix2 r k) = Spec.zcat X W0 b0 W1 b1 W2 b2 (rowAt t ht r) k :=
  zcat_row X W0 b0 W1 b1 W2 b2 t ht x0 hx (zcatOf x0 W0 b0 W1 b1 W2 b2)
    (zcatOf_lo x0 W0 b0 W1 b1 W2 b2) (zcatOf_mid x0 W0 b0 W1 b1 W2 b2) (zcatOf_hi x0 W0 b0 W1 b1 W2 b2) r k

include hx hc in
/-- What the point leaves at (q, k): what it started from plus the sum over row block t of count · zcat. -/
theorem outNew_apply (y : Vec Ideal S1x128x384 .f32) (u : Fin 1) (q : Fin 128) (k : Fin 384) :
    outNew x0 c1 W0 b0 W1 b1 W2 b2 y (ix3 u q k)
      = y (ix3 (0 : Fin 1) q k)
        + ∑ r : Fin 5000, CP (ix2 (rowAt t ht r) q) * Spec.zcat X W0 b0 W1 b1 W2 b2 (rowAt t ht r) k := by
  unfold outNew
  exact update_rows X CP W0 b0 W1 b1 W2 b2 t ht c1 y (zcatOf x0 W0 b0 W1 b1 W2 b2) hc
    (zcatOf_row X W0 b0 W1 b1 W2 b2 t ht x0 hx) u q k

end Point

end Cert.KernelIdeal.HandValue

end
-- ==== Proof.KBlocks.lean ====
/-
  The blocks the input windows hold, read entry by entry.

  The grid has four points t = 0..3 (core t / 2, step t % 2).  The feature window and the packed-count window hold row
  block t of their arrays: entry (r, k) of the block is entry (t·5000 + r, k) of the array.  The six weight and bias
  windows hold their whole arrays at every point.
-/
import proofs.«403037_j2001454760607_3_alg».proof.Proof.KFrameKit
import Idealize.ShloMosaic.Lib.ValueIdx

noncomputable section

namespace Cert.KernelIdeal.HandValue

open Idealize.ShloMosaic Idealize.ShloMosaic.ValueIdx Idealize.ShloMosaic.TcCoe Cert.KernelIdeal Cert.KernelIdeal.Gen Cert.KernelIdeal.Hand

variable (m : (ℓ : Loc nD τ sig) → Buf (Elt Ideal) ℓ)

/-! ## The arrays the region finds and the blocks of a point, at their literal types -/

/-- The feature array. -/
abbrev xArr (c : Dev nD) : Vec Ideal S20000x256 .f32 := V m c main_arg0
/-- The packed-count array. -/
abbrev cArr (c : Dev nD) : Vec Ideal S20000x128 .bf16 := V m c main_v33
/-- The three weight matrices and bias vectors as the region finds them. -/
abbrev w0Arr (c : Dev nD) : Vec Ideal S256x128 .bf16 := V m c main_v34
abbrev b0Arr (c : Dev nD) : Vec Ideal S128 .f32 := V m c main_arg4
abbrev w1Arr (c : Dev nD) : Vec Ideal S128x128 .bf16 := V m c main_v35
abbrev b1Arr (c : Dev nD) : Vec Ideal S128 .f32 := V m c main_arg6
abbrev w2Arr (c : Dev nD) : Vec Ideal S128x128 .bf16 := V m c main_v36
abbrev b2Arr (c : Dev nD) : Vec Ideal S128 .f32 := V m c main_arg8

/-- The blocks of point t. -/
abbrev xBlk (c : Dev nD) (t : Fin cfg0.N) : Vec Ideal S5000x256 .f32 := iblk m c 0 t
abbrev cBlk (c : Dev nD) (t : Fin cfg0.N) : Vec Ideal S5000x128 .bf16 := iblk m c 1 t
abbrev w0Blk (c : Dev nD) (t : Fin cfg0.N) : Vec Ideal S256x128 .bf16 := iblk m c 2 t
abbrev b0Blk (c : Dev nD) (t : Fin cfg0.N) : Vec Ideal S128 .f32 := iblk m c 3 t
abbrev w1Blk (c : Dev nD) (t : Fin cfg0.N) : Vec Ideal S128x128 .bf16 := iblk m c 4 t
abbrev b1Blk (c : Dev nD) (t : Fin cfg0.N) : Vec Ideal S128 .f32 := iblk m c 5 t
abbrev w2Blk (c : Dev nD) (t : Fin cfg0.N) : Vec Ideal S128x128 .bf16 := iblk m c 6 t
abbrev b2Blk (c : Dev nD) (t : Fin cfg0.N) : Vec Ideal S128 .f32 := iblk m c 7 t

/-! ## The block indices, decided over the four points -/

/-- The row-block windows sit at block (t, 0); the weight and bias windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-! ## The row blocks -/

/-- Entry (r, k) of the feature block of point t is entry (t·5000 + r, k) of the feature array. -/
theorem xBlk_apply (c : Dev nD) (t : Fin cfg0.N) (r : Fin 5000) (k : Fin 256) (n : Fin 20000)
    (hn : n.val = t.val * 5000 + r.val) : xBlk m c t (ix2 r k) = xArr m c (ix2 n k) := by
  obtain ⟨e0, e1, -⟩ := idx_facts t
  show iblk m c 0 t (ix2 r k) = _
  unfold iblk
  rw [View.read_apply]
  show V m c main_arg0 _ = V m c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 256 + 1 * k.val = k.val; rw [e1]; omega

/-- Entry (r, q) of the packed-count block of point t is entry (t·5000 + r, q) of the packed-count array. -/
theorem cBlk_apply (c : Dev nD) (t : Fin cfg0.N) (r : Fin 5000) (q : Fin 128) (n : Fin 20000)
    (hn : n.val = t.val * 5000 + r.val) : cBlk m c t (ix2 r q) = cArr m c (ix2 n q) := by
  obtain ⟨-, -, e0, e1, -⟩ := idx_facts t
  show iblk m c 1 t (ix2 r q) = _
  unfold iblk
  rw [View.read_apply]
  show V m c main_v33 _ = V m c main_v33 _
  congr 1
  funext a
  apply Fin.ext
  match a with
  | ⟨0, _⟩ => show win0_1.index t (0 : Fin 2) * 5000 + 1 * r.val = n.val; rw [e0, hn]; omega
  | ⟨1, _⟩ => show win0_1.index t (1 : Fin 2) * 128 + 1 * q.val = q.val; rw [e1]; omega

/-! ## The weight and bias windows hold their whole arrays -/

theorem w0Blk_eq (c : Dev nD) (t : Fin cfg0.N) : w0Blk m c t = w0Arr m c := by
  obtain ⟨-, -, -, -, e0, e1, -⟩ := idx_facts t
  funext j
  show iblk m c 2 t j = _
  unfold iblk
  rw [View.read_apply]
  show V m c main_v34 _ = V m c main_v34 _
  congr 1
  funext a
  apply Fin.ext
  match a with
  | ⟨0, _⟩ => show win0_2.index t (0 : Fin 2) * 256 + 1 * (j 0).val = (j 0).val; rw [e0]; omega
  | ⟨1, _⟩ => show win0_2.index t (1 : Fin 2) * 128 + 1 * (j 1).val = (j 1).val; rw [e1]; omega

theorem b0Blk_eq (c : Dev nD) (t : Fin cfg0.N) : b0Blk m c t = b0Arr m c := by
  obtain ⟨-, -, -, -, -, -, e0, -⟩ := idx_facts t
  funext j
  show iblk m c 3 t j = _
  unfold iblk
  rw [View.read_apply]
  show V m c main_arg4 _ = V m c main_arg4 _
  congr 1
  funext a
  apply Fin.ext
  match a with
  | ⟨0, _⟩ => show win0_3.index t (0 : Fin 1) * 128 + 1 * (j 0).val = (j 0).val; rw [e0]; omega

theorem w1Blk_eq (c : Dev nD) (t : Fin cfg0.N) : w1Blk m c t = w1Arr m c := by
  obtain ⟨-, -, -, -, -, -, -, e0, e1, -⟩ := idx_facts t
  funext j
  show iblk m c 4 t j = _
  unfold iblk
  rw [View.read_apply]
  show V m c main_v35 _ = V m c main_v35 _
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem b1Blk_eq (c : Dev nD) (t : Fin cfg0.N) : b1Blk m c t = b1Arr m c := by
  obtain ⟨-, -, -, -, -, -, -, -, -, e0, -⟩ := idx_facts t
  funext j
  show iblk m c 5 t j = _
  unfold iblk
  rw [View.read_apply]
  show V m c main_arg6 _ = V m c main_arg6 _
  congr 1
  funext a
  apply Fin.ext
  match a with
  | ⟨0, _⟩ => show win0_5.index t (0 : Fin 1) * 128 + 1 * (j 0).val = (j 0).val; rw [e0]; omega

theorem w2Blk_eq (c : Dev nD) (t : Fin cfg0.N) : w2Blk m c t = w2Arr m c := by
  obtain ⟨-, -, -, -, -, -, -, -, -, -, e0, e1, -⟩ := idx_facts t
  funext j
  show iblk m c 6 t j = _
  unfold iblk
  rw [View.read_apply]
  show V m c main_v36 _ = V m c main_v36 _
  congr 1
  funext a
  apply Fin.ext
  match a with
  | ⟨0, _⟩ => show win0_6.index t (0 : Fin 2) * 128 + 1 * (j 0).val = (j 0).val; rw [e0]; omega
  | ⟨1, _⟩ => show win0_6.index t (1 : Fin 2) * 128 + 1 * (j 1).val = (j 1).val; rw [e1]; omega

theorem b2Blk_eq (c : Dev nD) (t : Fin cfg0.N) : b2Blk m c t = b2Arr m c := by
  obtain ⟨-, -, -, -, -, -, -, -, -, -, -, -, e0⟩ := idx_facts t
  funext j
  show iblk m c 7 t j = _
  unfold iblk
  rw [View.read_apply]
  show V m c main_arg8 _ = V m c main_arg8 _
  congr 1
  funext a
  apply Fin.ext
  match a with
  | ⟨0, _⟩ => show win0_7.index t (0 : Fin 1) * 128 + 1 * (j 0).val = (j 0).val; rw [e0]; omega

end Cert.KernelIdeal.HandValue

end
-- ==== Proof.KRegion.lean ====
/-
  What the region leaves in the table array: core c's plane is the specification's partial result P c.

  Core c runs the two points t = 2c (step 0) and t = 2c + 1 (step 1).  At step 0 the table block starts from zero and
  the point adds the contribution of row block 2c: the block then holds half c 0.  At step 1 the block still holds
  what step 0 left (its block index has not moved and it was not written back) and the point adds the contribution of
  row block 2c + 1: the block holds half c 0 + half c 1 = P c, and this is what is written back, to plane c of the
  [2, 128, 384] array.  The two write-backs (t = 1, t = 3) cover the array.
-/
import proofs.«403037_j2001454760607_3_alg».proof.Proof.KZcat
import proofs.«403037_j2001454760607_3_alg».proof.Proof.KBlocks
import proofs.«403037_j2001454760607_3_alg».proof.Proof.KFrame
import Idealize.ShloMosaic.Lib.Pipeline.Value

noncomputable section

open scoped BigOperators

namespace Cert.KernelIdeal.HandValue

open Idealize.ShloMosaic Idealize.ShloMosaic.ValueIdx Idealize.ShloMosaic.TcCoe Cert.KernelIdeal Cert.KernelIdeal.Gen
  Cert.KernelIdeal.Hand
open Idealize.ShloMosaic.Pipeline (Dat)

variable (m : (ℓ : Loc nD τ sig) → Buf (Elt Ideal) ℓ)

/-- The table the region leaves, as a function of the inputs: plane c is P c. -/
abbrev pTable (X : Spec.SX.Idx → EReal) (ei : Spec.SE.Idx → BitVec 32) (bt : Spec.SB.Idx → BitVec 32)
    (W0 : Spec.SW0.Idx → EReal) (b0 : Spec.Sb.Idx → EReal) (W1 : Spec.SW.Idx → EReal) (b1 : Spec.Sb.Idx → EReal)
    (W2 : Spec.SW.Idx → EReal) (b2 : Spec.Sb.Idx → EReal) : S2x128x384.Idx → EReal :=
  fun i => Spec.P X ei bt W0 b0 W1 b1 W2 b2 (i 0) (i 1) (i 2)

section Core

variable (c : Dev nD) (X : Spec.SX.Idx → EReal) (ei : Spec.SE.Idx → BitVec 32) (bt : Spec.SB.Idx → BitVec 32)
  (W0 : Spec.SW0.Idx → EReal) (b0 : Spec.Sb.Idx → EReal) (W1 : Spec.SW.Idx → EReal) (b1 : Spec.Sb.Idx → EReal)
  (W2 : Spec.SW.Idx → EReal) (b2 : Spec.Sb.Idx → EReal)
  (hX : xArr m c = X) (hcp : cArr m c = fun i => Spec.cpk ei bt (i 0) (i 1))
  (hW0 : w0Arr m c = W0) (hb0 : b0Arr m c = b0) (hW1 : w1Arr m c = W1) (hb1 : b1Arr m c = b1)
  (hW2 : w2Arr m c = W2) (hb2 : b2Arr m c = b2)

theorem lt4 {n : ℕ} (hn : n < cfg0.N) : n < 4 := by
  have hN : cfg0.N = 4 := N_0
  omega

include hX hcp hW0 hb0 hW1 hb1 hW2 hb2

/-- One point's update of the table block, in terms of the arrays: what it started from plus the contribution of
    row block t. -/
theorem point_apply (t : Fin cfg0.N) (y : Vec Ideal S1x128x384 .f32) (u : Fin 1) (q : Fin 128) (k : Fin 384) :
    outNew (iblk m c 0 t) (iblk m c 1 t) (iblk m c 2 t) (iblk m c 3 t) (iblk m c 4 t) (iblk m c 5 t) (iblk m c 6 t)
        (iblk m c 7 t) y (ix3 u q k)
      = y (ix3 (0 : Fin 1) q k)
        + ∑ r : Fin 5000, (fun i : S20000x128.Idx => Spec.cpk ei bt (i 0) (i 1)) (ix2 (rowAt t.val (lt4 t.isLt) r) q)
            * Spec.zcat X W0 b0 W1 b1 W2 b2 (rowAt t.val (lt4 t.isLt) r) k := by
  have hx : ∀ (r : Fin 5000) (k : Fin 256), xBlk m c t (ix2 r k) = X (ix2 (rowAt t.val (lt4 t.isLt) r) k) :=
    fun r k => (xBlk_apply m c t r k (rowAt t.val (lt4 t.isLt) r) rfl).trans (congrFun hX _)
  have hc : ∀ (r : Fin 5000) (q : Fin 128),
      cBlk m c t (ix2 r q) = (fun i : S20000x128.Idx => Spec.cpk ei bt (i 0) (i 1)) (ix2 (rowAt t.val (lt4 t.isLt) r) q) :=
    fun r q => (cBlk_apply m c t r q (rowAt t.val (lt4 t.isLt) r) rfl).trans (congrFun hcp _)
  have e2 : w0Blk m c t = W0 := (w0Blk_eq m c t).trans hW0
  have e3 : b0Blk m c t = b0 := (b0Blk_eq m c t).trans hb0
  have e4 : w1Blk m c t = W1 := (w1Blk_eq m c t).trans hW1
  have e5 : b1Blk m c t = b1 := (b1Blk_eq m c t).trans hb1
  have e6 : w2Blk m c t = W2 := (w2Blk_eq m c t).trans hW2
  have e7 : b2Blk m c t = b2 := (b2Blk_eq m c t).trans hb2
  show outNew (xBlk m c t) (cBlk m c t) (w0Blk m c t) (b0Blk m c t) (w1Blk m c t) (b1Blk m c t) (w2Blk m c t)
      (b2Blk m c t) y (ix3 u q k) = _
  rw [e2, e3, e4, e5, e6, e7]
  exact outNew_apply X (fun i : S20000x128.Idx => Spec.cpk ei bt (i 0) (i 1)) W0 b0 W1 b1 W2 b2 t.val (lt4 t.isLt)
    (xBlk m c t) (cBlk m c t) hx hc y u q k

/-- After a step-0 point n = 2c the table block holds the contribution of row block (c, 0). -/
theorem outAt_even (n : ℕ) (hn : n < cfg0.N) (he : n % 2 = 0) (u : Fin 1) (q : Fin 128) (k : Fin 384) :
    outAt m c n hn (ix3 u q k)
      = Spec.half X ei bt W0 b0 W1 b1 W2 b2 ⟨n / 2, by have := lt4 hn; omega⟩ 0 q k := by
  have h4 := lt4 hn
  refine (congrFun (outAt_reset m c ⟨n, hn⟩ he) (ix3 u q k)).trans ?_
  refine (point_apply m c X ei bt W0 b0 W1 b1 W2 b2 hX hcp hW0 hb0 hW1 hb1 hW2 hb2 ⟨n, hn⟩ (k0_pay3 (F := Ideal)) u q k).trans ?_
  rw [pay3_apply, zero_add]
  exact rows_eq_half X ei bt W0 b0 W1 b1 W2 b2 ⟨n / 2, by omega⟩ 0 n h4 (by show n = n / 2 * 2 + 0; omega) q k

/-- After a step-1 point n = 2c + 1 the table block holds P c. -/
theorem outAt_odd (n : ℕ) (hn : n < cfg0.N) (ho : ¬ n % 2 = 0) (u : Fin 1) (q : Fin 128) (k : Fin 384) :
    outAt m c n hn (ix3 u q k)
      = Spec.P X ei bt W0 b0 W1 b1 W2 b2 ⟨n / 2, by have := lt4 hn; omega⟩ q k := by
  have h4 := lt4 hn
  refine (congrFun (outAt_acc m c ⟨n, hn⟩ ho) (ix3 u q k)).trans ?_
  refine (point_apply m c X ei bt W0 b0 W1 b1 W2 b2 hX hcp hW0 hb0 hW1 hb1 hW2 hb2 ⟨n, hn⟩
    (outAt m c (n - 1) (Nat.lt_of_le_of_lt (Nat.sub_le _ _) hn)) u q k).trans ?_
  rw [outAt_even m c X ei bt W0 b0 W1 b1 W2 b2 hX hcp hW0 hb0 hW1 hb1 hW2 hb2 (n - 1)
    (Nat.lt_of_le_of_lt (Nat.sub_le _ _) hn) (by omega) (0 : Fin 1) q k]
  have ec : (⟨(n - 1) / 2, by omega⟩ : Fin 2) = ⟨n / 2, by omega⟩ := Fin.ext (by show (n - 1) / 2 = n / 2; omega)
  unfold Spec.P
  rw [ec]
  exact congrArg (Spec.half X ei bt W0 b0 W1 b1 W2 b2 ⟨n / 2, by omega⟩ 0 q k + ·)
    (rows_eq_half X ei bt W0 b0 W1 b1 W2 b2 ⟨n / 2, by omega⟩ 1 n h4 (by show n = n / 2 * 2 + 1; omega) q k)

omit hX hcp hW0 hb0 hW1 hb1 hW2 hb2

/-- The table window sits at block (t / 2, 0, 0): plane t / 2 of the array. -/
theorem idx8_facts : ∀ t : Fin cfg0.N,
    win0_8.index t (0 : Fin 3) = t.val / 2 ∧ win0_8.index t (1 : Fin 3) = 0 ∧ win0_8.index t (2 : Fin 3) = 0 :=
  (by decide +kernel : ∀ t : Fin grid0.N, _)

include hX hcp hW0 hb0 hW1 hb1 hW2 hb2

/-- What a step-1 point writes back is its plane of the table P. -/
theorem flushed_eq (t : Fin cfg0.N) (hf : (cfg0.win 8).flush t = true) :
    (dats m 0 c).flushed 8 t
      = ((cfg0.win 8).blk t).view.read (Elt Ideal) (pTable X ei bt W0 b0 W1 b1 W2 b2) := by
  have ho : t.val % 2 = 1 := (flush0_8 t).mp hf
  have h4 := lt4 t.isLt
  obtain ⟨e0, e1, e2⟩ := idx8_facts t
  show (cfg0.win 8).cut (grid0.coords t) ((dats m 0 c).after 8 t) = _
  rw [after0_8]
  have key : ∀ j : S1x128x384.Idx,
      outAt m c t.val t.isLt j = pTable X ei bt W0 b0 W1 b1 W2 b2 (((cfg0.win 8).blk t).view.emb j) := by
    intro j
    obtain ⟨u, q, k, rfl⟩ : ∃ (u : Fin 1) (q : Fin 128) (k : Fin 384), j = ix3 u q k := ⟨j 0, j 1, j 2, eq_ix3 j⟩
    rw [outAt_odd m c X ei bt W0 b0 W1 b1 W2 b2 hX hcp hW0 hb0 hW1 hb1 hW2 hb2 t.val t.isLt (by omega) u q k]
    have hu : u.val = 0 := by omega
    have ea : (⟨t.val / 2, by omega⟩ : Fin 2) = (((cfg0.win 8).blk t).view.emb (ix3 u q k)) 0 :=
      Fin.ext (by show t.val / 2 = win0_8.index t (0 : Fin 3) * 1 + 1 * u.val; rw [e0, hu]; omega)
    have eb : q = (((cfg0.win 8).blk t).view.emb (ix3 u q k)) 1 :=
      Fin.ext (by show q.val = win0_8.index t (1 : Fin 3) * 128 + 1 * q.val; rw [e1]; omega)
    have ed : k = (((cfg0.win 8).blk t).view.emb (ix3 u q k)) 2 :=
      Fin.ext (by show k.val = win0_8.index t (2 : Fin 3) * 384 + 1 * k.val; rw [e2]; omega)
    exact congr (congr (congrArg (Spec.P X ei bt W0 b0 W1 b1 W2 b2) ea) eb) ed
  funext j
  exact key j

omit hX hcp hW0 hb0 hW1 hb1 hW2 hb2

/-- An index of the table array is in point t's block iff each coordinate is in the block's range on its axis. -/
theorem mem_blk8 (t : Fin cfg0.N) (i : S2x128x384.Idx) :
    i ∈ ((cfg0.win 8).blk t).view.set
      ↔ ∀ a : Fin 3, win0_8.index t a * S1x128x384.size a ≤ (i a).val
          ∧ (i a).val < win0_8.index t a * S1x128x384.size a + S1x128x384.size a := by
  show i ∈ ((View.whole main_v37).slice (win0_8.rect t)).set ↔ _
  rw [View.set_slice_whole, Rect.mem_set_unit]
  exact Iff.rfl

/-- Every entry of the table array is written back by a step-1 point: plane c by t = 2c + 1. -/
theorem cover8 (i : S2x128x384.Idx) :
    ∃ t : Fin cfg0.N, (cfg0.win 8).flush t = true ∧ i ∈ ((cfg0.win 8).blk t).view.set := by
  have hN : cfg0.N = 4 := N_0
  have h0 : (i 0).val < 2 := (i 0).isLt
  have h1 : (i 1).val < 128 := (i 1).isLt
  have h2 : (i 2).val < 384 := (i 2).isLt
  refine ⟨⟨2 * (i 0).val + 1, by omega⟩, (flush0_8 _).mpr (by show (2 * (i 0).val + 1) % 2 = 1; omega), ?_⟩
  obtain ⟨e0, e1, e2⟩ := idx8_facts ⟨2 * (i 0).val + 1, by omega⟩
  rw [mem_blk8]
  intro a
  match a with
  | ⟨0, _⟩ =>
    show win0_8.index ⟨2 * (i 0).val + 1, _⟩ (0 : Fin 3) * 1 ≤ (i 0).val
      ∧ (i 0).val < win0_8.index ⟨2 * (i 0).val + 1, _⟩ (0 : Fin 3) * 1 + 1
    rw [e0]; show (2 * (i 0).val + 1) / 2 * 1 ≤ (i 0).val ∧ (i 0).val < (2 * (i 0).val + 1) / 2 * 1 + 1; omega
  | ⟨1, _⟩ =>
    show win0_8.index ⟨2 * (i 0).val + 1, _⟩ (1 : Fin 3) * 128 ≤ (i 1).val
      ∧ (i 1).val < win0_8.index ⟨2 * (i 0).val + 1, _⟩ (1 : Fin 3) * 128 + 128
    rw [e1]; omega
  | ⟨2, _⟩ =>
    show win0_8.index ⟨2 * (i 0).val + 1, _⟩ (2 : Fin 3) * 384 ≤ (i 2).val
      ∧ (i 2).val < win0_8.index ⟨2 * (i 0).val + 1, _⟩ (2 : Fin 3) * 384 + 384
    rw [e2]; omega

include hX hcp hW0 hb0 hW1 hb1 hW2 hb2

/-- THE TABLE ARRAY AFTER THE REGION: plane c is P c. -/
theorem region_table :
    ((dats m 0 c).arrAt 8 cfg0.N : S2x128x384.Idx → EReal) = pTable X ei bt W0 b0 W1 b1 W2 b2 :=
  (dats m 0 c).arrAt_eq_of_cover 8 (pTable X ei bt W0 b0 W1 b1 W2 b2)
    (fun t hf => flushed_eq m c X ei bt W0 b0 W1 b1 W2 b2 hX hcp hW0 hb0 hW1 hb1 hW2 hb2 t hf) cover8

end Core

/-- THE TABLE ARRAY AFTER THE REGION, in terms of the launch contents: given that the packed-count array the region
    finds is the table cpk of the launched edge list and graph ids, and that the three weight arrays it finds are the
    launched ones, plane c of the table array is P c of the launched inputs. -/
theorem region_value (c : Dev nD) (ei : Spec.SE.Idx → BitVec 32) (bt : Spec.SB.Idx → BitVec 32)
    (hcp : (V m c main_v33 : S20000x128.Idx → EReal) = fun i => Spec.cpk ei bt (i 0) (i 1))
    (hW0 : (V m c main_v34 : S256x128.Idx → EReal) = m ((c.tc : Thread nD τ).loc main_arg3))
    (hW1 : (V m c main_v35 : S128x128.Idx → EReal) = m ((c.tc : Thread nD τ).loc main_arg5))
    (hW2 : (V m c main_v36 : S128x128.Idx → EReal) = m ((c.tc : Thread nD τ).loc main_arg7)) :
    ((dats m 0 c).arrAt 8 cfg0.N : S2x128x384.Idx → EReal)
      = fun i => Spec.P (m ((c.tc : Thread nD τ).loc main_arg0)) ei bt
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) (i 0) (i 1) (i 2) :=
  region_table m c (m ((c.tc : Thread nD τ).loc main_arg0)) ei bt
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (V_main_arg0 m c) hcp hW0 (V_main_arg4 m c) hW1 (V_main_arg6 m c) hW2 (V_main_arg8 m c)

end Cert.KernelIdeal.HandValue

end
-- ==== Proof.KPrefix1.lean ====
/-
  The host operations of the edge histogram, each read at an index, over variables.

  A rank-one scatter with an add body: position k of the result is the operand there plus the sum of the
  updates whose start index, read as a signed number, is k.  A sum over a rank-one index set as a sum over
  its coordinate range, a sum over 1,280,000 positions as the sums over its two halves, and a column sum of a
  two-axis array.  Then the words: under the range facts the keys  node·64 + graph  do not wrap.
-/
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value
import Idealize.ShloMosaic.Lib.StableHlo.Predicate

noncomputable section

open scoped BigOperators

namespace Cert.KernelIdeal.HandValue

open Idealize.ShloMosaic Idealize.ShloMosaic.ValueIdx Idealize.ShloMosaic.StableHlo.Predicate

/-! ## The scatter -/

section Scatter

variable {N n w : Nat} (d : ScatterDims ⟨1, ![N]⟩ ⟨2, ![n, 1]⟩ ⟨1, ![n]⟩)

/-- Update j's start on the operand's one axis is row j of the index column, read signed. -/
theorem scatter_start (hsd : d.scatterDimsToOperandDims = [0]) (hiv : d.indexVectorDim = 1)
    (idx : IVec ⟨2, ![n, 1]⟩ w) (j : Fin n) (a : Fin 1) :
    d.start (ix1 j) idx a = (idx (ixP j)).toInt := by
  obtain rfl : a = 0 := Subsingleton.elim _ _
  unfold ScatterDims.start
  rw [dif_pos (show (0 : Fin 1) ∈ d.scatterDimsToOperandDims by rw [hsd]; exact List.mem_singleton.mpr rfl)]
  congr 2
  funext b
  match b with
  | ⟨0, _⟩ =>
    unfold ScatterDims.siIdx
    rw [dif_neg (by rw [hiv]; simp)]
    unfold ScatterDims.siCoord
    apply Fin.ext
    simp only [Fin.val_cast]
    have e : ∀ X : Fin 1, ((ix1 j : (⟨1, ![n]⟩ : Shape).Idx) X).val = j.val := fun X => by
      have hX : X = 0 := Subsingleton.elim _ _
      subst hX; rfl
    exact e _
  | ⟨1, _⟩ =>
    unfold ScatterDims.siIdx
    rw [dif_pos (by rw [hiv])]
    apply Fin.ext
    show List.idxOf (0 : Fin 1) d.scatterDimsToOperandDims = 0
    rw [hsd]; simp

/-- The operand's one axis is inserted: no window coordinate. -/
theorem scatter_window (hiw : d.insertedWindowDims = [0]) (j : (⟨1, ![n]⟩ : Shape).Idx) (a : Fin 1) :
    d.window j a = 0 := by
  obtain rfl : a = 0 := Subsingleton.elim _ _
  unfold ScatterDims.window
  rw [dif_neg]
  rw [ScatterDims.sKept, hiw]
  simp [Shape.kept]

/-- Update j lands at position k exactly when its start index, read signed, is k. -/
theorem scatter_resultIdx (hiw : d.insertedWindowDims = [0]) (hsd : d.scatterDimsToOperandDims = [0])
    (hiv : d.indexVectorDim = 1) (idx : IVec ⟨2, ![n, 1]⟩ w) (j : Fin n) (k : Fin N) :
    d.resultIdx? (ix1 j) idx = some (ix1 k) ↔ (idx (ixP j)).toInt = (k.val : ℤ) := by
  have hs : ∀ a, d.start (ix1 j) idx a + (d.window (ix1 j) a : ℤ) = (idx (ixP j)).toInt := fun a => by
    rw [scatter_start d hsd hiv, scatter_window d hiw]; simp
  unfold ScatterDims.resultIdx?
  constructor
  · intro h
    split at h
    · rename_i hin
      have h0 := congrFun (Option.some.inj h) (0 : Fin 1)
      have h1 : (d.start (ix1 j) idx 0 + (d.window (ix1 j) 0 : ℤ)).toNat = k.val := congrArg Fin.val h0
      have h2 := hs 0
      have h3 := (hin 0).1
      omega
    · exact absurd h (by simp)
  · intro h
    have hk := k.isLt
    have hin : ∀ a, 0 ≤ d.start (ix1 j) idx a + (d.window (ix1 j) a : ℤ) ∧
        d.start (ix1 j) idx a + (d.window (ix1 j) a : ℤ) < ((⟨1, ![N]⟩ : Shape).size a : ℤ) := fun a => by
      obtain rfl : a = 0 := Subsingleton.elim _ _
      rw [hs 0, h]
      constructor
      · omega
      · show (k.val : ℤ) < (N : ℤ); omega
    rw [dif_pos hin]
    congr 1
    funext a
    obtain rfl : a = 0 := Subsingleton.elim _ _
    apply Fin.ext
    show (d.start (ix1 j) idx 0 + (d.window (ix1 j) 0 : ℤ)).toNat = k.val
    rw [hs 0, h]; simp

/-- The scatter with an add body at position k: the operand there plus the updates whose start index is k. -/
theorem hostScatterAdd_flat (hiw : d.insertedWindowDims = [0]) (hsd : d.scatterDimsToOperandDims = [0])
    (hiv : d.indexVectorDim = 1) (x : (⟨1, ![N]⟩ : Shape).Idx → EReal) (idx : IVec ⟨2, ![n, 1]⟩ w)
    (upd : (⟨1, ![n]⟩ : Shape).Idx → EReal) (k : Fin N) :
    Ideal.hostScatterAdd d x idx upd (ix1 k)
      = x (ix1 k) + ∑ j : Fin n, if (idx (ixP j)).toInt = (k.val : ℤ) then upd (ix1 j) else 0 := by
  unfold Ideal.hostScatterAdd
  congr 1
  rw [Finset.sum_filter, ← Equiv.sum_comp (idxEquiv1 (n := n)).symm]
  refine Finset.sum_congr rfl fun j _ => ?_
  show (if d.resultIdx? (ix1 j) idx = some (ix1 k) then upd (ix1 j) else 0) = _
  by_cases h : (idx (ixP j)).toInt = (k.val : ℤ)
  · rw [if_pos h, if_pos ((scatter_resultIdx d hiw hsd hiv idx j k).2 h)]
  · rw [if_neg h, if_neg (fun h' => h ((scatter_resultIdx d hiw hsd hiv idx j k).1 h'))]

end Scatter

/-! ## Sums -/

/-- A sum over twice a positions is the sum over the first a plus the sum over the last a. -/
theorem sum_two_halves {a : ℕ} (f : Fin (a + a) → EReal) :
    ∑ j : Fin (a + a), f j
      = (∑ e : Fin a, f ⟨e.val, by have := e.isLt; omega⟩)
        + ∑ e : Fin a, f ⟨e.val + a, by have := e.isLt; omega⟩ := by
  rw [Fin.sum_univ_add]
  congr 1
  exact Finset.sum_congr rfl fun e _ => congrArg f (Fin.ext (by show a + e.val = e.val + a; omega))

/-- A sum over 1,280,000 positions is the sum over the first 640,000 plus the sum over the last 640,000. -/
theorem sum_halves (f : Fin 1280000 → EReal) :
    ∑ j : Fin 1280000, f j
      = (∑ e : Fin 640000, f ⟨e.val, by have := e.isLt; omega⟩)
        + ∑ e : Fin 640000, f ⟨e.val + 640000, by have := e.isLt; omega⟩ :=
  sum_two_halves (a := 640000) f

/-- The column sum of a two-axis array: the host's add-reduction over axis 0 at column g is the initial value plus
    the sum over the rows. -/
theorem hostReduceAdd_rows {n k : Nat} (h' : (⟨2, ![n, k]⟩ : Shape).ReducesTo [0] ⟨1, ![k]⟩)
    (h : (⟨2, ![n, k]⟩ : Shape).Reduces [0] ⟨1, ![k]⟩) (x : (⟨2, ![n, k]⟩ : Shape).Idx → EReal) (init : EReal) (g : Fin k) :
    Ideal.hostReduceAdd h' x init (ix1 g) = init + ∑ r : Fin n, x (ix2 r g) := by
  rw [Ideal.hostReduceAdd_single h' h]
  congr 1
  refine Finset.sum_congr rfl fun r _ => congrArg x ?_
  funext a
  match a with
  | ⟨0, _⟩ => exact Fin.ext rfl
  | ⟨1, _⟩ => exact Fin.ext rfl

end Cert.KernelIdeal.HandValue

end
-- ==== Proof.KPrefix2.lean ====
/-
  The edge histogram of the kernel's host prefix as a function of the edge list and the node-to-graph table, read
  index by index.

  From the edge list ei [2 × 640000] and the table bt [20000]: the sources and destinations as vectors, the graph of
  each edge's source (a take of bt at the source, whose sign test and clamp are the identity on a node number), the
  keys  source·64 + graph  and  (destination + 20000)·64 + graph  laid end to end, and the histogram of the keys over
  2,560,000 positions, reshaped to [40000 × 64].  Under the range facts no key wraps; a source key is below 1,280,000
  and a destination key is not, so row n < 20000 of the table counts the edges with source n and row n + 20000 the
  edges with destination n, per graph.
-/
import proofs.«403037_j2001454760607_3_alg».proof.Proof.Gen.KernelIdeal
import proofs.«403037_j2001454760607_3_alg».proof.Proof.Spec
import proofs.«403037_j2001454760607_3_alg».proof.Proof.KPrefix1

noncomputable section

open scoped BigOperators

namespace Cert.KernelIdeal.HandValue

open Cert.KernelIdeal Cert.KernelIdeal.Gen Idealize.ShloMosaic Idealize.ShloMosaic.ValueIdx
open Idealize.ShloMosaic.StableHlo.Predicate

/-! ## The words -/

/-- A source key does not wrap: node·64 + graph, read signed. -/
theorem key_src_toInt (a g : BitVec 32) (ha : a.toNat < 20000) (hg : g.toNat < 64) :
    (IntOp.addi (IntOp.muli a 64#32) g).toInt = ((a.toNat * 64 + g.toNat : ℕ) : ℤ) := by
  have h : (IntOp.addi (IntOp.muli a 64#32) g).toNat = a.toNat * 64 + g.toNat := by
    simp only [IntOp.addi, IntOp.muli, BitVec.toNat_add, BitVec.toNat_mul, BitVec.toNat_ofNat]
    omega
  rw [toInt_eq_toNat_of_lt (by rw [h]; omega), h]

/-- A destination key does not wrap: (node + 20000)·64 + graph, read signed. -/
theorem key_dst_toInt (b g : BitVec 32) (hb : b.toNat < 20000) (hg : g.toNat < 64) :
    (IntOp.addi (IntOp.muli (IntOp.addi b 20000#32) 64#32) g).toInt = (((b.toNat + 20000) * 64 + g.toNat : ℕ) : ℤ) := by
  have h : (IntOp.addi (IntOp.muli (IntOp.addi b 20000#32) 64#32) g).toNat = (b.toNat + 20000) * 64 + g.toNat := by
    simp only [IntOp.addi, IntOp.muli, BitVec.toNat_add, BitVec.toNat_mul, BitVec.toNat_ofNat]
    omega
  rw [toInt_eq_toNat_of_lt (by rw [h]; omega), h]

/-- The sign test in front of the take (a negative index counts from the end) keeps a node number. -/
theorem select_neg_node (a : BitVec 32) (ha : a.toNat < 20000) :
    Scalar.select (IntOp.cmpi .slt a 0#32) (IntOp.addi a 20000#32) a = a := by
  unfold Scalar.select
  rw [if_neg]
  intro h
  have := (slt_iff_toNat (a := a) (b := 0#32) (by omega) (by decide)).1 h
  simp at this

/-- The rank-one index at a coordinate, in the library's two spellings. -/
theorem ofFin_eq_ix1 {n : Nat} (k : Fin n) : Shape.Idx.ofFin k = ix1 k := (Shape.Idx.eq_ofFin (ix1 k)).symm

/-! ## The prefix's terms -/

section Terms

variable (ei : S2x640000.Idx → BitVec 32) (bt : S20000.Idx → BitVec 32)

/-- Row 0 of the edge list as a vector: the sources. -/
def srcV : S640000.Idx → BitVec 32 :=
  shapeCast S640000 (extractStridedSlice S1x640000 ![0, 0] ei slices_S2x640000_S1x640000_0_0) shapeCasts_S1x640000_S640000
/-- Row 1: the destinations. -/
def dstV : S640000.Idx → BitVec 32 :=
  shapeCast S640000 (extractStridedSlice S1x640000 ![1, 0] ei slices_S2x640000_S1x640000_1_0) shapeCasts_S1x640000_S640000
/-- The graph of each edge's source: bt taken at the normalised source. -/
def ebV : S640000.Idx → BitVec 32 :=
  Host.gather gather_S20000_S640000x1_S640000_n_0_n_n_0_1_1 bt
    (broadcastInDim S640000x1 ![0] bcast_S640000_S640000x1_0
      (select (cmpi .slt (srcV ei) (broadcastInDim S640000 ![] bcast_S_S640000 (constantI S_ 32 0#32)))
        (addi (srcV ei) (broadcastInDim S640000 ![] bcast_S_S640000 (constantI S_ 32 20000#32)))
        (srcV ei)))
/-- The source keys then the destination keys. -/
def keysV : S1280000.Idx → BitVec 32 :=
  concatenate S1280000 0
    [⟨S640000, addi (muli (srcV ei) (broadcastInDim S640000 ![] bcast_S_S640000 (constantI S_ 32 64#32))) (ebV ei bt)⟩,
     ⟨S640000, addi (muli (addi (dstV ei) (broadcastInDim S640000 ![] bcast_S_S640000 (constantI S_ 32 20000#32)))
        (broadcastInDim S640000 ![] bcast_S_S640000 (constantI S_ 32 64#32))) (ebV ei bt)⟩]
    concatenates_S640000_S640000_S1280000_d0
/-- The histogram of the keys, as [40000 × 64]. -/
def tabV : S40000x64.Idx → EReal :=
  shapeCast S40000x64
    (Host.scatterAdd (F := Ideal) scatter_S2560000_S1280000x1_S1280000_n_0_0_1
      (broadcastInDim S2560000 ![] bcast_S_S2560000 (constant (F := Ideal) S_ .f32 0x00000000#32))
      (broadcastInDim S1280000x1 ![0] bcast_S1280000_S1280000x1_0 (keysV ei bt))
      (broadcastInDim S1280000 ![] bcast_S_S1280000 (constant (F := Ideal) S_ .f32 0x3F800000#32)))
    shapeCasts_S2560000_S40000x64

/-! ## Read at an index -/

theorem srcV_apply (e : Fin 640000) : srcV ei (ix1 e) = ei (ix2 (0 : Fin 2) e) := by
  unfold srcV
  refine (shapeCast_apply _ _ (ix1 e) (ix2 (0 : Fin 1) e) ?_).trans ?_
  · rw [Shape.rowMajor_val_two, Shape.rowMajor_val_one]; show 0 * 640000 + e.val = e.val; omega
  · exact extractStridedSlice_apply _ _ _ (ix2 (0 : Fin 1) e) (ix2 (0 : Fin 2) e)
      (fun a => match a with | ⟨0, _⟩ => rfl | ⟨1, _⟩ => by show e.val = 0 + e.val; omega)

theorem dstV_apply (e : Fin 640000) : dstV ei (ix1 e) = ei (ix2 (1 : Fin 2) e) := by
  unfold dstV
  refine (shapeCast_apply _ _ (ix1 e) (ix2 (0 : Fin 1) e) ?_).trans ?_
  · rw [Shape.rowMajor_val_two, Shape.rowMajor_val_one]; show 0 * 640000 + e.val = e.val; omega
  · exact extractStridedSlice_apply _ _ _ (ix2 (0 : Fin 1) e) (ix2 (1 : Fin 2) e)
      (fun a => match a with | ⟨0, _⟩ => rfl | ⟨1, _⟩ => by show e.val = 0 + e.val; omega)

variable {ei bt}

/-- The graph word of edge e is bt at its source. -/
theorem ebV_apply (hr : Cert.Spec.InRange ei bt) (e : Fin 640000) :
    ebV ei bt (ix1 e) = bt (ix1 ⟨Cert.Spec.src ei e, hr.src_lt e⟩) := by
  have hs := hr.src_lt e
  unfold Cert.Spec.src at hs
  unfold ebV
  rw [← ofFin_eq_ix1 e]
  refine (gather_take _ rfl rfl rfl rfl _ _ e (by decide)).trans ?_
  rw [ofFin_eq_ix1]
  congr 2
  rw [Fin.mk.injEq, bcast_col1, ofFin_eq_ix1]
  show min (Scalar.select (IntOp.cmpi .slt (srcV ei (ix1 e)) 0#32) (IntOp.addi (srcV ei (ix1 e)) 20000#32)
      (srcV ei (ix1 e))).toInt.toNat (20000 - 1) = Cert.Spec.src ei e
  rw [srcV_apply, select_neg_node _ hs, toInt_eq_toNat_of_lt (by omega)]
  unfold Cert.Spec.src
  omega

/-- Its value is the edge's graph, below 64. -/
theorem ebV_toNat (hr : Cert.Spec.InRange ei bt) (e : Fin 640000) :
    (ebV ei bt (ix1 e)).toNat = Cert.Spec.eb ei bt e := by
  rw [ebV_apply hr]
  unfold Cert.Spec.eb Cert.Spec.bat
  rw [dif_pos (hr.src_lt e)]

theorem eb_lt (hr : Cert.Spec.InRange ei bt) (e : Fin 640000) : Cert.Spec.eb ei bt e < 64 := by
  unfold Cert.Spec.eb Cert.Spec.bat
  rw [dif_pos (hr.src_lt e)]
  exact hr.bat_lt _

/-- The first 640,000 keys are the source keys … -/
theorem keysV_src (hr : Cert.Spec.InRange ei bt) (e : Fin 640000) :
    (keysV ei bt (ix1 ⟨e.val, by have := e.isLt; omega⟩)).toInt
      = ((Cert.Spec.src ei e * 64 + Cert.Spec.eb ei bt e : ℕ) : ℤ) := by
  unfold keysV
  refine (congrArg BitVec.toInt (concatenate_pair_apply_left (t := S1280000) (s₁ := S640000) (s₂ := S640000) (0 : Fin 1) _ _ concatenates_S640000_S640000_S1280000_d0 _ rfl (ix1 e)
    (fun b => match b with | ⟨0, _⟩ => rfl))).trans ?_
  show (IntOp.addi (IntOp.muli (srcV ei (ix1 e)) 64#32) (ebV ei bt (ix1 e))).toInt = _
  have hg := ebV_toNat hr e
  have hl := eb_lt hr e
  have hs := hr.src_lt e
  rw [srcV_apply] at *
  unfold Cert.Spec.src at *
  rw [key_src_toInt _ _ hs (by omega), hg]

/-- … and the last 640,000 the destination keys. -/
theorem keysV_dst (hr : Cert.Spec.InRange ei bt) (e : Fin 640000) :
    (keysV ei bt (ix1 ⟨e.val + 640000, by have := e.isLt; omega⟩)).toInt
      = (((Cert.Spec.dst ei e + 20000) * 64 + Cert.Spec.eb ei bt e : ℕ) : ℤ) := by
  unfold keysV
  refine (congrArg BitVec.toInt (concatenate_pair_apply_right (t := S1280000) (s₁ := S640000) (s₂ := S640000) (0 : Fin 1) _ _ concatenates_S640000_S640000_S1280000_d0 _ rfl rfl (ix1 e)
    (fun b hb => match b with | ⟨0, _⟩ => absurd rfl hb) (by show e.val + 640000 = e.val + 640000; rfl))).trans ?_
  show (IntOp.addi (IntOp.muli (IntOp.addi (dstV ei (ix1 e)) 20000#32) 64#32) (ebV ei bt (ix1 e))).toInt = _
  have hg := ebV_toNat hr e
  have hl := eb_lt hr e
  have hd := hr.dst_lt e
  rw [dstV_apply] at *
  unfold Cert.Spec.dst at *
  rw [key_dst_toInt _ _ hd (by omega), hg]

/-- The host's accumulating scatter at the ideal instance is the exact sum, as functions of any operands. -/
theorem hostScatterAdd_ideal {s si su : Shape} {w : Nat} (d : ScatterDims s si su) (x : FVec Ideal s .f32) (idx : IVec si w)
    (upd : FVec Ideal su .f32) : Host.scatterAdd (F := Ideal) d x idx upd = Ideal.hostScatterAdd d x idx upd := rfl

/-- The histogram of any key vector K at position k: the number of keys that, read signed, are k. -/
theorem hist_apply (K : S1280000.Idx → BitVec 32) (k : Fin 2560000) :
    Host.scatterAdd (F := Ideal) scatter_S2560000_S1280000x1_S1280000_n_0_0_1
        (broadcastInDim S2560000 ![] bcast_S_S2560000 (constant (F := Ideal) S_ .f32 0x00000000#32))
        (broadcastInDim S1280000x1 ![0] bcast_S1280000_S1280000x1_0 K)
        (broadcastInDim S1280000 ![] bcast_S_S1280000 (constant (F := Ideal) S_ .f32 0x3F800000#32)) (ix1 k)
      = ∑ j : Fin 1280000, if (K (ix1 j)).toInt = (k.val : ℤ) then (1 : EReal) else 0 := by
  rw [hostScatterAdd_ideal, hostScatterAdd_flat _ rfl rfl rfl, broadcastInDim_scalar_apply, constant_apply,
    Ideal.ofBits_zero_f32, zero_add]
  refine Finset.sum_congr rfl fun j _ => ?_
  rw [bcast_col1, ofFin_eq_ix1, broadcastInDim_scalar_apply, constant_apply, Ideal.ofBits_one_f32]

/-- The histogram at row r, column q: the number of keys equal to r·64 + q, the two halves apart. -/
theorem tabV_apply (hr : Cert.Spec.InRange ei bt) (r : Fin 40000) (q : Fin 64) :
    tabV ei bt (ix2 r q)
      = (∑ e : Fin 640000, if Cert.Spec.src ei e * 64 + Cert.Spec.eb ei bt e = r.val * 64 + q.val then (1 : EReal) else 0)
        + ∑ e : Fin 640000, if (Cert.Spec.dst ei e + 20000) * 64 + Cert.Spec.eb ei bt e = r.val * 64 + q.val then (1 : EReal) else 0 := by
  have hk : r.val * 64 + q.val < 2560000 := by have := r.isLt; have := q.isLt; omega
  unfold tabV
  refine (shapeCast_apply _ _ (ix2 r q) (ix1 ⟨r.val * 64 + q.val, hk⟩) ?_).trans ?_
  · rw [Shape.rowMajor_val_two, Shape.rowMajor_val_one]; show r.val * 64 + q.val = r.val * 64 + q.val; rfl
  rw [hist_apply, sum_halves]
  refine congrArg₂ (fun a b : EReal => a + b) ?_ ?_
  · refine Finset.sum_congr rfl fun e _ => ?_
    rw [keysV_src hr e]
    by_cases h : Cert.Spec.src ei e * 64 + Cert.Spec.eb ei bt e = r.val * 64 + q.val
    · rw [if_pos h, if_pos (by show ((_ : ℕ) : ℤ) = ((r.val * 64 + q.val : ℕ) : ℤ); rw [h])]
    · rw [if_neg h, if_neg (fun h' => h (by exact_mod_cast h'))]
  · refine Finset.sum_congr rfl fun e _ => ?_
    rw [keysV_dst hr e]
    by_cases h : (Cert.Spec.dst ei e + 20000) * 64 + Cert.Spec.eb ei bt e = r.val * 64 + q.val
    · rw [if_pos h, if_pos (by show ((_ : ℕ) : ℤ) = ((r.val * 64 + q.val : ℕ) : ℤ); rw [h])]
    · rw [if_neg h, if_neg (fun h' => h (by exact_mod_cast h'))]

/-- Row n < 20000 counts the edges with source n: no destination key is that small. -/
theorem tabV_src (hr : Cert.Spec.InRange ei bt) (n : Fin 20000) (g : Fin 64) :
    tabV ei bt (ix2 (⟨n.val, by have := n.isLt; omega⟩ : Fin 40000) g) = Cert.Spec.csrc ei bt n g := by
  rw [tabV_apply hr]
  unfold Cert.Spec.csrc
  have hz : (∑ e : Fin 640000, if (Cert.Spec.dst ei e + 20000) * 64 + Cert.Spec.eb ei bt e = n.val * 64 + g.val
      then (1 : EReal) else 0) = 0 :=
    Finset.sum_eq_zero fun e _ => if_neg (by have := n.isLt; have := g.isLt; omega)
  show _ + (∑ e : Fin 640000, if (Cert.Spec.dst ei e + 20000) * 64 + Cert.Spec.eb ei bt e = n.val * 64 + g.val
      then (1 : EReal) else 0) = _
  rw [hz, add_zero]

/-- Row n + 20000 counts the edges with destination n: no source key is that large. -/
theorem tabV_dst (hr : Cert.Spec.InRange ei bt) (n : Fin 20000) (g : Fin 64) :
    tabV ei bt (ix2 (⟨n.val + 20000, by have := n.isLt; omega⟩ : Fin 40000) g) = Cert.Spec.cdst ei bt n g := by
  rw [tabV_apply hr]
  unfold Cert.Spec.cdst
  have hz : (∑ e : Fin 640000, if Cert.Spec.src ei e * 64 + Cert.Spec.eb ei bt e = (n.val + 20000) * 64 + g.val
      then (1 : EReal) else 0) = 0 :=
    Finset.sum_eq_zero fun e _ => if_neg (by have := hr.src_lt e; have := eb_lt hr e; omega)
  show (∑ e : Fin 640000, if Cert.Spec.src ei e * 64 + Cert.Spec.eb ei bt e = (n.val + 20000) * 64 + g.val
      then (1 : EReal) else 0) + _ = _
  rw [hz, zero_add]

/-- Rows 0 … 19999 of the table are the source counts … -/
theorem slice_src (hr : Cert.Spec.InRange ei bt) :
    extractStridedSlice S20000x64 ![0, 0] (tabV ei bt) slices_S40000x64_S20000x64_0_0
      = fun i => Cert.Spec.csrc ei bt (i 0) (i 1) := by
  funext i
  obtain ⟨p, q, rfl⟩ : ∃ (p : Fin 20000) (q : Fin 64), i = ix2 p q := ⟨i 0, i 1, eq_ix2 i⟩
  refine (extractStridedSlice_apply _ _ _ (ix2 p q) (ix2 (⟨p.val, by have := p.isLt; omega⟩ : Fin 40000) q)
    (fun a => match a with | ⟨0, _⟩ => by show p.val = 0 + p.val; omega | ⟨1, _⟩ => by show q.val = 0 + q.val; omega)).trans ?_
  exact tabV_src hr p q

/-- … and rows 20000 … 39999 the destination counts. -/
theorem slice_dst (hr : Cert.Spec.InRange ei bt) :
    extractStridedSlice S20000x64 ![20000, 0] (tabV ei bt) slices_S40000x64_S20000x64_20000_0
      = fun i => Cert.Spec.cdst ei bt (i 0) (i 1) := by
  funext i
  obtain ⟨p, q, rfl⟩ : ∃ (p : Fin 20000) (q : Fin 64), i = ix2 p q := ⟨i 0, i 1, eq_ix2 i⟩
  refine (extractStridedSlice_apply _ _ _ (ix2 p q) (ix2 (⟨p.val + 20000, by have := p.isLt; omega⟩ : Fin 40000) q)
    (fun a => match a with | ⟨0, _⟩ => by show p.val + 20000 = 20000 + p.val; omega | ⟨1, _⟩ => by show q.val = 0 + q.val; omega)).trans ?_
  exact tabV_dst hr p q

end Terms

end Cert.KernelIdeal.HandValue

end
-- ==== Proof.KPrefix.lean ====
/-
  The kernel's host prefix run up to the two count tables: on every device, after the 47 host operations before the
  region, the buffer of the source counts holds csrc and the buffer of the destination counts holds cdst, as
  functions of the launch contents of the edge list and the node-to-graph table.

  The line of operations is cut into four stretches (the edge words and the take; the keys; the histogram; the
  rest), each read back on its own from any contents, so that no stretch's term is carried through the next one's
  reading more than once.
-/
import proofs.«403037_j2001454760607_3_alg».proof.Proof.Gen.KernelIdeal.Launch
import proofs.«403037_j2001454760607_3_alg».proof.Proof.KPrefix2
import Idealize.ShloMosaic.Lib.StableHlo.Run

noncomputable section

open scoped BigOperators

namespace Cert.KernelIdeal.HandValue

open Cert.KernelIdeal Cert.KernelIdeal.Gen Idealize.ShloMosaic Idealize.ShloMosaic.TcCoe Idealize.SL.Sem
open Idealize.ShloMosaic.StableHlo Idealize.ShloMosaic.ValueIdx

/-- A line run after another is the two run in turn. -/
theorem after_app {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The first 13 operations: the edge words, the sign test and the take. -/
def histA : List (HloOp τ sig (Elt Ideal)) := (hostOps0 (F := Ideal)).take 13
/-- The next 12: the keys. -/
def histB : List (HloOp τ sig (Elt Ideal)) := ((hostOps0 (F := Ideal)).drop 13).take 12
/-- The next 7: the histogram and its reshape. -/
def histC : List (HloOp τ sig (Elt Ideal)) := ((hostOps0 (F := Ideal)).drop 25).take 7
/-- The last 15. -/
def histD : List (HloOp τ sig (Elt Ideal)) := (hostOps0 (F := Ideal)).drop 32

theorem hist_split : hostOps0 (F := Ideal) = histA ++ (histB ++ (histC ++ histD)) := by
  simp only [histA, histB, histC, histD, hostOps0, List.take_succ_cons, List.take_zero, List.drop_succ_cons, List.drop_zero,
    List.cons_append, List.nil_append]

theorem after_hist (V : Valuation τ sig (Elt Ideal)) :
    StableHlo.after (hostOps0 (F := Ideal)) V
      = StableHlo.after histD (StableHlo.after histC (StableHlo.after histB (StableHlo.after histA V))) := by
  conv_lhs => rw [hist_split]
  rw [after_app, after_app, after_app]

section Stretches

variable (W : Valuation τ sig (Elt Ideal))

theorem histA_v1 :
    (StableHlo.after histA W (Proc.devRef .tc main_v1) : S640000.Idx → BitVec 32) = srcV (W (Proc.devRef .tc main_arg1)) := by
  simp only [histA, hostOps0, List.take_succ_cons, List.take_zero]
  after_results
  rfl

theorem histA_v3 :
    (StableHlo.after histA W (Proc.devRef .tc main_v3) : S640000.Idx → BitVec 32) = dstV (W (Proc.devRef .tc main_arg1)) := by
  simp only [histA, hostOps0, List.take_succ_cons, List.take_zero]
  after_results
  rfl

theorem histA_v10 :
    (StableHlo.after histA W (Proc.devRef .tc main_v10) : S640000.Idx → BitVec 32)
      = ebV (W (Proc.devRef .tc main_arg1)) (W (Proc.devRef .tc main_arg2)) := by
  simp only [histA, hostOps0, List.take_succ_cons, List.take_zero]
  after_results
  rfl

theorem histB_v19 :
    (StableHlo.after histB W (Proc.devRef .tc main_v19) : S1280000.Idx → BitVec 32)
      = concatenate S1280000 0
          [⟨S640000, addi (muli (W (Proc.devRef .tc main_v1)) (broadcastInDim S640000 ![] bcast_S_S640000 (constantI S_ 32 64#32)))
              (W (Proc.devRef .tc main_v10))⟩,
           ⟨S640000, addi (muli (addi (W (Proc.devRef .tc main_v3)) (broadcastInDim S640000 ![] bcast_S_S640000 (constantI S_ 32 20000#32)))
              (broadcastInDim S640000 ![] bcast_S_S640000 (constantI S_ 32 64#32))) (W (Proc.devRef .tc main_v10))⟩]
          concatenates_S640000_S640000_S1280000_d0 := by
  simp only [histB, hostOps0, List.drop_succ_cons, List.drop_zero, List.take_succ_cons, List.take_zero]
  after_results

theorem histC_v24 :
    (StableHlo.after histC W (Proc.devRef .tc main_v24) : S40000x64.Idx → EReal)
      = shapeCast S40000x64
          (Host.scatterAdd (F := Ideal) scatter_S2560000_S1280000x1_S1280000_n_0_0_1
            (broadcastInDim S2560000 ![] bcast_S_S2560000 (constant (F := Ideal) S_ .f32 0x00000000#32))
            (broadcastInDim S1280000x1 ![0] bcast_S1280000_S1280000x1_0 (W (Proc.devRef .tc main_v19)))
            (broadcastInDim S1280000 ![] bcast_S_S1280000 (constant (F := Ideal) S_ .f32 0x3F800000#32)))
          shapeCasts_S2560000_S40000x64 := by
  simp only [histC, hostOps0, List.drop_succ_cons, List.drop_zero, List.take_succ_cons, List.take_zero]
  after_results
  rfl

theorem histD_v25 :
    (StableHlo.after histD W (Proc.devRef .tc main_v25) : S20000x64.Idx → EReal)
      = extractStridedSlice S20000x64 ![0, 0] (W (Proc.devRef .tc main_v24)) slices_S40000x64_S20000x64_0_0 := by
  simp only [histD, hostOps0, List.drop_succ_cons, List.drop_zero]
  after_results

theorem histD_v26 :
    (StableHlo.after histD W (Proc.devRef .tc main_v26) : S20000x64.Idx → EReal)
      = extractStridedSlice S20000x64 ![20000, 0] (W (Proc.devRef .tc main_v24)) slices_S40000x64_S20000x64_20000_0 := by
  simp only [histD, hostOps0, List.drop_succ_cons, List.drop_zero]
  after_results

end Stretches

variable (m : (ℓ : Loc nD τ sig) → Buf (Elt Ideal) ℓ) (c : Dev nD)

/-- After the prefix the source-count buffer holds csrc of the launch's edge list and node-to-graph table. -/
theorem after_v25 (hr : Cert.Spec.InRange (m ((c.tc : Thread nD τ).loc main_arg1)) (m ((c.tc : Thread nD τ).loc main_arg2))) :
    (StableHlo.after (hostOps0 (F := Ideal)) (fun b => m (c, b)) (Proc.devRef .tc main_v25) : S20000x64.Idx → EReal)
      = fun i => Cert.Spec.csrc (m ((c.tc : Thread nD τ).loc main_arg1)) (m ((c.tc : Thread nD τ).loc main_arg2)) (i 0) (i 1) := by
  rw [after_hist, histD_v25, histC_v24, histB_v19, histA_v1, histA_v3, histA_v10]
  exact slice_src hr

/-- … and the destination-count buffer holds cdst. -/
theorem after_v26 (hr : Cert.Spec.InRange (m ((c.tc : Thread nD τ).loc main_arg1)) (m ((c.tc : Thread nD τ).loc main_arg2))) :
    (StableHlo.after (hostOps0 (F := Ideal)) (fun b => m (c, b)) (Proc.devRef .tc main_v26) : S20000x64.Idx → EReal)
      = fun i => Cert.Spec.cdst (m ((c.tc : Thread nD τ).loc main_arg1)) (m ((c.tc : Thread nD τ).loc main_arg2)) (i 0) (i 1) := by
  rw [after_hist, histD_v26, histC_v24, histB_v19, histA_v1, histA_v3, histA_v10]
  exact slice_dst hr

end Cert.KernelIdeal.HandValue

end
-- ==== Proof.KPrefixB.lean ====
/-
  What the operations before the region leave in the buffers the region reads, at the ideal instance: the three
  weight arrays rounded to the short format are the launch arrays themselves (rounding is the identity over the
  extended reals); no argument array is any operation's result; the reciprocal edge counts are one over the
  column sums of the source table, at least one; and the packed table is the source table beside the destination
  table.  The two tables themselves are hypotheses here.
-/
import proofs.«403037_j2001454760607_3_alg».proof.Proof.Gen.KernelIdeal.Launch
import proofs.«403037_j2001454760607_3_alg».proof.Proof.Spec
import proofs.«403037_j2001454760607_3_alg».proof.Proof.KPrefix1
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## Arrays no operation writes, and the rounded weights -/

/-- No operation before the region has `main_arg0` as its result. -/
theorem after_arg0 : StableHlo.after (hostOps0 (F := Ideal)) (fun b => m (c, b)) (Proc.devRef .tc main_arg0) = m ((c.tc : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg1` as its result. -/
theorem after_arg1 : StableHlo.after (hostOps0 (F := Ideal)) (fun b => m (c, b)) (Proc.devRef .tc main_arg1) = m ((c.tc : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg2` as its result. -/
theorem after_arg2 : StableHlo.after (hostOps0 (F := Ideal)) (fun b => m (c, b)) (Proc.devRef .tc main_arg2) = m ((c.tc : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg3` as its result. -/
theorem after_arg3 : StableHlo.after (hostOps0 (F := Ideal)) (fun b => m (c, b)) (Proc.devRef .tc main_arg3) = m ((c.tc : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg4` as its result. -/
theorem after_arg4 : StableHlo.after (hostOps0 (F := Ideal)) (fun b => m (c, b)) (Proc.devRef .tc main_arg4) = m ((c.tc : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg5` as its result. -/
theorem after_arg5 : StableHlo.after (hostOps0 (F := Ideal)) (fun b => m (c, b)) (Proc.devRef .tc main_arg5) = m ((c.tc : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg6` as its result. -/
theorem after_arg6 : StableHlo.after (hostOps0 (F := Ideal)) (fun b => m (c, b)) (Proc.devRef .tc main_arg6) = m ((c.tc : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg7` as its result. -/
theorem after_arg7 : StableHlo.after (hostOps0 (F := Ideal)) (fun b => m (c, b)) (Proc.devRef .tc main_arg7) = m ((c.tc : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region has `main_arg8` as its result. -/
theorem after_arg8 : StableHlo.after (hostOps0 (F := Ideal)) (fun b => m (c, b)) (Proc.devRef .tc main_arg8) = m ((c.tc : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_v34` is `main_arg3` rounded to the short format: over the extended reals, `main_arg3` itself. -/
theorem after_v34 : (StableHlo.after (hostOps0 (F := Ideal)) (fun b => m (c, b)) (Proc.devRef .tc main_v34) : S256x128.Idx → EReal) = (m ((c.tc : Thread nD τ).loc main_arg3) : S256x128.Idx → EReal) := by
  show StableHlo.after hostOps0 (fun b => m (c, b)) (Proc.devRef .tc main_v34) = _
  after_results_simp
  rfl
/-- `main_v35` is `main_arg5` rounded to the short format: over the extended reals, `main_arg5` itself. -/
theorem after_v35 : (StableHlo.after (hostOps0 (F := Ideal)) (fun b => m (c, b)) (Proc.devRef .tc main_v35) : S128x128.Idx → EReal) = (m ((c.tc : Thread nD τ).loc main_arg5) : S128x128.Idx → EReal) := by
  show StableHlo.after hostOps0 (fun b => m (c, b)) (Proc.devRef .tc main_v35) = _
  after_results_simp
  rfl
/-- `main_v36` is `main_arg7` rounded to the short format: over the extended reals, `main_arg7` itself. -/
theorem after_v36 : (StableHlo.after (hostOps0 (F := Ideal)) (fun b => m (c, b)) (Proc.devRef .tc main_v36) : S128x128.Idx → EReal) = (m ((c.tc : Thread nD τ).loc main_arg7) : S128x128.Idx → EReal) := by
  show StableHlo.after hostOps0 (fun b => m (c, b)) (Proc.devRef .tc main_v36) = _
  after_results_simp
  rfl

/-! ## The operations in two stretches -/

/-- Running two stretches of operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons]; exact ih _

/-- The contents after the first 34 operations: the two count tables are made, nothing after them yet. -/
def mid : Valuation τ sig (Elt Ideal) := StableHlo.after ((hostOps0 (F := Ideal)).take 34) (fun b => m (c, b))

/-- All 47 operations are the last 13 run from there. -/
theorem after_split : StableHlo.after (hostOps0 (F := Ideal)) (fun b => m (c, b))
    = StableHlo.after ((hostOps0 (F := Ideal)).drop 34) (mid m c) :=
  (congrArg (fun l => StableHlo.after l (fun b => m (c, b))) (List.take_append_drop 34 (hostOps0 (F := Ideal))).symm).trans
    (after_append _ _ _)

section Tail

variable (V' : Valuation τ sig (Elt Ideal))

/-- None of the last 13 operations has a count table as its result. -/
theorem tail_v25 : StableHlo.after ((hostOps0 (F := Ideal)).drop 34) V' (Proc.devRef .tc main_v25) = V' (Proc.devRef .tc main_v25) :=
  StableHlo.after_of_forall_not_mem (b := Proc.devRef .tc main_v25) _ _ (List.forall_iff_forall_mem.mp (by
    simp only [hostOps0, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem tail_v26 : StableHlo.after ((hostOps0 (F := Ideal)).drop 34) V' (Proc.devRef .tc main_v26) = V' (Proc.devRef .tc main_v26) :=
  StableHlo.after_of_forall_not_mem (b := Proc.devRef .tc main_v26) _ _ (List.forall_iff_forall_mem.mp (by
    simp only [hostOps0, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reciprocal counts as the last operations compute them from the source table. -/
theorem tail_v31 : (StableHlo.after ((hostOps0 (F := Ideal)).drop 34) V' (Proc.devRef .tc main_v31) : S64.Idx → EReal)
    = Host.divf (broadcastInDim S64 ![] bcast_S_S64 (constant (F := Ideal) S_ .f32 0x3F800000#32))
        (maximumf (Host.reduceAdd (V' (Proc.devRef .tc main_v25) : S20000x64.Idx → EReal) (constant (F := Ideal) S_ .f32 0x00000000#32) reducesTo_S20000x64_S64_d0 h_S_)
          (broadcastInDim S64 ![] bcast_S_S64 (constant (F := Ideal) S_ .f32 0x3F800000#32))) := by
  simp only [hostOps0, List.drop_succ_cons, List.drop_zero]
  after_results_simp <;> rfl

/-- The packed table as the last operations compute it from the two count tables. -/
theorem tail_v33 : (StableHlo.after ((hostOps0 (F := Ideal)).drop 34) V' (Proc.devRef .tc main_v33) : S20000x128.Idx → EReal)
    = truncf (F := Ideal) .bf16 (concatenate S20000x128 1 [⟨S20000x64, (V' (Proc.devRef .tc main_v25) : S20000x64.Idx → EReal)⟩, ⟨S20000x64, (V' (Proc.devRef .tc main_v26) : S20000x64.Idx → EReal)⟩] concatenates_S20000x64_S20000x64_S20000x128_d1) bitsLt_bf16_f32 := by
  simp only [hostOps0, List.drop_succ_cons, List.drop_zero]
  after_results_simp <;> rfl

end Tail

/-! ## The reciprocal edge counts -/

/-- One over the column sums of a table, at least one, read at a graph. -/
theorem recip_apply (X : S20000x64.Idx → EReal) (g : Fin 64) :
    Host.divf (broadcastInDim S64 ![] bcast_S_S64 (constant (F := Ideal) S_ .f32 0x3F800000#32))
        (maximumf (Host.reduceAdd X (constant (F := Ideal) S_ .f32 0x00000000#32) reducesTo_S20000x64_S64_d0 h_S_)
          (broadcastInDim S64 ![] bcast_S_S64 (constant (F := Ideal) S_ .f32 0x3F800000#32))) (ix1 g)
      = Ideal.div 1 (max (∑ n : Fin 20000, X (ix2 n g)) 1) := by
  rw [hostDivf_apply, maximumf_apply, broadcastInDim_scalar_apply, constant_apply, Ideal.ofBits_one_f32,
    hostReduceAdd_apply, constant_apply, Ideal.ofBits_zero_f32,
    hostReduceAdd_rows reducesTo_S20000x64_S64_d0 (by decide) X 0 g, zero_add]

/-- One over the column sums of the source table, at least one. -/
theorem after_v31_of
    (h25 : (StableHlo.after (hostOps0 (F := Ideal)) (fun b => m (c, b)) (Proc.devRef .tc main_v25) : S20000x64.Idx → EReal)
      = fun i => Cert.Spec.csrc (m ((c.tc : Thread nD τ).loc main_arg1)) (m ((c.tc : Thread nD τ).loc main_arg2)) (i 0) (i 1)) :
    (StableHlo.after (hostOps0 (F := Ideal)) (fun b => m (c, b)) (Proc.devRef .tc main_v31) : S64.Idx → EReal)
      = fun i => Cert.Spec.kinv (m ((c.tc : Thread nD τ).loc main_arg1)) (m ((c.tc : Thread nD τ).loc main_arg2)) (i 0) := by
  rw [after_split m c, tail_v25] at h25
  rw [after_split m c, tail_v31, h25]
  funext i
  obtain ⟨g, rfl⟩ : ∃ g : Fin 64, i = ix1 g := ⟨i 0, eq_ix1 i⟩
  rw [recip_apply]
  rfl

/-! ## The packed table -/

/-- Two tables of 64 columns side by side, read at a row and a column of 128. -/
theorem pack_apply (X Y : S20000x64.Idx → EReal) (n : Fin 20000) (q : Fin 128) :
    truncf (F := Ideal) .bf16 (concatenate S20000x128 1 [⟨S20000x64, X⟩, ⟨S20000x64, Y⟩] concatenates_S20000x64_S20000x64_S20000x128_d1) bitsLt_bf16_f32 (ix2 n q)
      = if h : q.val < 64 then X (ix2 n ⟨q.val, h⟩) else Y (ix2 n ⟨q.val - 64, by have := q.isLt; omega⟩) := by
  rw [truncf_apply]
  split
  · next h =>
    refine concatenate_pair_apply_left (1 : Fin 2) X Y concatenates_S20000x64_S20000x64_S20000x128_d1 (ix2 n q) rfl (ix2 n ⟨q.val, h⟩) ?_
    intro b
    match b with
    | ⟨0, _⟩ => rfl
    | ⟨1, _⟩ => rfl
  · next h =>
    refine concatenate_pair_apply_right (1 : Fin 2) X Y concatenates_S20000x64_S20000x64_S20000x128_d1 (ix2 n q) rfl rfl
      (ix2 n ⟨q.val - 64, by have := q.isLt; omega⟩) ?_ ?_
    · intro b hb
      match b with
      | ⟨0, _⟩ => rfl
      | ⟨1, _⟩ => exact absurd rfl hb
    · show q.val - 64 + 64 = q.val
      omega

/-- The source table beside the destination table. -/
theorem after_v33_of
    (h25 : (StableHlo.after (hostOps0 (F := Ideal)) (fun b => m (c, b)) (Proc.devRef .tc main_v25) : S20000x64.Idx → EReal)
      = fun i => Cert.Spec.csrc (m ((c.tc : Thread nD τ).loc main_arg1)) (m ((c.tc : Thread nD τ).loc main_arg2)) (i 0) (i 1))
    (h26 : (StableHlo.after (hostOps0 (F := Ideal)) (fun b => m (c, b)) (Proc.devRef .tc main_v26) : S20000x64.Idx → EReal)
      = fun i => Cert.Spec.cdst (m ((c.tc : Thread nD τ).loc main_arg1)) (m ((c.tc : Thread nD τ).loc main_arg2)) (i 0) (i 1)) :
    (StableHlo.after (hostOps0 (F := Ideal)) (fun b => m (c, b)) (Proc.devRef .tc main_v33) : S20000x128.Idx → EReal)
      = fun i => Cert.Spec.cpk (m ((c.tc : Thread nD τ).loc main_arg1)) (m ((c.tc : Thread nD τ).loc main_arg2)) (i 0) (i 1) := by
  rw [after_split m c, tail_v25] at h25
  rw [after_split m c, tail_v26] at h26
  rw [after_split m c, tail_v33, h25, h26]
  funext i
  obtain ⟨n, q, rfl⟩ : ∃ (n : Fin 20000) (q : Fin 128), i = ix2 n q := ⟨i 0, i 1, eq_ix2 i⟩
  rw [pack_apply]
  rfl

end Cert.KernelIdeal.HandValue

end
-- ==== Proof.KValue.lean ====
/-
  The kernel's run, as values.

  The frame run ends with the region's output array at what the proof data compute and every buffer that bypasses
  the region at what the later operations leave of the region's entry contents.  Read through the function `tail`
  of those operations, the result buffer is `tail` of the region's output array p and of the row factors inv; the
  region's output is the specification's partial tables P (the counting table the region reads is the packed edge
  counts, the three weight tables are the launch's), the row factors are one over the edge count of each graph, and
  `tail` of those two is the specification's kout.  The nine arguments end as launched: an input window's array
  at its entry contents, the others untouched by the later operations.
-/
import proofs.«403037_j2001454760607_3_alg».proof.Proof.KFrame
import proofs.«403037_j2001454760607_3_alg».proof.Proof.KTail
import proofs.«403037_j2001454760607_3_alg».proof.Proof.KRegion
import proofs.«403037_j2001454760607_3_alg».proof.Proof.KPrefix
import proofs.«403037_j2001454760607_3_alg».proof.Proof.KPrefixB
import Idealize.ShloMosaic.Lib.Pipeline.FrameSuffix

noncomputable section

namespace Cert.KernelIdeal.HandValue

open Idealize.ShloMosaic Idealize.ShloMosaic.ValueIdx Idealize.ShloMosaic.TcCoe Idealize.SL.Sem
open Cert.KernelIdeal Cert.KernelIdeal.Gen

section Post

variable (m : (ℓ : Loc nD τ sig) → Buf (Elt Ideal) ℓ)

/-- The result buffer after the later operations: `tail` of what the region left in its output array and of the
    row factors the earlier operations computed. -/
theorem tail_v64 (dats : (p : Fin 1) → (c : Dev nD) → Pipeline.Dat τ (Elt Ideal) Unit ℕ (UR sig nD τ) ℕ (cfgs p) c) (c : Dev nD) :
    Pipeline.afterTail₀ cfgs dats 0 (Hand.V0 m) [hostOps1] c main_v64
      = tail ((dats 0 c).arrAt 8 cfg0.N) (Hand.V m c main_v31) := by
  unfold Pipeline.afterTail₀
  refine (after_tail _).trans ?_
  have e37 : Pipeline.withArrays (cfgs 0).spec c (Hand.V0 m c) (fun w => (dats 0 c).arrAt w (cfgs 0).N) (Proc.devRef .tc main_v37)
      = (dats 0 c).arrAt 8 cfg0.N := Pipeline.withArrays_arr spec0 launch0.win.arr_inj c _ _ 8
  have e31 : Pipeline.withArrays (cfgs 0).spec c (Hand.V0 m c) (fun w => (dats 0 c).arrAt w (cfgs 0).N) (Proc.devRef .tc main_v31)
      = Hand.V m c main_v31 :=
    Pipeline.withArrays_of_ne _ c (Hand.V0 m c) _ main_v31 (by exact (by decide : ∀ w, Pipeline.arrRef spec0 w ≠ main_v31))
  rw [e37, e31]

end Post

section Post2

variable (m : (ℓ : Loc nD τ sig) → Buf (Elt Ideal) ℓ)

/-- What a final state of the frame run holds, for any proof data over the region's entry contents: the result
    buffer is `tail` of the region's output array and the row factors, and every argument is as launched (an
    input window's array ends at its entry contents; an argument that bypasses the region ends at what the later
    operations leave, and they do not write it). -/
theorem post_of_framePost (dats : (p : Fin 1) → (c : Dev nD) → Pipeline.Dat τ (Elt Ideal) Unit ℕ (UR sig nD τ) ℕ (cfgs p) c)
    (hA : ∀ c w, (dats 0 c).A w = Hand.V m c (Pipeline.arrRef spec0 w))
    (r : PUnit × MemSt nD τ sig (Elt Ideal))
    (h : Pipeline.FramePost cfgs dats 0 (Pipeline.afterTail₀ cfgs dats 0 (Hand.V0 m) [hostOps1]) r) (c : Dev nD) :
    r.2.mem ((c.tc : Thread nD τ).loc main_v64) = tail ((dats 0 c).arrAt 8 cfg0.N) (Hand.V m c main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_v64 (Pipeline.mem_restRefs_of main_v64 (by decide) (by decide))).trans (tail_v64 m dats c),
    ((h c).1 0).trans (((dats 0 c).arrAt_in 0 rfl _).trans ((hA c 0).trans (Hand.V_main_arg0 m c))),
    ((h c).2 main_arg1 (Pipeline.mem_restRefs_of main_arg1 (by decide) (by decide))).trans (Hand.W_main_arg1 m dats c),
    ((h c).2 main_arg2 (Pipeline.mem_restRefs_of main_arg2 (by decide) (by decide))).trans (Hand.W_main_arg2 m dats c),
    ((h c).2 main_arg3 (Pipeline.mem_restRefs_of main_arg3 (by decide) (by decide))).trans (Hand.W_main_arg3 m dats c),
    ((h c).1 3).trans (((dats 0 c).arrAt_in 3 rfl _).trans ((hA c 3).trans (Hand.V_main_arg4 m c))),
    ((h c).2 main_arg5 (Pipeline.mem_restRefs_of main_arg5 (by decide) (by decide))).trans (Hand.W_main_arg5 m dats c),
    ((h c).1 5).trans (((dats 0 c).arrAt_in 5 rfl _).trans ((hA c 5).trans (Hand.V_main_arg6 m c))),
    ((h c).2 main_arg7 (Pipeline.mem_restRefs_of main_arg7 (by decide) (by decide))).trans (Hand.W_main_arg7 m dats c),
    ((h c).1 7).trans (((dats 0 c).arrAt_in 7 rfl _).trans ((hA c 7).trans (Hand.V_main_arg8 m c)))⟩

/-- The region's entry contents of a buffer are the earlier operations' result from the launch contents. -/
theorem V_eq_after (c : Dev nD) (b : Ref sig .tc) :
    Hand.V m c b = StableHlo.after (hostOps0 (F := Ideal)) (fun b => m (c, b)) (Proc.devRef .tc b) := by
  show StableHlo.after (List.flatten [hostOps0]) _ _ = _
  rw [List.flatten_cons, List.flatten_nil, List.append_nil]

end Post2

section Run

variable (m : (ℓ : Loc nD τ sig) → Buf (Elt Ideal) ℓ) (ρ : Dev nD → PrngReg)

/-- The kernel's run, as values: from launch contents whose edge endpoints and graph ids are in range, the program
    ends with the result buffer at the specification's `kout` of the nine arguments, and the arguments as launched. -/
theorem run_value
    (hr : ∀ c : Dev nD, Cert.Spec.InRange (m ((c.tc : Thread nD τ).loc main_arg1)) (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v64)
          = (fun i : S64x768.Idx => Cert.Spec.kout (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
      obtain ⟨h64, hargs⟩ := post_of_framePost m (Hand.dats m) (fun c w => Hand.A_eq m c w) r h c
      refine ⟨h64.trans ?_, hargs⟩
      have h25 := after_v25 m c (hr c)
      have h26 := after_v26 m c (hr c)
      have hP := region_value m c _ _
        ((V_eq_after m c main_v33).trans (after_v33_of m c h25 h26))
        ((V_eq_after m c main_v34).trans (after_v34 m c))
        ((V_eq_after m c main_v35).trans (after_v35 m c))
        ((V_eq_after m c main_v36).trans (after_v36 m c))
      have hinv := (V_eq_after m c main_v31).trans (after_v31_of m c h25)
      rw [hP, hinv]
      exact tail_spec _ _ _ _ _ _ _ _ _)
    (Hand.run_main m ρ)

end Run

end Cert.KernelIdeal.HandValue

end
-- ==== Proof.RValue1.lean ====
import Idealize.ShloMosaic.PureOps.Ideal
import Idealize.ShloMosaic.PureOps.Ideal.Laws
import Idealize.ShloMosaic.Lib.ValueIdx
import Idealize.ShloMosaic.Lib.StableHlo.Predicate

/-!
  Index-valued host operations read at one element.

  * A 32-bit word below 2^31 is non-negative as a signed integer, so the wrap-around "add the extent when
    negative" leaves it alone.
  * A row gather: operand [N × K], one start index per result row ([n × 1]), result [n × K]; row e, column h of the
    result is the operand at (start index of e clamped into the rows, h).
  * An accumulating scatter of rows: operand [G × K], one scatter index per update row ([n × 1]), updates [n × K];
    the update at (e, q') lands on (g, q) exactly when the index of e, read signed, is g and q' = q, so element
    (g, q) of the result is the operand's plus the sum over the rows e whose index is g of the update at (e, q).
-/

noncomputable section

open scoped BigOperators

namespace Cert.ReferenceIdeal.RefValue

open Idealize.ShloMosaic Idealize.ShloMosaic.ValueIdx Idealize.ShloMosaic.StableHlo.Predicate

/-! ### Words -/

/-- A word below 2^31 is not negative: the wrap-around select keeps it. -/
theorem wrap_small (w ext : BitVec 32) (h : w.toNat < 2 ^ 31) :
    Scalar.select (IntOp.cmpi .slt w 0#32) (IntOp.addi w ext) w = w := by
  have hn : ¬ IntOp.cmpi .slt w 0#32 = 1#1 := by
    rw [slt_iff_toNat h (by decide)]
    simp
  rw [eq_zero_of_ne_one hn, select_zero]

/-- A word below 2^31 read signed and clamped below an extent it is under is its own value. -/
theorem clamp_small (w : BitVec 32) (N : Nat) (h : w.toNat < N) (h31 : w.toNat < 2 ^ 31) :
    min w.toInt.toNat (N - 1) = w.toNat := by
  rw [toInt_eq_toNat_of_lt h31]
  simp only [Int.toNat_natCast]
  omega

/-! ### Constants -/

/-- The bits 0x3F800000 are the real number one. -/
theorem ofBits_one_f32 : Ideal.ofBits .f32 0x3F800000#32 = 1 := by
  simp [Ideal.ofBits, Ideal.ieee, -EReal.coe_mul]; norm_num

/-- An entry of a one-element list is that element. -/
theorem getElem_of_eq_singleton {β : Type} (l : List β) (c : β) (hl : l = [c]) (i : Nat) (hi : i < l.length) : l[i] = c := by
  subst hl
  have : i = 0 := by simpa using hi
  subst this
  rfl

/-! ### Lists of axes of a rank-2 shape, computed once -/

/-- The axes other than axis 1: axis 0. -/
theorem filter_ne1 : (List.finRange 2).filter (fun a : Fin 2 => a ∉ [(1 : Fin 2)]) = [0] := by decide
/-- The axes other than axis 0: axis 1. -/
theorem filter_ne0 : (List.finRange 2).filter (fun a : Fin 2 => a ∉ [(0 : Fin 2)]) = [1] := by decide
/-- The axes whose number is not 1: axis 0. -/
theorem filter_val_ne1 : (List.finRange 2).filter (fun b : Fin 2 => b.val ≠ 1) = [0] := by decide

/-! ### The row gather -/

/-- Row e, column h of the gather of rows: the operand at (the start index of row e, read signed and clamped into the
    N rows; h). Axis 0 of the operand is collapsed and start-indexed (slice size one), axis 1 is the one offset axis,
    the index vector sits on axis 1 of the [n × 1] start indices. -/
theorem gather_row {α : Type} {N K n w : Nat} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ w) (e : Fin n) (h : Fin K) (hN : 0 < N) :
    Host.gather d x idx (ix2 e h) = x (ix2 ⟨min (idx (ix2 e (0 : Fin 1))).toInt.toNat (N - 1), by omega⟩ h) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := d.slice_collapsed 0 (by rw [hcoll]; exact List.mem_singleton.mpr rfl)
  have hbd : d.batchDims = [0] := by
    show (List.finRange 2).filter (fun a : Fin 2 => a ∉ d.offsetDims) = [0]
    rw [hoff]; exact filter_ne1
  have hsk : d.siKept = [0] := by
    show (List.finRange 2).filter (fun b : Fin 2 => b.val ≠ d.indexVectorDim) = [0]
    rw [hivd]; exact filter_val_ne1
  unfold Host.gather
  congr 1
  funext a
  refine Fin.ext ?_
  match a with
  | ⟨0, _⟩ =>
    show d.start (ix2 e h) idx 0 + d.batchCoord (ix2 e h) 0 + d.offCoord (ix2 e h) 0 = _
    rw [GatherDims.batchCoord_eq_zero _ _ _ (hb 0), GatherDims.offCoord_eq_zero _ _ _ hk0]
    simp only [Nat.add_zero]
    unfold GatherDims.start
    rw [dif_pos hm0, hsl]
    have hsi : d.siIdx (ix2 e h) ⟨List.idxOf (0 : Fin 2) d.startIndexMap, List.idxOf_lt_length_iff.2 hm0⟩ = ix2 e (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        rw [getElem_of_eq_singleton _ _ hbd]
        rfl
      | ⟨1, _⟩ =>
        unfold GatherDims.siIdx
        rw [dif_pos (by rw [hivd])]
        show List.idxOf (0 : Fin 2) d.startIndexMap = 0
        rw [hsim]; rfl
    rw [hsi]
    rfl
  | ⟨1, _⟩ =>
    show d.start (ix2 e h) idx 1 + d.batchCoord (ix2 e h) 1 + d.offCoord (ix2 e h) 1 = _
    rw [GatherDims.batchCoord_eq_zero _ _ _ (hb 1), Nat.add_zero]
    unfold GatherDims.start
    rw [dif_neg hm1, Nat.zero_add]
    unfold GatherDims.offCoord
    rw [dif_pos hk1, getElem_of_eq_singleton _ _ hoff]
    rfl

/-! ### The take from a flat table, and the two gathers under a range hypothesis -/

/-- The rank-1 index at coordinate p, in the two spellings. -/
theorem ofFin_eq_ix1 {n : Nat} (p : Fin n) : Shape.Idx.ofFin p = ix1 p := by
  funext a
  match a with
  | ⟨0, _⟩ => exact Fin.ext rfl

/-- Row p of an [n × 1] column, in the two spellings. -/
theorem ixP_eq_ix2 {n : Nat} (p : Fin n) : ixP p = ix2 p (0 : Fin 1) := by
  funext a
  match a with
  | ⟨0, _⟩ => rfl
  | ⟨1, _⟩ => rfl

/-- Entry p of the take from a flat table of N entries: the table at row p's start index, when that word is below N
    (and below 2^31, so that reading it signed is reading it). -/
theorem gather_take_small {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n)
    (hlt : (idx (ix2 p (0 : Fin 1))).toNat < N) (h31 : (idx (ix2 p (0 : Fin 1))).toNat < 2 ^ 31) :
    Host.gather d x idx (ix1 p) = x (ix1 ⟨(idx (ix2 p (0 : Fin 1))).toNat, hlt⟩) := by
  have h := gather_take d hcoll hob hsim hivd x idx p (by omega)
  simp only [ofFin_eq_ix1, ixP_eq_ix2] at h
  rw [h]
  congr 2
  exact Fin.ext (clamp_small _ N hlt h31)

/-- Row e, column h of the row gather, when row e's start index is a word below N (and below 2^31). -/
theorem gather_row_small {α : Type} {N K n : Nat} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ 32) (e : Fin n) (h : Fin K)
    (hlt : (idx (ix2 e (0 : Fin 1))).toNat < N) (h31 : (idx (ix2 e (0 : Fin 1))).toNat < 2 ^ 31) :
    Host.gather d x idx (ix2 e h) = x (ix2 ⟨(idx (ix2 e (0 : Fin 1))).toNat, hlt⟩ h) := by
  rw [gather_row d hoff hcoll hob hsim hivd x idx e h (by omega)]
  congr 2
  exact Fin.ext (clamp_small _ N hlt h31)

/-! ### The accumulating scatter of rows

Updates [n × K] into an operand [G × K]: axis 1 of the updates is the window axis and goes to axis 1 of the operand,
axis 0 of the operand is the inserted axis the one scatter index names, the index vector sits on axis 1 of the [n × 1]
scatter indices. -/

section Scatter
variable {G K n w : Nat} (d : ScatterDims ⟨2, ![G, K]⟩ ⟨2, ![n, 1]⟩ ⟨2, ![n, K]⟩)
  (huw : d.updateWindowDims = [1]) (hiw : d.insertedWindowDims = [0]) (hsd : d.scatterDimsToOperandDims = [0])
  (hivd : d.indexVectorDim = 1)
include huw hiw hsd hivd

/-- Update (e, q)'s start on axis 0 is row e's scatter index, read signed. -/
theorem scatter_start0 (idx : IVec ⟨2, ![n, 1]⟩ w) (e : Fin n) (q : Fin K) :
    d.start (ix2 e q) idx 0 = (idx (ix2 e (0 : Fin 1))).toInt := by
  have hm0 : (0 : Fin 2) ∈ d.scatterDimsToOperandDims := by rw [hsd]; exact List.mem_singleton.mpr rfl
  have hus : d.uScatter = [0] := by
    show (List.finRange 2).filter (fun a : Fin 2 => a ∉ d.updateWindowDims) = [0]
    rw [huw]; exact filter_ne1
  unfold ScatterDims.start
  rw [dif_pos hm0]
  congr 2
  funext b
  refine Fin.ext ?_
  match b with
  | ⟨0, _⟩ =>
    unfold ScatterDims.siIdx
    rw [dif_neg (by rw [hivd]; exact Nat.zero_ne_one)]
    unfold ScatterDims.siCoord
    simp only [Fin.val_cast]
    rw [getElem_of_eq_singleton _ _ hus]
    rfl
  | ⟨1, _⟩ =>
    unfold ScatterDims.siIdx
    rw [dif_pos (by rw [hivd])]
    show List.idxOf (0 : Fin 2) d.scatterDimsToOperandDims = 0
    rw [hsd]; rfl

/-- No scatter index names axis 1: the start there is 0. -/
theorem scatter_start1 (idx : IVec ⟨2, ![n, 1]⟩ w) (e : Fin n) (q : Fin K) :
    d.start (ix2 e q) idx 1 = 0 := by
  unfold ScatterDims.start
  rw [dif_neg (by rw [hsd]; simp)]

/-- Axis 0 is inserted: no window coordinate. -/
theorem scatter_window0 (e : Fin n) (q : Fin K) : d.window (ix2 e q) 0 = 0 := by
  unfold ScatterDims.window
  rw [dif_neg]
  show (0 : Fin 2) ∉ (List.finRange 2).filter (fun a : Fin 2 => a ∉ d.insertedWindowDims)
  rw [hiw, filter_ne0]; decide

/-- Axis 1's window coordinate is the update's column. -/
theorem scatter_window1 (e : Fin n) (q : Fin K) : d.window (ix2 e q) 1 = q.val := by
  unfold ScatterDims.window
  have h1 : (1 : Fin 2) ∈ d.sKept := by
    show (1 : Fin 2) ∈ (List.finRange 2).filter (fun a : Fin 2 => a ∉ d.insertedWindowDims)
    rw [hiw, filter_ne0]; decide
  rw [dif_pos h1, getElem_of_eq_singleton _ _ huw]
  rfl

/-- The update at (e, q') lands on (g, q) exactly when row e's index, read signed, is g and q' = q. -/
theorem scatter_lands (idx : IVec ⟨2, ![n, 1]⟩ w) (e : Fin n) (q' : Fin K) (g : Fin G) (q : Fin K) :
    d.resultIdx? (ix2 e q') idx = some (ix2 g q) ↔ (idx (ix2 e (0 : Fin 1))).toInt = (g.val : Int) ∧ q' = q := by
  unfold ScatterDims.resultIdx?
  constructor
  · intro hh
    split at hh
    · rename_i hall
      have h0 := congrFun (Option.some.inj hh) 0
      have h1 := congrFun (Option.some.inj hh) 1
      have e0 := congrArg Fin.val h0
      have e1 := congrArg Fin.val h1
      have a0 := (hall 0).1
      simp only [scatter_start0 d huw hiw hsd hivd, scatter_window0 d huw hiw hsd hivd, scatter_start1 d huw hiw hsd hivd,
        scatter_window1 d huw hiw hsd hivd] at e0 e1 a0
      refine ⟨?_, Fin.ext ?_⟩
      · have : ((idx (ix2 e (0 : Fin 1))).toInt + ((0 : Nat) : Int)).toNat = g.val := e0
        omega
      · have : (((0 : Int) + (q'.val : Int))).toNat = q.val := e1
        omega
    · exact absurd hh (by simp)
  · rintro ⟨hg, rfl⟩
    have hall : ∀ a : Fin 2, 0 ≤ d.start (ix2 e q') idx a + d.window (ix2 e q') a ∧
        d.start (ix2 e q') idx a + d.window (ix2 e q') a < (⟨2, ![G, K]⟩ : Shape).size a := by
      intro a
      match a with
      | ⟨0, _⟩ =>
        show 0 ≤ d.start (ix2 e q') idx 0 + d.window (ix2 e q') 0 ∧ d.start (ix2 e q') idx 0 + d.window (ix2 e q') 0 < (G : Int)
        rw [scatter_start0 d huw hiw hsd hivd, scatter_window0 d huw hiw hsd hivd, hg]
        have := g.isLt
        omega
      | ⟨1, _⟩ =>
        show 0 ≤ d.start (ix2 e q') idx 1 + d.window (ix2 e q') 1 ∧ d.start (ix2 e q') idx 1 + d.window (ix2 e q') 1 < (K : Int)
        rw [scatter_start1 d huw hiw hsd hivd, scatter_window1 d huw hiw hsd hivd]
        have := q'.isLt
        omega
    rw [dif_pos hall]
    congr 1
    funext a
    refine Fin.ext ?_
    match a with
    | ⟨0, _⟩ =>
      show (d.start (ix2 e q') idx 0 + d.window (ix2 e q') 0).toNat = g.val
      rw [scatter_start0 d huw hiw hsd hivd, scatter_window0 d huw hiw hsd hivd, hg]
      omega
    | ⟨1, _⟩ =>
      show (d.start (ix2 e q') idx 1 + d.window (ix2 e q') 1).toNat = q'.val
      rw [scatter_start1 d huw hiw hsd hivd, scatter_window1 d huw hiw hsd hivd]
      omega

/-- The accumulating scatter read at (g, q): the operand's element plus the sum over the update rows whose index is
    g of the update at (e, q). The indices are words below 2^31, so reading them signed is reading them. -/
theorem scatterAdd_rows (x : (⟨2, ![G, K]⟩ : Shape).Idx → EReal) (idx : IVec ⟨2, ![n, 1]⟩ 32)
    (upd : (⟨2, ![n, K]⟩ : Shape).Idx → EReal) (hidx : ∀ e : Fin n, (idx (ix2 e (0 : Fin 1))).toNat < 2 ^ 31)
    (g : Fin G) (q : Fin K) :
    Ideal.hostScatterAdd d x idx upd (ix2 g q)
      = x (ix2 g q) + ∑ e : Fin n, if (idx (ix2 e (0 : Fin 1))).toNat = g.val then upd (ix2 e q) else 0 := by
  unfold Ideal.hostScatterAdd
  congr 1
  rw [Finset.sum_filter, sum_idx2]
  refine Finset.sum_congr rfl fun e _ => ?_
  have hcond : ∀ q' : Fin K, (d.resultIdx? (ix2 e q') idx = some (ix2 g q)) ↔
      ((idx (ix2 e (0 : Fin 1))).toNat = g.val ∧ q' = q) := fun q' => by
    rw [scatter_lands d huw hiw hsd hivd, toInt_eq_toNat_of_lt (hidx e)]
    constructor
    · rintro ⟨a, b⟩; exact ⟨by omega, b⟩
    · rintro ⟨a, b⟩; exact ⟨by omega, b⟩
  rw [Finset.sum_congr rfl fun q' _ => if_congr (hcond q') rfl rfl]
  by_cases hg : (idx (ix2 e (0 : Fin 1))).toNat = g.val
  · simp [hg, Finset.sum_ite_eq']
  · simp [hg]

end Scatter

end Cert.ReferenceIdeal.RefValue

end
-- ==== Proof.RValue2.lean ====
import proofs.«403037_j2001454760607_3_alg».proof.Proof.Gen.ReferenceIdeal
import proofs.«403037_j2001454760607_3_alg».proof.Proof.RValue1
import Idealize.ShloMosaic.Lib.Pipeline.Value

/-!
  One pooled layer, over variables.

  A node table z [20000 × 128]; per edge e a source and a destination row (start-index columns is, id) and a graph
  (scatter-index column ib). The edge table [z[src] | z[dst]] has 256 columns: column q reads the source's row for
  q < 128 and the destination's for q ≥ 128, at feature q mod 128. Scatter-adding its rows by graph gives, at
  (g, q), the sum over the edges of graph g of that entry. Last, three [64 × 256] tables side by side read at column
  col: table col / 256 at column col mod 256.
-/

noncomputable section

open scoped BigOperators

namespace Cert.ReferenceIdeal.RefValue

open Idealize.ShloMosaic Idealize.ShloMosaic.ValueIdx Cert.ReferenceIdeal Cert.ReferenceIdeal.Gen

/-- Row n of a node table at feature h; 0 outside the node range (no edge reads there). -/
def rowN (z : S20000x128.Idx → EReal) (n : ℕ) (h : Fin 128) : EReal :=
  if hn : n < 20000 then z (ix2 (⟨n, hn⟩ : Fin 20000) h) else 0

theorem rowN_of_lt (z : S20000x128.Idx → EReal) (n : ℕ) (hn : n < 20000) (h : Fin 128) :
    rowN z n h = z (ix2 (⟨n, hn⟩ : Fin 20000) h) := dif_pos hn

/-- The edge table [z[src] | z[dst]] at edge e, column q. -/
theorem cat_gather_apply (z : S20000x128.Idx → EReal) (is id : IVec S640000x1 32)
    (his : ∀ e : Fin 640000, (is (ix2 e (0 : Fin 1))).toNat < 20000)
    (hid : ∀ e : Fin 640000, (id (ix2 e (0 : Fin 1))).toNat < 20000)
    (e : Fin 640000) (q : Fin 256) :
    concatenate S640000x256 1
        [⟨S640000x128, Host.gather gather_S20000x128_S640000x1_S640000x128_1_0_n_n_0_1_1128 z is⟩,
         ⟨S640000x128, Host.gather gather_S20000x128_S640000x1_S640000x128_1_0_n_n_0_1_1128 z id⟩]
        concatenates_S640000x128_S640000x128_S640000x256_d1 (ix2 e q)
      = rowN z (if q.val < 128 then (is (ix2 e (0 : Fin 1))).toNat else (id (ix2 e (0 : Fin 1))).toNat)
          ⟨q.val % 128, Nat.mod_lt _ (by decide)⟩ := by
  by_cases hq : q.val < 128
  · rw [if_pos hq, rowN_of_lt z _ (his e)]
    rw [concatenate_pair_apply_left (t := S640000x256) (s₁ := S640000x128) (s₂ := S640000x128) (1 : Fin 2)
      (Host.gather gather_S20000x128_S640000x1_S640000x128_1_0_n_n_0_1_1128 z is)
      (Host.gather gather_S20000x128_S640000x1_S640000x128_1_0_n_n_0_1_1128 z id)
      concatenates_S640000x128_S640000x128_S640000x256_d1
      (ix2 e q) rfl (ix2 e (⟨q.val, hq⟩ : Fin 128)) (fun b => by
        match b with
        | ⟨0, _⟩ => rfl
        | ⟨1, _⟩ => rfl)]
    rw [gather_row_small _ rfl rfl rfl rfl rfl z is e ⟨q.val, hq⟩ (his e) (by have := his e; omega)]
    congr 2
    exact Fin.ext (Nat.mod_eq_of_lt hq).symm
  · rw [if_neg hq, rowN_of_lt z _ (hid e)]
    have hq2 : q.val - 128 < 128 := by have := q.isLt; omega
    rw [concatenate_pair_apply_right (t := S640000x256) (s₁ := S640000x128) (s₂ := S640000x128) (1 : Fin 2)
      (Host.gather gather_S20000x128_S640000x1_S640000x128_1_0_n_n_0_1_1128 z is)
      (Host.gather gather_S20000x128_S640000x1_S640000x128_1_0_n_n_0_1_1128 z id)
      concatenates_S640000x128_S640000x128_S640000x256_d1
      (ix2 e q) rfl rfl (ix2 e (⟨q.val - 128, hq2⟩ : Fin 128)) (fun b hb => by
        match b with
        | ⟨0, _⟩ => rfl
        | ⟨1, _⟩ => exact absurd rfl hb) (by show q.val - 128 + 128 = q.val; omega)]
    rw [gather_row_small _ rfl rfl rfl rfl rfl z id e ⟨q.val - 128, hq2⟩ (hid e) (by have := hid e; omega)]
    congr 2
    refine Fin.ext ?_
    show q.val - 128 = q.val % 128
    have := q.isLt
    omega

/-- The pooled table at (g, q): the operand's element plus the sum over the edges of graph g of the edge table's
    entry. -/
theorem pool_apply (zero : S64x256.Idx → EReal) (z : S20000x128.Idx → EReal) (is id ib : IVec S640000x1 32)
    (his : ∀ e : Fin 640000, (is (ix2 e (0 : Fin 1))).toNat < 20000)
    (hid : ∀ e : Fin 640000, (id (ix2 e (0 : Fin 1))).toNat < 20000)
    (hib : ∀ e : Fin 640000, (ib (ix2 e (0 : Fin 1))).toNat < 2 ^ 31)
    (g : Fin 64) (q : Fin 256) :
    Ideal.hostScatterAdd scatter_S64x256_S640000x1_S640000x256_1_0_0_1 zero ib
        (concatenate S640000x256 1
          [⟨S640000x128, Host.gather gather_S20000x128_S640000x1_S640000x128_1_0_n_n_0_1_1128 z is⟩,
           ⟨S640000x128, Host.gather gather_S20000x128_S640000x1_S640000x128_1_0_n_n_0_1_1128 z id⟩]
          concatenates_S640000x128_S640000x128_S640000x256_d1) (ix2 g q)
      = zero (ix2 g q) + ∑ e : Fin 640000, if (ib (ix2 e (0 : Fin 1))).toNat = g.val then
          rowN z (if q.val < 128 then (is (ix2 e (0 : Fin 1))).toNat else (id (ix2 e (0 : Fin 1))).toNat)
            ⟨q.val % 128, Nat.mod_lt _ (by decide)⟩ else 0 := by
  refine (scatterAdd_rows (G := 64) (K := 256) (n := 640000) scatter_S64x256_S640000x1_S640000x256_1_0_0_1 rfl rfl rfl rfl zero ib _ hib g q).trans ?_
  refine congrArg (fun s => zero (ix2 g q) + s) ?_
  refine Finset.sum_congr rfl fun e _ => ?_
  rw [cat_gather_apply z is id his hid e q]

/-- Three [64 × 256] tables side by side, read at (g, col). -/
theorem cat3_apply (A B C : S64x256.Idx → EReal) (g : Fin 64) (col : Fin 768) :
    concatenate S64x768 1 [⟨S64x256, A⟩, ⟨S64x256, B⟩, ⟨S64x256, C⟩]
        concatenates_S64x256_S64x256_S64x256_S64x768_d1 (ix2 g col)
      = (if col.val / 256 = 0 then A else if col.val / 256 = 1 then B else C)
          (ix2 g (⟨col.val % 256, Nat.mod_lt _ (by decide)⟩ : Fin 256)) := by
  have hc := col.isLt
  have hcases : col.val / 256 = 0 ∨ col.val / 256 = 1 ∨ col.val / 256 = 2 := by omega
  rcases hcases with h0 | h1 | h2
  · rw [if_pos h0]
    exact concatenate_apply_piece (t := S64x768) (1 : Fin 2) [⟨S64x256, A⟩, ⟨S64x256, B⟩, ⟨S64x256, C⟩]
      concatenates_S64x256_S64x256_S64x256_S64x768_d1 (ix2 g col)
      0 (by show (0 : ℕ) < 3; omega) S64x256 A rfl rfl 0 rfl (ix2 g (⟨col.val % 256, Nat.mod_lt _ (by decide)⟩ : Fin 256)) (fun b hb => by
        match b with
        | ⟨0, _⟩ => rfl
        | ⟨1, _⟩ => exact absurd rfl hb) (by show 0 + col.val % 256 = col.val; omega)
  · rw [if_neg (by omega), if_pos h1]
    exact concatenate_apply_piece (t := S64x768) (1 : Fin 2) [⟨S64x256, A⟩, ⟨S64x256, B⟩, ⟨S64x256, C⟩]
      concatenates_S64x256_S64x256_S64x256_S64x768_d1 (ix2 g col)
      1 (by show (1 : ℕ) < 3; omega) S64x256 B rfl rfl 256 rfl (ix2 g (⟨col.val % 256, Nat.mod_lt _ (by decide)⟩ : Fin 256)) (fun b hb => by
        match b with
        | ⟨0, _⟩ => rfl
        | ⟨1, _⟩ => exact absurd rfl hb) (by show 256 + col.val % 256 = col.val; omega)
  · rw [if_neg (by omega), if_neg (by omega)]
    exact concatenate_apply_piece (t := S64x768) (1 : Fin 2) [⟨S64x256, A⟩, ⟨S64x256, B⟩, ⟨S64x256, C⟩]
      concatenates_S64x256_S64x256_S64x256_S64x768_d1 (ix2 g col)
      2 (by show (2 : ℕ) < 3; omega) S64x256 C rfl rfl 512 rfl (ix2 g (⟨col.val % 256, Nat.mod_lt _ (by decide)⟩ : Fin 256)) (fun b hb => by
        match b with
        | ⟨0, _⟩ => rfl
        | ⟨1, _⟩ => exact absurd rfl hb) (by show 512 + col.val % 256 = col.val; omega)

end Cert.ReferenceIdeal.RefValue

end
-- ==== Proof.RValue.lean ====
import proofs.«403037_j2001454760607_3_alg».proof.Defs
import proofs.«403037_j2001454760607_3_alg».proof.Proof.RefRun
import proofs.«403037_j2001454760607_3_alg».proof.Proof.RefRead
import proofs.«403037_j2001454760607_3_alg».proof.Proof.Spec
import proofs.«403037_j2001454760607_3_alg».proof.Proof.RValue2

/-!
  The reference's result, element by element.

  Its host program is read one stage at a time, each stage at one index:
  the edge list's two rows as words (a word below 20000 is not negative, so the wrap-around select keeps it); the
  graph of an edge, bt[src e]; the edge count of a graph (a scatter of ones by graph) and one over it, at least one;
  the three affine layers z0, z1, z2 (a product's element as a sum over the contracted axis, plus the bias); per
  layer the edge table [z[src] | z[dst]] scattered by graph and scaled; the three scaled tables side by side.
  The result at (g, col) is layer col / 256 pooled over the edges of graph g at column col mod 256, times one over
  the edge count of g.
-/

noncomputable section

open scoped BigOperators

namespace Cert.ReferenceIdeal.RefValue

open Idealize.ShloMosaic Idealize.ShloMosaic.ValueIdx Idealize.SL.Sem Cert.ReferenceIdeal Cert.ReferenceIdeal.Gen
  Cert.ReferenceIdeal.Read Cert.Spec

section Stages

variable (x0 : (⟨S20000x256, .f32⟩ : BufTy).Contents (Elt Ideal)) (x1 : (⟨S2x640000, .i32⟩ : BufTy).Contents (Elt Ideal))
  (x2 : (⟨S20000, .i32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-! ### The edge list's rows, as words -/

/-- Row 0 of the edge list at edge e. -/
theorem v1_at (e : Fin 640000) : val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- Row 1 of the edge list at edge e. -/
theorem v3_at (e : Fin 640000) : val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (Nat.mod_eq_of_lt e.isLt)

variable {x1 x2} in
theorem src_word_lt (hr : InRange x1 x2) (e : Fin 640000) : (x1 (ix2 (0 : Fin 2) e)).toNat < 20000 := hr.src_lt e
variable {x1 x2} in
theorem dst_word_lt (hr : InRange x1 x2) (e : Fin 640000) : (x1 (ix2 (1 : Fin 2) e)).toNat < 20000 := hr.dst_lt e

/-- The column of an [n × 1] table read at row e is the vector it was made from at e. -/
theorem col_idx (e : Fin 640000) :
    (fun a : Fin 1 => match a with | ⟨0, _⟩ => (⟨((ix2 e (0 : Fin 1) : S640000x1.Idx) 0).val, ((ix2 e (0 : Fin 1) : S640000x1.Idx) 0).isLt⟩ : Fin 640000))
      = (ix1 e : S640000.Idx) := by
  funext a
  match a with
  | ⟨0, _⟩ => rfl

variable {x2} in
/-- The source start-index column (as the first use builds it) at edge e: the source word. -/
theorem v9_at (hr : InRange x1 x2) (e : Fin 640000) :
    val_main_v9 (F := Ideal) x1 (ix2 e (0 : Fin 1)) = x1 (ix2 (0 : Fin 2) e) := by
  rw [val_main_v9_apply]
  have hi : idx_main_v9 (ix2 e (0 : Fin 1)) = ix1 e := col_idx e
  rw [hi, val_main_v8_apply, val_main_v5_apply, val_main_v7_apply, v1_at, val_main_v4_apply, val_main_c_apply]
  exact wrap_small _ _ (by have := src_word_lt hr e; omega)

variable {x2} in
/-- The destination start-index column (layer 0's) at edge e: the destination word. -/
theorem v35_at (hr : InRange x1 x2) (e : Fin 640000) :
    val_main_v35 (F := Ideal) x1 (ix2 e (0 : Fin 1)) = x1 (ix2 (1 : Fin 2) e) := by
  rw [val_main_v35_apply]
  have hi : idx_main_v35 (ix2 e (0 : Fin 1)) = ix1 e := col_idx e
  rw [hi, val_main_v34_apply, val_main_v31_apply, val_main_v33_apply, v3_at, val_main_v30_apply, val_main_c_6_apply]
  exact wrap_small _ _ (by have := dst_word_lt hr e; omega)

/-- The later layers rebuild the same two columns. -/
theorem v28_eq : val_main_v28 (F := Ideal) x1 = val_main_v9 (F := Ideal) x1 := rfl
theorem v52_eq : val_main_v52 (F := Ideal) x1 = val_main_v9 (F := Ideal) x1 := rfl
theorem v76_eq : val_main_v76 (F := Ideal) x1 = val_main_v9 (F := Ideal) x1 := rfl
theorem v59_eq : val_main_v59 (F := Ideal) x1 = val_main_v35 (F := Ideal) x1 := rfl
theorem v83_eq : val_main_v83 (F := Ideal) x1 = val_main_v35 (F := Ideal) x1 := rfl

/-! ### The graph of an edge -/

/-- bt[src e]: the take reads the graph table at the source word. -/
theorem v10_at (hr : InRange x1 x2) (e : Fin 640000) :
    val_main_v10 (F := Ideal) x1 x2 (ix1 e) = x2 (ix1 (⟨(x1 (ix2 (0 : Fin 2) e)).toNat, src_word_lt hr e⟩ : Fin 20000)) := by
  unfold val_main_v10
  have h9 := v9_at x1 hr e
  generalize val_main_v9 (F := Ideal) x1 = idx at h9
  rw [gather_take_small gather_S20000_S640000x1_S640000_n_0_n_n_0_1_1 rfl rfl rfl rfl x2 idx e
    (by rw [h9]; exact src_word_lt hr e) (by rw [h9]; have := src_word_lt hr e; omega)]
  congr 2
  exact Fin.ext (congrArg BitVec.toNat h9)

/-- As a number it is the edge's graph. -/
theorem v10_toNat (hr : InRange x1 x2) (e : Fin 640000) :
    (val_main_v10 (F := Ideal) x1 x2 (ix1 e)).toNat = eb x1 x2 e := by
  rw [v10_at x1 x2 hr e]
  unfold eb bat src
  rw [dif_pos (src_word_lt hr e)]

theorem eb_lt (hr : InRange x1 x2) (e : Fin 640000) : eb x1 x2 e < 64 := by
  unfold eb bat
  rw [dif_pos (hr.src_lt e)]
  exact hr.bat_lt _

/-- The scatter-index column at edge e is the edge's graph. -/
theorem v13_toNat (hr : InRange x1 x2) (e : Fin 640000) :
    (val_main_v13 (F := Ideal) x1 x2 (ix2 e (0 : Fin 1))).toNat = eb x1 x2 e := by
  rw [val_main_v13_apply]
  have hi : idx_main_v13 (ix2 e (0 : Fin 1)) = ix1 e := col_idx e
  rw [hi, v10_toNat x1 x2 hr e]

theorem v39_eq : val_main_v39 (F := Ideal) x1 x2 = val_main_v13 (F := Ideal) x1 x2 := rfl
theorem v63_eq : val_main_v63 (F := Ideal) x1 x2 = val_main_v13 (F := Ideal) x1 x2 := rfl
theorem v87_eq : val_main_v87 (F := Ideal) x1 x2 = val_main_v13 (F := Ideal) x1 x2 := rfl

/-! ### The edge count of a graph and one over it -/

theorem v14_at (hr : InRange x1 x2) (g : Fin 64) :
    val_main_v14 (F := Ideal) x1 x2 (ix2 g (0 : Fin 1)) = cnt x1 x2 g := by
  unfold val_main_v14 Host.scatterAdd
  rw [Ideal.hostScatterAdd_def]
  refine (scatterAdd_rows (G := 64) (K := 1) (n := 640000) scatter_S64x1_S640000x1_S640000x1_1_0_0_1 rfl rfl rfl rfl
    (val_main_v12 (F := Ideal)) (val_main_v13 (F := Ideal) x1 x2) (val_main_v11 (F := Ideal))
    (fun e => by rw [v13_toNat x1 x2 hr e]; have := eb_lt x1 x2 hr e; omega) g 0).trans ?_
  rw [val_main_v12_apply, val_main_cst_1_apply, Ideal.ofBits_def, Ideal.ofBits_zero_f32, zero_add]
  unfold cnt
  refine Finset.sum_congr rfl fun e _ => ?_
  rw [v13_toNat x1 x2 hr e, val_main_v11_apply, val_main_cst_apply, Ideal.ofBits_def, ofBits_one_f32]

theorem v18_at (hr : InRange x1 x2) (g : Fin 64) :
    val_main_v18 (F := Ideal) x1 x2 (ix2 g (0 : Fin 1)) = inv x1 x2 g := by
  rw [val_main_v18_apply, val_main_v16_apply, v14_at x1 x2 hr g, val_main_v17_apply, val_main_cst_3_apply,
    val_main_v15_apply, val_main_cst_2_apply, Ideal.hostDivf_def, Ideal.maximumf_def, Ideal.ofBits_def, ofBits_one_f32]
  unfold Cert.Spec.inv
  rfl

/-- One over the count, spread along the 256 columns. -/
theorem v41_at (hr : InRange x1 x2) (g : Fin 64) (q : Fin 256) :
    val_main_v41 (F := Ideal) x1 x2 (ix2 g q) = inv x1 x2 g := by
  rw [val_main_v41_apply]
  have hi : idx_main_v41 (ix2 g q) = ix2 g (0 : Fin 1) := by
    funext a
    match a with
    | ⟨0, _⟩ => rfl
    | ⟨1, _⟩ => rfl
  rw [hi, v18_at x1 x2 hr g]

theorem v65_eq : val_main_v65 (F := Ideal) x1 x2 = val_main_v41 (F := Ideal) x1 x2 := rfl
theorem v89_eq : val_main_v89 (F := Ideal) x1 x2 = val_main_v41 (F := Ideal) x1 x2 := rfl

/-! ### The three layers -/

theorem v22_at (n : Fin 20000) (h : Fin 128) :
    val_main_v22 (F := Ideal) x0 x3 x4 (ix2 n h) = z0 x0 x3 x4 n h := by
  rw [val_main_v22_apply, val_main_v19_apply, val_main_v21_apply, val_main_v20_apply, Ideal.addf_def]
  unfold z0
  congr 1
  · refine Finset.sum_congr rfl fun k _ => ?_
    have hl : lidx_main_v19 (ix2 n h) k = ix2 n k := by
      funext a
      match a with
      | ⟨0, _⟩ => rfl
      | ⟨1, _⟩ => rfl
    have hrr : ridx_main_v19 (ix2 n h) k = ix2 k h := by
      funext a
      match a with
      | ⟨0, _⟩ => rfl
      | ⟨1, _⟩ => rfl
    rw [hl, hrr]
  · congr 1
    funext a
    match a with
    | ⟨0, _⟩ => rfl

theorem v46_at (n : Fin 20000) (h : Fin 128) :
    val_main_v46 (F := Ideal) x0 x3 x4 x5 x6 (ix2 n h) = z1 x0 x3 x4 x5 x6 n h := by
  rw [val_main_v46_apply, val_main_v43_apply, val_main_v45_apply, val_main_v44_apply, Ideal.addf_def]
  unfold z1
  congr 1
  · refine Finset.sum_congr rfl fun k _ => ?_
    have hl : lidx_main_v43 (ix2 n h) k = ix2 n k := by
      funext a
      match a with
      | ⟨0, _⟩ => rfl
      | ⟨1, _⟩ => rfl
    have hrr : ridx_main_v43 (ix2 n h) k = ix2 k h := by
      funext a
      match a with
      | ⟨0, _⟩ => rfl
      | ⟨1, _⟩ => rfl
    rw [hl, hrr, v22_at]
  · congr 1
    funext a
    match a with
    | ⟨0, _⟩ => rfl

theorem v70_at (n : Fin 20000) (h : Fin 128) :
    val_main_v70 (F := Ideal) x0 x3 x4 x5 x6 x7 x8 (ix2 n h) = z2 x0 x3 x4 x5 x6 x7 x8 n h := by
  rw [val_main_v70_apply, val_main_v67_apply, val_main_v69_apply, val_main_v68_apply, Ideal.addf_def]
  unfold z2
  congr 1
  · refine Finset.sum_congr rfl fun k _ => ?_
    have hl : lidx_main_v67 (ix2 n h) k = ix2 n k := by
      funext a
      match a with
      | ⟨0, _⟩ => rfl
      | ⟨1, _⟩ => rfl
    have hrr : ridx_main_v67 (ix2 n h) k = ix2 k h := by
      funext a
      match a with
      | ⟨0, _⟩ => rfl
      | ⟨1, _⟩ => rfl
    rw [hl, hrr, v46_at]
  · congr 1
    funext a
    match a with
    | ⟨0, _⟩ => rfl

/-! ### One pooled layer -/

/-- A node table that is layer l, read by row number, is the specification's layer by node number. -/
theorem rowN_layer (l : ℕ) (z : S20000x128.Idx → EReal)
    (hz : ∀ (n : Fin 20000) (h : Fin 128), z (ix2 n h) = zl x0 x3 x4 x5 x6 x7 x8 l n h) (n : ℕ) (h : Fin 128) :
    rowN z n h = zN x0 x3 x4 x5 x6 x7 x8 l n h := by
  unfold rowN zN
  by_cases hn : n < 20000
  · rw [dif_pos hn, dif_pos hn, hz]
  · rw [dif_neg hn, dif_neg hn]

/-- A layer's node table, gathered at the two endpoints of every edge and scattered by graph into a zero table, is
    that layer pooled. -/
theorem layer_pool (hr : InRange x1 x2) (l : ℕ) (z : S20000x128.Idx → EReal)
    (hz : ∀ (n : Fin 20000) (h : Fin 128), z (ix2 n h) = zl x0 x3 x4 x5 x6 x7 x8 l n h)
    (zero : S64x256.Idx → EReal) (hzero : ∀ i, zero i = 0) (is id ib : IVec S640000x1 32)
    (his : ∀ e : Fin 640000, is (ix2 e (0 : Fin 1)) = x1 (ix2 (0 : Fin 2) e))
    (hid : ∀ e : Fin 640000, id (ix2 e (0 : Fin 1)) = x1 (ix2 (1 : Fin 2) e))
    (hib : ∀ e : Fin 640000, (ib (ix2 e (0 : Fin 1))).toNat = eb x1 x2 e) (g : Fin 64) (q : Fin 256) :
    Ideal.hostScatterAdd scatter_S64x256_S640000x1_S640000x256_1_0_0_1 zero ib
        (concatenate S640000x256 1
          [⟨S640000x128, Host.gather gather_S20000x128_S640000x1_S640000x128_1_0_n_n_0_1_1128 z is⟩,
           ⟨S640000x128, Host.gather gather_S20000x128_S640000x1_S640000x128_1_0_n_n_0_1_1128 z id⟩]
          concatenates_S640000x128_S640000x128_S640000x256_d1) (ix2 g q)
      = refPool x0 x1 x2 x3 x4 x5 x6 x7 x8 l g q := by
  rw [pool_apply zero z is id ib (fun e => by rw [his]; exact src_word_lt hr e) (fun e => by rw [hid]; exact dst_word_lt hr e)
    (fun e => by rw [hib]; have := eb_lt x1 x2 hr e; omega) g q, hzero, zero_add]
  unfold refPool endpoint src dst
  refine Finset.sum_congr rfl fun e _ => ?_
  rw [hib, his, hid, rowN_layer x0 x3 x4 x5 x6 x7 x8 l z hz]

theorem zero_tab (i : S64x256.Idx) : val_main_v38 (F := Ideal) i = 0 := by
  rw [val_main_v38_apply, val_main_cst_8_apply]
  exact Ideal.ofBits_zero_f32

theorem v62_eq : val_main_v62 (F := Ideal) = val_main_v38 (F := Ideal) := rfl
theorem v86_eq : val_main_v86 (F := Ideal) = val_main_v38 (F := Ideal) := rfl

/-- Layer 0's scatter, with its operands spelled out. -/
theorem v40_eq : val_main_v40 (F := Ideal) x0 x1 x2 x3 x4
    = Ideal.hostScatterAdd scatter_S64x256_S640000x1_S640000x256_1_0_0_1 (val_main_v38 (F := Ideal))
        (val_main_v39 (F := Ideal) x1 x2)
        (concatenate S640000x256 1
          [⟨S640000x128, Host.gather gather_S20000x128_S640000x1_S640000x128_1_0_n_n_0_1_1128
              (val_main_v22 (F := Ideal) x0 x3 x4) (val_main_v28 (F := Ideal) x1)⟩,
           ⟨S640000x128, Host.gather gather_S20000x128_S640000x1_S640000x128_1_0_n_n_0_1_1128
              (val_main_v22 (F := Ideal) x0 x3 x4) (val_main_v35 (F := Ideal) x1)⟩]
          concatenates_S640000x128_S640000x128_S640000x256_d1) := by
  unfold val_main_v40 val_main_v37 val_main_v29 val_main_v36 Host.scatterAdd
  exact Ideal.hostScatterAdd_def _ _ _ _ _

/-- Layer 1's scatter, with its operands spelled out. -/
theorem v64_eq : val_main_v64 (F := Ideal) x0 x1 x2 x3 x4 x5 x6
    = Ideal.hostScatterAdd scatter_S64x256_S640000x1_S640000x256_1_0_0_1 (val_main_v62 (F := Ideal))
        (val_main_v63 (F := Ideal) x1 x2)
        (concatenate S640000x256 1
          [⟨S640000x128, Host.gather gather_S20000x128_S640000x1_S640000x128_1_0_n_n_0_1_1128
              (val_main_v46 (F := Ideal) x0 x3 x4 x5 x6) (val_main_v52 (F := Ideal) x1)⟩,
           ⟨S640000x128, Host.gather gather_S20000x128_S640000x1_S640000x128_1_0_n_n_0_1_1128
              (val_main_v46 (F := Ideal) x0 x3 x4 x5 x6) (val_main_v59 (F := Ideal) x1)⟩]
          concatenates_S640000x128_S640000x128_S640000x256_d1) := by
  unfold val_main_v64 val_main_v61 val_main_v53 val_main_v60 Host.scatterAdd
  exact Ideal.hostScatterAdd_def _ _ _ _ _

/-- Layer 2's scatter, with its operands spelled out. -/
theorem v88_eq : val_main_v88 (F := Ideal) x0 x1 x2 x3 x4 x5 x6 x7 x8
    = Ideal.hostScatterAdd scatter_S64x256_S640000x1_S640000x256_1_0_0_1 (val_main_v86 (F := Ideal))
        (val_main_v87 (F := Ideal) x1 x2)
        (concatenate S640000x256 1
          [⟨S640000x128, Host.gather gather_S20000x128_S640000x1_S640000x128_1_0_n_n_0_1_1128
              (val_main_v70 (F := Ideal) x0 x3 x4 x5 x6 x7 x8) (val_main_v76 (F := Ideal) x1)⟩,
           ⟨S640000x128, Host.gather gather_S20000x128_S640000x1_S640000x128_1_0_n_n_0_1_1128
              (val_main_v70 (F := Ideal) x0 x3 x4 x5 x6 x7 x8) (val_main_v83 (F := Ideal) x1)⟩]
          concatenates_S640000x128_S640000x128_S640000x256_d1) := by
  unfold val_main_v88 val_main_v85 val_main_v77 val_main_v84 Host.scatterAdd
  exact Ideal.hostScatterAdd_def _ _ _ _ _

/-- Layer 0 pooled and scaled. -/
theorem v42_at (hr : InRange x1 x2) (g : Fin 64) (q : Fin 256) :
    val_main_v42 (F := Ideal) x0 x1 x2 x3 x4 (ix2 g q)
      = refPool x0 x1 x2 x3 x4 x5 x6 x7 x8 0 g q * inv x1 x2 g := by
  rw [val_main_v42_apply, v41_at x1 x2 hr g q, Ideal.mulf_def, v40_eq]
  rw [layer_pool x0 x1 x2 x3 x4 x5 x6 x7 x8 hr 0 (val_main_v22 (F := Ideal) x0 x3 x4)
    (fun n h => by rw [v22_at]; unfold zl; rw [if_pos rfl])
    (val_main_v38 (F := Ideal)) zero_tab (val_main_v28 (F := Ideal) x1) (val_main_v35 (F := Ideal) x1)
    (val_main_v39 (F := Ideal) x1 x2)
    (fun e => by rw [v28_eq]; exact v9_at x1 hr e) (fun e => v35_at x1 hr e)
    (fun e => by rw [v39_eq]; exact v13_toNat x1 x2 hr e) g q]

/-- Layer 1 pooled and scaled. -/
theorem v66_at (hr : InRange x1 x2) (g : Fin 64) (q : Fin 256) :
    val_main_v66 (F := Ideal) x0 x1 x2 x3 x4 x5 x6 (ix2 g q)
      = refPool x0 x1 x2 x3 x4 x5 x6 x7 x8 1 g q * inv x1 x2 g := by
  rw [val_main_v66_apply, v65_eq, v41_at x1 x2 hr g q, Ideal.mulf_def, v64_eq]
  rw [layer_pool x0 x1 x2 x3 x4 x5 x6 x7 x8 hr 1 (val_main_v46 (F := Ideal) x0 x3 x4 x5 x6)
    (fun n h => by rw [v46_at]; unfold zl; rw [if_neg (by decide), if_pos rfl])
    (val_main_v62 (F := Ideal)) (fun i => by rw [v62_eq]; exact zero_tab i)
    (val_main_v52 (F := Ideal) x1) (val_main_v59 (F := Ideal) x1) (val_main_v63 (F := Ideal) x1 x2)
    (fun e => by rw [v52_eq]; exact v9_at x1 hr e) (fun e => by rw [v59_eq]; exact v35_at x1 hr e)
    (fun e => by rw [v63_eq]; exact v13_toNat x1 x2 hr e) g q]

/-- Layer 2 pooled and scaled. -/
theorem v90_at (hr : InRange x1 x2) (g : Fin 64) (q : Fin 256) :
    val_main_v90 (F := Ideal) x0 x1 x2 x3 x4 x5 x6 x7 x8 (ix2 g q)
      = refPool x0 x1 x2 x3 x4 x5 x6 x7 x8 2 g q * inv x1 x2 g := by
  rw [val_main_v90_apply, v89_eq, v41_at x1 x2 hr g q, Ideal.mulf_def, v88_eq]
  rw [layer_pool x0 x1 x2 x3 x4 x5 x6 x7 x8 hr 2 (val_main_v70 (F := Ideal) x0 x3 x4 x5 x6 x7 x8)
    (fun n h => by rw [v70_at]; unfold zl; rw [if_neg (by decide), if_neg (by decide)])
    (val_main_v86 (F := Ideal)) (fun i => by rw [v86_eq]; exact zero_tab i)
    (val_main_v76 (F := Ideal) x1) (val_main_v83 (F := Ideal) x1) (val_main_v87 (F := Ideal) x1 x2)
    (fun e => by rw [v76_eq]; exact v9_at x1 hr e) (fun e => by rw [v83_eq]; exact v35_at x1 hr e)
    (fun e => by rw [v87_eq]; exact v13_toNat x1 x2 hr e) g q]

/-! ### The result -/

theorem v91_at (hr : InRange x1 x2) (g : Fin 64) (col : Fin 768) :
    val_main_v91 (F := Ideal) x0 x1 x2 x3 x4 x5 x6 x7 x8 (ix2 g col) = out x0 x1 x2 x3 x4 x5 x6 x7 x8 g col := by
  unfold val_main_v91
  rw [cat3_apply]
  unfold out
  have hc := col.isLt
  have hcases : col.val / 256 = 0 ∨ col.val / 256 = 1 ∨ col.val / 256 = 2 := by omega
  rcases hcases with h0 | h1 | h2
  · rw [if_pos h0, h0]
    exact v42_at x0 x1 x2 x3 x4 x5 x6 x7 x8 hr g _
  · rw [if_neg (by omega), if_pos h1, h1]
    exact v66_at x0 x1 x2 x3 x4 x5 x6 x7 x8 hr g _
  · rw [if_neg (by omega), if_neg (by omega), h2]
    exact v90_at x0 x1 x2 x3 x4 x5 x6 x7 x8 hr g _

end Stages

/-! ### The run -/

/-- The run's result term is the specification's table. -/
theorem res_eq (m : (ℓ : Loc nD τ sig) → Buf (Elt Ideal) ℓ) (c : Dev nD)
    (hr : InRange (m ((c.tc : Thread nD τ).loc main_arg1)) (m ((c.tc : Thread nD τ).loc main_arg2))) :
    Cert.ReferenceIdeal.Value.res_main_v91 (F := Ideal) m c
      = (fun i => out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (i 0) (i 1)) := by
  rw [val_main_v91_eq]
  funext i
  obtain ⟨g, col, rfl⟩ : ∃ (g : Fin 64) (col : Fin 768), i = ix2 g col := ⟨i 0, i 1, eq_ix2 i⟩
  exact v91_at _ _ _ _ _ _ _ _ _ hr g col

/-- Every weakly fair execution of the reference ends with its result buffer at the specification's table and its
    arguments unchanged, when every edge endpoint is a node and every graph id one of the 64 graphs. -/
theorem run_value (m : (ℓ : Loc Cert.ReferenceIdeal.nD Cert.ReferenceIdeal.τ Cert.ReferenceIdeal.sig) → Buf (Elt Ideal) ℓ)
    (ρ : Dev Cert.ReferenceIdeal.nD → PrngReg)
    (hr : ∀ c : Dev Cert.ReferenceIdeal.nD, Cert.Spec.InRange (m ((c.tc : Thread _ _).loc Cert.ReferenceIdeal.main_arg1)) (m ((c.tc : Thread _ _).loc Cert.ReferenceIdeal.main_arg2))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread _ _).loc Cert.ReferenceIdeal.main_v91)
          = (fun i => Cert.Spec.out (m ((c.tc : Thread _ _).loc main_arg0)) (m ((c.tc : Thread _ _).loc main_arg1)) (m ((c.tc : Thread _ _).loc main_arg2))
              (m ((c.tc : Thread _ _).loc main_arg3)) (m ((c.tc : Thread _ _).loc main_arg4)) (m ((c.tc : Thread _ _).loc main_arg5))
              (m ((c.tc : Thread _ _).loc main_arg6)) (m ((c.tc : Thread _ _).loc main_arg7)) (m ((c.tc : Thread _ _).loc main_arg8)) (i 0) (i 1))
        ∧ r.2.mem ((c.tc : Thread _ _).loc main_arg0) = m ((c.tc : Thread _ _).loc main_arg0)
        ∧ r.2.mem ((c.tc : Thread _ _).loc main_arg1) = m ((c.tc : Thread _ _).loc main_arg1)
        ∧ r.2.mem ((c.tc : Thread _ _).loc main_arg2) = m ((c.tc : Thread _ _).loc main_arg2)
        ∧ r.2.mem ((c.tc : Thread _ _).loc main_arg3) = m ((c.tc : Thread _ _).loc main_arg3)
        ∧ r.2.mem ((c.tc : Thread _ _).loc main_arg4) = m ((c.tc : Thread _ _).loc main_arg4)
        ∧ r.2.mem ((c.tc : Thread _ _).loc main_arg5) = m ((c.tc : Thread _ _).loc main_arg5)
        ∧ r.2.mem ((c.tc : Thread _ _).loc main_arg6) = m ((c.tc : Thread _ _).loc main_arg6)
        ∧ r.2.mem ((c.tc : Thread _ _).loc main_arg7) = m ((c.tc : Thread _ _).loc main_arg7)
        ∧ r.2.mem ((c.tc : Thread _ _).loc main_arg8) = m ((c.tc : Thread _ _).loc main_arg8)) :=
  (θ_run (Cert.ReferenceIdeal.defs (F := Ideal)) _ _).mono
    (fun _ h c => ⟨(h c).1.trans (res_eq m c (hr c)), (h c).2⟩)
    (Cert.ReferenceIdeal.Value.run (F := Ideal) m ρ)

/-- The reference runs and leaves its arguments unchanged: its run with the result dropped. -/
theorem frame_ri [hReferenceIdeal : Cert.ReferenceIdeal.Facts] [hPre_finite_inputs : Cert.Pre_finite_inputs.Facts] :
    Cert.frame_ReferenceIdeal :=
  fun m ρ _ => (θ_run (Cert.ReferenceIdeal.defs (F := Ideal)) _ _).mono (fun _ h c => (h c).2)
    (Cert.ReferenceIdeal.Value.run (F := Ideal) m ρ)

end Cert.ReferenceIdeal.RefValue

end
-- ==== Proof.SpecLaw.lean ====
/-
  General facts used to compare a pooling written as "count times value, summed over the nodes" with the
  same pooling written as "value at the endpoint, summed over the edges": real numbers inside the extended
  reals, the exchange of the two sums, and the split of 20000 rows into four blocks of 5000.
-/
import proofs.«403037_j2001454760607_3_alg».proof.Proof.Spec
import Mathlib.Algebra.BigOperators.Fin
import Mathlib.Algebra.BigOperators.Ring.Finset
import Mathlib.Data.EReal.Operations

noncomputable section

open scoped BigOperators

namespace Cert.Spec

/-- An extended real that is a real number. -/
def IsR (a : EReal) : Prop := ∃ r : ℝ, a = (r : EReal)

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.zero : IsR 0 := ⟨0, EReal.coe_zero.symm⟩

theorem IsR.sum {ι : Type*} (s : Finset ι) (f : ι → EReal) (h : ∀ i ∈ s, IsR (f i)) :
    IsR (∑ i ∈ s, f i) := by
  classical
  induction s using Finset.induction_on with
  | empty => simpa using IsR.zero
  | insert a s ha ih =>
    rw [Finset.sum_insert ha]
    exact (h a (Finset.mem_insert_self a s)).add
      (ih (fun i hi => h i (Finset.mem_insert_of_mem hi)))

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- A 0/1 count times a real number is the sum of that number over the counted indices. -/
theorem count_mul {ι : Type*} (s : Finset ι) (p : ι → Prop) [DecidablePred p] (r : ℝ) :
    (∑ i ∈ s, if p i then (1 : EReal) else 0) * (r : EReal)
      = ∑ i ∈ s, if p i then (r : EReal) else 0 := by
  have h1 : (∑ i ∈ s, if p i then (1 : EReal) else 0)
      = ((∑ i ∈ s, if p i then (1 : ℝ) else 0 : ℝ) : EReal) := by
    rw [coe_sum]
    refine Finset.sum_congr rfl (fun i _ => ?_)
    split_ifs <;> simp
  have h2 : (∑ i ∈ s, if p i then (r : EReal) else 0)
      = ((∑ i ∈ s, if p i then r else 0 : ℝ) : EReal) := by
    rw [coe_sum]
    refine Finset.sum_congr rfl (fun i _ => ?_)
    split_ifs <;> simp
  rw [h1, h2, ← EReal.coe_mul, Finset.sum_mul]
  congr 1
  refine Finset.sum_congr rfl (fun i _ => ?_)
  split_ifs <;> simp

/-- Exchange of the sum over the nodes with the sum over the edges: each edge has one endpoint. -/
theorem sum_endpoint {E N M : Type*} [Fintype E] [Fintype N] [DecidableEq N] [AddCommMonoid M]
    (s : E → N) (p : E → Prop) [DecidablePred p] (z : N → M) :
    (∑ n : N, ∑ e : E, if s e = n ∧ p e then z n else 0) = ∑ e : E, if p e then z (s e) else 0 := by
  rw [Finset.sum_comm]
  refine Finset.sum_congr rfl (fun e _ => ?_)
  by_cases hp : p e
  · simp [hp]
  · simp [hp]

/-- The 20000 rows are the four blocks of 5000 rows. -/
def rowEquiv : Fin 2 × Fin 2 × Fin 5000 ≃ Fin 20000 where
  toFun t := rowOf t.1 t.2.1 t.2.2
  invFun n := (⟨n.val / 10000, by have := n.isLt; omega⟩, ⟨(n.val / 5000) % 2, by omega⟩,
    ⟨n.val % 5000, by omega⟩)
  left_inv := by
    rintro ⟨c, s, r⟩
    have hc := c.isLt
    have hs := s.isLt
    have hr := r.isLt
    simp only [rowOf]
    refine Prod.ext (Fin.ext ?_) (Prod.ext (Fin.ext ?_) (Fin.ext ?_)) <;> simp only <;> omega
  right_inv := by
    intro n
    have hn := n.isLt
    simp only [rowOf]
    refine Fin.ext ?_
    simp only
    omega

theorem sum_rows {M : Type*} [AddCommMonoid M] (f : Fin 20000 → M) :
    (∑ n : Fin 20000, f n)
      = ((∑ r : Fin 5000, f (rowOf 0 0 r)) + ∑ r : Fin 5000, f (rowOf 0 1 r))
        + ((∑ r : Fin 5000, f (rowOf 1 0 r)) + ∑ r : Fin 5000, f (rowOf 1 1 r)) := by
  rw [← Equiv.sum_comp rowEquiv f, Fintype.sum_prod_type, Fin.sum_univ_two,
    Fintype.sum_prod_type, Fintype.sum_prod_type, Fin.sum_univ_two, Fin.sum_univ_two]
  rfl

/-- A count of edges (by endpoint and a side condition) times a real value, summed over the nodes, is the
    value at the endpoint summed over the edges that meet the condition. -/
theorem pool_gen {E N : Type*} [Fintype E] [Fintype N] [DecidableEq N]
    (t : E → N) (p : E → Prop) [DecidablePred p] (z : N → EReal) (hz : ∀ n, IsR (z n)) :
    (∑ n : N, (∑ e : E, if t e = n ∧ p e then (1 : EReal) else 0) * z n)
      = ∑ e : E, if p e then z (t e) else 0 := by
  rw [← sum_endpoint t p z]
  refine Finset.sum_congr rfl (fun n _ => ?_)
  obtain ⟨r, hr⟩ := hz n
  rw [hr]
  exact count_mul _ _ r

section Values

variable (x : SX.Idx → EReal) (ei : SE.Idx → BitVec 32) (bt : SB.Idx → BitVec 32)
  (W0 : SW0.Idx → EReal) (b0 : Sb.Idx → EReal) (W1 : SW.Idx → EReal) (b1 : Sb.Idx → EReal)
  (W2 : SW.Idx → EReal) (b2 : Sb.Idx → EReal)

/-! ### The keys decode -/

theorem eb_lt (hr : InRange ei bt) (e : Fin 640000) : eb ei bt e < 64 := by
  unfold eb bat
  rw [dif_pos (hr.src_lt e)]
  exact hr.bat_lt _

/-- The source of an edge as a node. -/
def srcF (hr : InRange ei bt) (e : Fin 640000) : Fin 20000 := ⟨src ei e, hr.src_lt e⟩
/-- The destination of an edge as a node. -/
def dstF (hr : InRange ei bt) (e : Fin 640000) : Fin 20000 := ⟨dst ei e, hr.dst_lt e⟩

theorem csrc_eq (hr : InRange ei bt) (n : Fin 20000) (g : Fin 64) :
    csrc ei bt n g
      = ∑ e : Fin 640000, if srcF ei bt hr e = n ∧ eb ei bt e = g.val then (1 : EReal) else 0 := by
  unfold csrc
  refine Finset.sum_congr rfl (fun e _ => ?_)
  have h1 := eb_lt ei bt hr e
  have h2 := g.isLt
  have key : (src ei e * 64 + eb ei bt e = n.val * 64 + g.val)
      ↔ (srcF ei bt hr e = n ∧ eb ei bt e = g.val) := by
    rw [Fin.ext_iff]
    simp only [srcF]
    omega
  rw [if_congr key rfl rfl]

theorem cdst_eq (hr : InRange ei bt) (n : Fin 20000) (g : Fin 64) :
    cdst ei bt n g
      = ∑ e : Fin 640000, if dstF ei bt hr e = n ∧ eb ei bt e = g.val then (1 : EReal) else 0 := by
  unfold cdst
  refine Finset.sum_congr rfl (fun e _ => ?_)
  have h1 := eb_lt ei bt hr e
  have h2 := g.isLt
  have key : ((dst ei e + 20000) * 64 + eb ei bt e = (n.val + 20000) * 64 + g.val)
      ↔ (dstF ei bt hr e = n ∧ eb ei bt e = g.val) := by
    rw [Fin.ext_iff]
    simp only [dstF]
    omega
  rw [if_congr key rfl rfl]

/-! ### The two edge counts agree -/

theorem kcnt_eq_cnt (hr : InRange ei bt) (g : Fin 64) : kcnt ei bt g = cnt ei bt g := by
  unfold kcnt cnt
  rw [Finset.sum_congr rfl (fun n _ => csrc_eq ei bt hr n g)]
  exact sum_endpoint (srcF ei bt hr) (fun e => eb ei bt e = g.val) (fun _ => (1 : EReal))

theorem kinv_eq_inv (hr : InRange ei bt) (g : Fin 64) : kinv ei bt g = inv ei bt g := by
  unfold kinv inv
  rw [kcnt_eq_cnt ei bt hr g]

/-! ### Every embedding is a real number -/

theorem isR_z0 (hf : Finite x W0 b0 W1 b1 W2 b2) (n : Fin 20000) (h : Fin 128) :
    IsR (z0 x W0 b0 n h) := by
  unfold z0
  exact IsR.add (IsR.sum _ _ (fun k _ => IsR.mul (hf.fx _) (hf.fW0 _))) (hf.fb0 _)

theorem isR_z1 (hf : Finite x W0 b0 W1 b1 W2 b2) (n : Fin 20000) (h : Fin 128) :
    IsR (z1 x W0 b0 W1 b1 n h) := by
  unfold z1
  exact IsR.add (IsR.sum _ _ (fun k _ => IsR.mul (isR_z0 x W0 b0 W1 b1 W2 b2 hf n k) (hf.fW1 _)))
    (hf.fb1 _)

theorem isR_z2 (hf : Finite x W0 b0 W1 b1 W2 b2) (n : Fin 20000) (h : Fin 128) :
    IsR (z2 x W0 b0 W1 b1 W2 b2 n h) := by
  unfold z2
  exact IsR.add (IsR.sum _ _ (fun k _ => IsR.mul (isR_z1 x W0 b0 W1 b1 W2 b2 hf n k) (hf.fW2 _)))
    (hf.fb2 _)

theorem isR_zl (hf : Finite x W0 b0 W1 b1 W2 b2) (l : ℕ) (n : Fin 20000) (h : Fin 128) :
    IsR (zl x W0 b0 W1 b1 W2 b2 l n h) := by
  unfold zl
  split_ifs
  · exact isR_z0 x W0 b0 W1 b1 W2 b2 hf n h
  · exact isR_z1 x W0 b0 W1 b1 W2 b2 hf n h
  · exact isR_z2 x W0 b0 W1 b1 W2 b2 hf n h

/-! ### Pooling by counts is pooling over the edges -/

theorem pool_src (hr : InRange ei bt) (hf : Finite x W0 b0 W1 b1 W2 b2) (l : ℕ) (g : Fin 64)
    (h : Fin 128) :
    (∑ n : Fin 20000, csrc ei bt n g * zl x W0 b0 W1 b1 W2 b2 l n h)
      = ∑ e : Fin 640000, if eb ei bt e = g.val then
          zN x W0 b0 W1 b1 W2 b2 l (src ei e) h else 0 := by
  rw [Finset.sum_congr rfl (fun n _ => by rw [csrc_eq ei bt hr n g])]
  rw [pool_gen (srcF ei bt hr) (fun e => eb ei bt e = g.val)
    (fun n => zl x W0 b0 W1 b1 W2 b2 l n h) (fun n => isR_zl x W0 b0 W1 b1 W2 b2 hf l n h)]
  refine Finset.sum_congr rfl (fun e _ => ?_)
  have hz : zN x W0 b0 W1 b1 W2 b2 l (src ei e) h
      = zl x W0 b0 W1 b1 W2 b2 l (srcF ei bt hr e) h := by
    unfold zN
    rw [dif_pos (hr.src_lt e)]
    rfl
  rw [hz]

theorem pool_dst (hr : InRange ei bt) (hf : Finite x W0 b0 W1 b1 W2 b2) (l : ℕ) (g : Fin 64)
    (h : Fin 128) :
    (∑ n : Fin 20000, cdst ei bt n g * zl x W0 b0 W1 b1 W2 b2 l n h)
      = ∑ e : Fin 640000, if eb ei bt e = g.val then
          zN x W0 b0 W1 b1 W2 b2 l (dst ei e) h else 0 := by
  rw [Finset.sum_congr rfl (fun n _ => by rw [cdst_eq ei bt hr n g])]
  rw [pool_gen (dstF ei bt hr) (fun e => eb ei bt e = g.val)
    (fun n => zl x W0 b0 W1 b1 W2 b2 l n h) (fun n => isR_zl x W0 b0 W1 b1 W2 b2 hf l n h)]
  refine Finset.sum_congr rfl (fun e _ => ?_)
  have hz : zN x W0 b0 W1 b1 W2 b2 l (dst ei e) h
      = zl x W0 b0 W1 b1 W2 b2 l (dstF ei bt hr e) h := by
    unfold zN
    rw [dif_pos (hr.dst_lt e)]
    rfl
  rw [hz]

/-! ### The four row blocks and the column bookkeeping -/

theorem summed_eq (q : Fin 128) (k : Fin 384) :
    summed x ei bt W0 b0 W1 b1 W2 b2 q k
      = ∑ n : Fin 20000, cpk ei bt n q * zcat x W0 b0 W1 b1 W2 b2 n k := by
  unfold summed P half
  exact (sum_rows (fun n => cpk ei bt n q * zcat x W0 b0 W1 b1 W2 b2 n k)).symm

theorem zcat_eq (n : Fin 20000) (k : Fin 384) (l : ℕ) (h : Fin 128) (hl : k.val / 128 = l)
    (hh : k.val % 128 = h.val) :
    zcat x W0 b0 W1 b1 W2 b2 n k = zl x W0 b0 W1 b1 W2 b2 l n h := by
  unfold zcat
  have e : (⟨k.val % 128, Nat.mod_lt _ (by decide)⟩ : Fin 128) = h := Fin.ext hh
  rw [e, hl]

theorem cpk_src (n : Fin 20000) (q : Fin 128) (g : Fin 64) (hq : q.val = g.val) :
    cpk ei bt n q = csrc ei bt n g := by
  have hg := g.isLt
  unfold cpk
  rw [dif_pos (by omega)]
  congr 1
  exact Fin.ext hq

theorem cpk_dst (n : Fin 20000) (q : Fin 128) (g : Fin 64) (hq : q.val = 64 + g.val) :
    cpk ei bt n q = cdst ei bt n g := by
  unfold cpk
  rw [dif_neg (by omega)]
  congr 1
  refine Fin.ext ?_
  simp only
  omega

theorem refPool_src (l : ℕ) (g : Fin 64) (q : Fin 256) (h : Fin 128) (hq : q.val < 128)
    (hh : h.val = q.val) :
    refPool x ei bt W0 b0 W1 b1 W2 b2 l g q
      = ∑ e : Fin 640000, if eb ei bt e = g.val then
          zN x W0 b0 W1 b1 W2 b2 l (src ei e) h else 0 := by
  unfold refPool
  have e : (⟨q.val % 128, Nat.mod_lt _ (by decide)⟩ : Fin 128) = h := Fin.ext (by simp only; omega)
  rw [e]
  simp only [endpoint, hq, if_true]

theorem refPool_dst (l : ℕ) (g : Fin 64) (q : Fin 256) (h : Fin 128) (hq : ¬ q.val < 128)
    (hh : h.val + 128 = q.val) :
    refPool x ei bt W0 b0 W1 b1 W2 b2 l g q
      = ∑ e : Fin 640000, if eb ei bt e = g.val then
          zN x W0 b0 W1 b1 W2 b2 l (dst ei e) h else 0 := by
  unfold refPool
  have e : (⟨q.val % 128, Nat.mod_lt _ (by decide)⟩ : Fin 128) = h := by
    have := q.isLt
    exact Fin.ext (by simp only; omega)
  rw [e]
  simp only [endpoint, hq, if_false]

/-! ### The two results agree -/

theorem kout_eq_out (hr : InRange ei bt) (hf : Finite x W0 b0 W1 b1 W2 b2) (g : Fin 64)
    (col : Fin 768) :
    kout x ei bt W0 b0 W1 b1 W2 b2 g col = out x ei bt W0 b0 W1 b1 W2 b2 g col := by
  have hcol := col.isLt
  have hg := g.isLt
  unfold kout out
  rw [kinv_eq_inv ei bt hr g]
  refine congrArg (fun t => t * inv ei bt g) ?_
  by_cases hc : col.val % 256 < 128
  · rw [dif_pos hc, summed_eq]
    let h : Fin 128 := ⟨col.val % 256, hc⟩
    rw [refPool_src x ei bt W0 b0 W1 b1 W2 b2 (col.val / 256) g _ h hc rfl,
      ← pool_src x ei bt W0 b0 W1 b1 W2 b2 hr hf (col.val / 256) g h]
    refine Finset.sum_congr rfl (fun n _ => ?_)
    rw [cpk_src ei bt n _ g rfl,
      zcat_eq x W0 b0 W1 b1 W2 b2 n _ (col.val / 256) h (by simp only; omega) (by simp only [h]; omega)]
  · rw [dif_neg hc, summed_eq]
    let h : Fin 128 := ⟨col.val % 256 - 128, by omega⟩
    rw [refPool_dst x ei bt W0 b0 W1 b1 W2 b2 (col.val / 256) g _ h hc (by simp only [h]; omega),
      ← pool_dst x ei bt W0 b0 W1 b1 W2 b2 hr hf (col.val / 256) g h]
    refine Finset.sum_congr rfl (fun n _ => ?_)
    rw [cpk_dst ei bt n _ g rfl,
      zcat_eq x W0 b0 W1 b1 W2 b2 n _ (col.val / 256) h (by simp only; omega) (by simp only [h]; omega)]

end Values

end Cert.Spec

end
-- ==== Proof.PreDecode.lean ====
/-
  The precondition read back as propositions about the inputs.

  The precondition is a conjunction of nine tests, each a conjunction over all entries of one input: for each of
  the seven float inputs, |a| < +∞ at every entry; for the edge list, 0 ≤ w < 20000 at every entry read as a signed
  word; for the graph ids, 0 ≤ w < 64.  A conjunction of bits is 1 exactly when each bit is 1, so each test holds at
  every entry.  An extended real with max(a, −a) < +∞ is neither infinity, hence a real number; a word that is
  nonnegative as a signed number reads the same unsigned, so its unsigned value is below the bound too.
-/
import proofs.«403037_j2001454760607_3_alg».proof.Pre_finite_inputs
import proofs.«403037_j2001454760607_3_alg».proof.Proof.Gen.Pre_finite_inputs
import proofs.«403037_j2001454760607_3_alg».proof.Proof.Spec
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx
open Cert.Pre_finite_inputs (S_ S20000x256 S2x640000 S20000 S256x128 S128 S128x128)

/-- The rank-0 shape has one index. -/
instance : Subsingleton S_.Idx := ⟨fun _ _ => funext fun d => d.elim0⟩

/-- The f32 pattern 0x7F800000 denotes +∞. -/
theorem inf_eq_top : Ideal.ofBits .f32 0x7F800000#32 = (⊤ : EReal) := by simp [Ideal.ofBits, Ideal.ieee]

/-- An extended real whose absolute value max x (−x) lies strictly below +∞ is a real number: at −∞ and at +∞
    the absolute value is +∞ itself. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | coe r => exact ⟨r, rfl⟩
  | top => simp [Ideal.cmp] at h

/-- A 32-bit word that tests 0 ≤ w and w < k as a signed number, k below 2³¹, has unsigned value below k. -/
theorem toNat_lt_of_range (w : BitVec 32) (k : ℕ) (hk : k < 2 ^ 31)
    (h : IntOp.andi (IntOp.cmpi .sge w 0#32) (IntOp.cmpi .slt w (BitVec.ofNat 32 k)) = 1#1) : w.toNat < k := by
  obtain ⟨h1, h2⟩ := IntOp.andi_eq_one.1 h
  rw [IntOp.cmpi_sge, show (0#32 : BitVec 32).toInt = 0 from by decide] at h1
  rw [IntOp.cmpi_slt, StableHlo.Predicate.toInt_ofNat_small k hk] at h2
  have hw : 2 * w.toNat < 2 ^ 32 := BitVec.toInt_pos_iff.1 h1
  rw [StableHlo.Predicate.toInt_eq_toNat_of_lt (by omega)] at h2
  omega

/-- The "all entries finite" test of one float input: if the conjunction over all entries of |a| < +∞ is 1, every
    entry of a is a real number. -/
theorem real_of_all {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi
          (cmpf .olt (Host.absf a) (broadcastInDim s ![] hb (constant (F := Ideal) S_ .f32 0x7F800000#32)))
          (constantI S_ 1 1#1) hr h0 ix0 = 1#1) (i : s.Idx) : ∃ r : ℝ, a i = (r : EReal) :=
  real_of_abs_lt (a i) (Host.reduce_andi_all _ _ hr h0 ix0 h i)

/-- The range test of one integer input: if the conjunction over all entries of 0 ≤ a ∧ a < k is 1, every entry
    has unsigned value below k. -/
theorem lt_of_all {s : Shape} {axes : List (Fin s.rank)} (a : IVec s 32) (k : ℕ) (hk : k < 2 ^ 31)
    (hb : S_.BroadcastsInDim s (![] : Fin 0 → Fin s.rank)) (hr : s.ReducesTo axes S_) (h0 : 0 < S_.numel)
    (h : Host.reduce IntOp.andi
          (andi (cmpi .sge a (broadcastInDim s ![] hb (constantI S_ 32 0#32)))
            (cmpi .slt a (broadcastInDim s ![] hb (constantI S_ 32 (BitVec.ofNat 32 k)))))
          (constantI S_ 1 1#1) hr h0 ix0 = 1#1) (i : s.Idx) : (a i).toNat < k :=
  toNat_lt_of_range (a i) k hk (Host.reduce_andi_all _ _ hr h0 ix0 h i)

/-- The printed precondition, read back: the edge endpoints are nodes, the graph ids are among the 64 graphs, and
    every float entry is a real number. -/
theorem decode [Cert.Pre_finite_inputs.Facts] (x : FVec Ideal Cert.Pre_finite_inputs.S20000x256 .f32)
    (ei : IVec Cert.Pre_finite_inputs.S2x640000 32) (bt : IVec Cert.Pre_finite_inputs.S20000 32)
    (W0 : FVec Ideal Cert.Pre_finite_inputs.S256x128 .f32) (b0 : FVec Ideal Cert.Pre_finite_inputs.S128 .f32)
    (W1 : FVec Ideal Cert.Pre_finite_inputs.S128x128 .f32) (b1 : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x ei bt W0 b0 W1 b1 W2 b2 = fun _ => 1#1) :
    Cert.Spec.InRange ei bt ∧ Cert.Spec.Finite x W0 b0 W1 b1 W2 b2 := by
  have h0 := congrFun h ix0
  dsimp only [Cert.Pre_finite_inputs.fn, Cert.Pre_finite_inputs.fn_part1, Cert.Pre_finite_inputs.fn_part2] at h0
  -- the nine conjuncts, outermost first
  obtain ⟨h8, hbt⟩ := IntOp.andi_eq_one.1 h0
  obtain ⟨h7, hei⟩ := IntOp.andi_eq_one.1 h8
  obtain ⟨h6, hb2⟩ := IntOp.andi_eq_one.1 h7
  obtain ⟨h5, hW2⟩ := IntOp.andi_eq_one.1 h6
  obtain ⟨h4, hb1⟩ := IntOp.andi_eq_one.1 h5
  obtain ⟨h3, hW1⟩ := IntOp.andi_eq_one.1 h4
  obtain ⟨h2, hb0⟩ := IntOp.andi_eq_one.1 h3
  obtain ⟨hx, hW0⟩ := IntOp.andi_eq_one.1 h2
  refine ⟨⟨fun e => ?_, fun e => ?_, fun n => ?_⟩, ⟨?_, ?_, ?_, ?_, ?_, ?_, ?_⟩⟩
  · exact lt_of_all ei 20000 (by norm_num) _ _ _ hei (ix2 (0 : Fin 2) e)
  · exact lt_of_all ei 20000 (by norm_num) _ _ _ hei (ix2 (1 : Fin 2) e)
  · exact lt_of_all bt 64 (by norm_num) _ _ _ hbt (ix1 n)
  · exact real_of_all x _ _ _ hx
  · exact real_of_all W0 _ _ _ hW0
  · exact real_of_all b0 _ _ _ hb0
  · exact real_of_all W1 _ _ _ hW1
  · exact real_of_all b1 _ _ _ hb1
  · exact real_of_all W2 _ _ _ hW2
  · exact real_of_all b2 _ _ _ hb2

end Cert.PreDecode
-- ==== Proof.lean ====
/-
  The kernel pools node embeddings per graph through a packed edge-count table and one wide product; the
  reference pools them edge by edge.  Both programs run to the end and leave their inputs unchanged (the three
  frames), the idealized kernel is the printed kernel read over the extended reals with no rewrite (so there is
  nothing to preserve), and from inputs that agree the two idealized programs end with the same [64 × 768] result.

  The inputs are finite, every edge endpoint is a node and every graph id is one of the 64 graphs (the
  precondition, decoded once).  The kernel's result is the function kout of its inputs (the host prefix builds the
  packed counts cpk and 1/max(count,1); the region leaves, per core, the product of cpkᵀ with the three layers side
  by side over that core's rows; the host tail adds the cores, re-lays the rows and scales).  The reference's result
  is the function out.  The two are one function: a count times a real embedding is that embedding summed over
  the counted edges.
-/
import proofs.«403037_j2001454760607_3_alg».proof.Defs
import proofs.«403037_j2001454760607_3_alg».proof.Proof.Gen.Kernel
import proofs.«403037_j2001454760607_3_alg».proof.Proof.Gen.KernelIdeal
import proofs.«403037_j2001454760607_3_alg».proof.Proof.Gen.ReferenceIdeal
import proofs.«403037_j2001454760607_3_alg».proof.Proof.Gen.Pre_finite_inputs
import proofs.«403037_j2001454760607_3_alg».proof.Proof.KFrameB
import proofs.«403037_j2001454760607_3_alg».proof.Proof.KValue
import proofs.«403037_j2001454760607_3_alg».proof.Proof.RValue
import proofs.«403037_j2001454760607_3_alg».proof.Proof.SpecLaw
import proofs.«403037_j2001454760607_3_alg».proof.Proof.PreDecode
import Idealize.ShloMosaic.Adequacy
import Idealize.ShloMosaic.Init

noncomputable section

namespace Cert.Proof

open Idealize.ShloMosaic Idealize.SL.Sem

/-- The word-level kernel runs and keeps its inputs. -/
theorem frame_k : Cert.frame_Kernel (hKernel := Cert.Kernel.Gen.facts) (hPre_finite_inputs := Cert.Pre_finite_inputs.Gen.facts) :=
  fun m ρ _ => Cert.Kernel.Hand.frame m ρ

/-- The idealized kernel runs and keeps its inputs. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The precondition at one core, decoded: the index ranges and the finiteness of the float inputs. -/
theorem pre_at (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Spec.InRange (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      ∧ Cert.Spec.Finite (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) :=
  @Cert.PreDecode.decode Cert.Pre_finite_inputs.Gen.facts _ _ _ _ _ _ _ _ _ (h c)

/-- From inputs that agree, both idealized programs end at the same result: the kernel at kout, the reference
    at out, and the two functions are equal on finite inputs with indices in range. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ c, _ := fun c => (pre_at m hpre c).1
  have hf : ∀ c, _ := fun c => (pre_at m hpre c).2
  refine ⟨_, Cert.KernelIdeal.HandValue.run_value m ρ hr, ?_⟩
  have hr' : ∀ c : Dev Cert.ReferenceIdeal.nD, Cert.Spec.InRange
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := fun c => by
    rw [(hagree c).2.1, (hagree c).2.2.1]; exact hr c
  refine (θ_run (Cert.ReferenceIdeal.defs (F := Ideal)) _ _).mono (fun r h c => ⟨(h c).1.trans ?_, (h c).2⟩)
    (Cert.ReferenceIdeal.RefValue.run_value m' ρ' hr')
  obtain ⟨h0, h1, h2, h3, h4, h5, h6, h7, h8⟩ := hagree c
  rw [h0, h1, h2, h3, h4, h5, h6, h7, h8]
  funext i
  exact (Cert.Spec.kout_eq_out _ _ _ _ _ _ _ _ _ (hr c) (hf c) (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
